-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S200000 : Shape := ⟨1, ![200000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S1000000 : S_.BroadcastsInDim S1000000 (![] : Fin 0 → Fin S1000000.rank)
  reducesTo_S1000000_S_d0 : S1000000.ReducesTo [0] S_
  bcast_S_S200000 : S_.BroadcastsInDim S200000 (![] : Fin 0 → Fin S200000.rank)
  reducesTo_S200000_S_d0 : S200000.ReducesTo [0] S_

variable [Facts]

def fn_part4 {F : FTy → Type} [FloatOps F] (main_arg4 : IVec S200000 32) (main_v67 : IVec S_ 1) : IVec S_ 1 :=
  let main_c_26 : IVec S_ 32 := constantI S_ 32 0#32
  let main_v68 : IVec S200000 32 := broadcastInDim S200000 ![] bcast_S_S200000 main_c_26
  let main_v69 : IVec S200000 1 := cmpi .sge main_arg4 main_v68
  let main_c_27 : IVec S_ 32 := constantI S_ 32 100000#32
  let main_v70 : IVec S200000 32 := broadcastInDim S200000 ![] bcast_S_S200000 main_c_27
  let main_v71 : IVec S200000 1 := cmpi .slt main_arg4 main_v70
  let main_v72 : IVec S200000 1 := andi main_v69 main_v71
  let main_c_28 : IVec S_ 1 := constantI S_ 1 1#1
  let main_v73 : IVec S_ 1 := (fun x v => Host.reduce IntOp.andi x v reducesTo_S200000_S_d0 h_S_) main_v72 main_c_28
  let main_v74 : IVec S_ 1 := andi main_v67 main_v73
  main_v74

def fn_part3 {F : FTy → Type} [FloatOps F] (main_arg1 : IVec S1000000 32) (main_arg3 : IVec S200000 32) (main_arg4 : IVec S200000 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_c_20 : IVec S_ 32 := constantI S_ 32 0#32
  let main_v54 : IVec S1000000 32 := broadcastInDim S1000000 ![] bcast_S_S1000000 main_c_20
  let main_v55 : IVec S1000000 1 := cmpi .sge main_arg1 main_v54
  let main_c_21 : IVec S_ 32 := constantI S_ 32 100000#32
  let main_v56 : IVec S1000000 32 := broadcastInDim S1000000 ![] bcast_S_S1000000 main_c_21
  let main_v57 : IVec S1000000 1 := cmpi .slt main_arg1 main_v56
  let main_v58 : IVec S1000000 1 := andi main_v55 main_v57
  let main_c_22 : IVec S_ 1 := constantI S_ 1 1#1
  let main_v59 : IVec S_ 1 := (fun x v => Host.reduce IntOp.andi x v reducesTo_S1000000_S_d0 h_S_) main_v58 main_c_22
  let main_v60 : IVec S_ 1 := andi main_v53 main_v59
  let main_c_23 : IVec S_ 32 := constantI S_ 32 0#32
  let main_v61 : IVec S200000 32 := broadcastInDim S200000 ![] bcast_S_S200000 main_c_23
  let main_v62 : IVec S200000 1 := cmpi .sge main_arg3 main_v61
  let main_c_24 : IVec S_ 32 := constantI S_ 32 100000#32
  let main_v63 : IVec S200000 32 := broadcastInDim S200000 ![] bcast_S_S200000 main_c_24
  let main_v64 : IVec S200000 1 := cmpi .slt main_arg3 main_v63
  let main_v65 : IVec S200000 1 := andi main_v62 main_v64
  let main_c_25 : IVec S_ 1 := constantI S_ 1 1#1
  let main_v66 : IVec S_ 1 := (fun x v => Host.reduce IntOp.andi x v reducesTo_S200000_S_d0 h_S_) main_v65 main_c_25
  let main_v67 : IVec S_ 1 := andi main_v60 main_v66
  fn_part4 (F := F) main_arg4 main_v67

def fn_part2 {F : FTy → Type} [FloatOps F] (main_arg1 : IVec S1000000 32) (main_arg3 : IVec S200000 32) (main_arg4 : IVec S200000 32) (main_arg11 : FVec F S128x64 .f32) (main_arg12 : FVec F S64 .f32) (main_arg13 : FVec F S64x2 .f32) (main_arg14 : FVec F S2 .f32) (main_v33 : IVec S_ 1) : IVec S_ 1 :=
  let main_v34 : FVec F S128x64 .f32 := Host.absf main_arg11
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg13
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg14
  let main_cst_18 : FVec F S_ .f32 := constant S_ .f32 0x7F800000#32
  let main_v50 : FVec F S2 .f32 := broadcastInDim S2 ![] bcast_S_S2 main_cst_18
  fn_part3 (F := F) main_arg1 main_arg3 main_arg4 main_v48 main_v49 main_v50

def fn_part1 {F : FTy → Type} [FloatOps F] (main_arg1 : IVec S1000000 32) (main_arg3 : IVec S200000 32) (main_arg4 : IVec S200000 32) (main_arg8 : FVec F S64 .f32) (main_arg9 : FVec F S64x64 .f32) (main_arg10 : FVec F S64 .f32) (main_arg11 : FVec F S128x64 .f32) (main_arg12 : FVec F S64 .f32) (main_arg13 : FVec F S64x2 .f32) (main_arg14 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg3 main_arg4 main_arg11 main_arg12 main_arg13 main_arg14 main_v33

def fn {F : FTy → Type} [FloatOps F] (main_arg0 : FVec F S100000x64 .f32) (main_arg1 : IVec S1000000 32) (main_arg2 : IVec S1000000 32) (main_arg3 : IVec S200000 32) (main_arg4 : IVec S200000 32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S128x64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg3 main_arg4 main_arg8 main_arg9 main_arg10 main_arg11 main_arg12 main_arg13 main_arg14 main_v13 main_v16
-- ==== Kernel.lean ====
abbrev S100000x64 : Shape := ⟨2, ![100000, 64]⟩
abbrev S1000000 : Shape := ⟨1, ![1000000]⟩
abbrev S200000 : Shape := ⟨1, ![200000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S10000x64 : Shape := ⟨2, ![10000, 64]⟩
abbrev S10000x1 : Shape := ⟨2, ![10000, 1]⟩
abbrev S1 : Shape := ⟨1, ![1]⟩
abbrev S1x1 : Shape := ⟨2, ![1, 1]⟩
abbrev S1000000x64 : Shape := ⟨2, ![1000000, 64]⟩
abbrev S1x64 : Shape := ⟨2, ![1, 64]⟩
abbrev S200000x1 : Shape := ⟨2, ![200000, 1]⟩
abbrev S200000x64 : Shape := ⟨2, ![200000, 64]⟩
abbrev S200000x128 : Shape := ⟨2, ![200000, 128]⟩
abbrev S1x2 : Shape := ⟨2, ![1, 2]⟩
abbrev S200000x2 : Shape := ⟨2, ![200000, 2]⟩
abbrev S10000x128 : Shape := ⟨2, ![10000, 128]⟩
abbrev S10000x2 : Shape := ⟨2, ![10000, 2]⟩
abbrev S10000 : Shape := ⟨1, ![10000]⟩

abbrev nBuf : Space → Nat
  | .hbm => 181
  | .vmem => 50
  | .smem => 0
  | _ => 0

abbrev hbmTy0_0 (i : Nat) : BufTy := match i % 128 with
  | 0 => ⟨S100000x64, .f32⟩
  | 1 => ⟨S1000000, .i32⟩
  | 2 => ⟨S1000000, .i32⟩
  | 3 => ⟨S200000, .i32⟩
  | 4 => ⟨S200000, .i32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x64, .f32⟩
  | 12 => ⟨S64, .f32⟩
  | 13 => ⟨S64x2, .f32⟩
  | 14 => ⟨S2, .f32⟩
  | 15 => ⟨S_, .f32⟩
  | 16 => ⟨S1000000, .f32⟩
  | 17 => ⟨S_, .f32⟩
  | 18 => ⟨S100000, .f32⟩
  | 19 => ⟨S1000000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x1, .f32⟩
  | 41 => ⟨S100000x64, .f32⟩
  | 42 => ⟨S_, .i32⟩
  | 43 => ⟨S1000000, .i32⟩
  | 44 => ⟨S1000000, .i1⟩
  | 45 => ⟨S_, .i32⟩
  | 46 => ⟨S1000000, .i32⟩
  | 47 => ⟨S1000000, .i32⟩
  | 48 => ⟨S1000000, .i32⟩
  | 49 => ⟨S1000000x1, .i32⟩
  | 50 => ⟨S1, .i32⟩
  | 51 => ⟨S_, .i32⟩
  | 52 => ⟨S1000000x1, .i32⟩
  | 53 => ⟨S1000000x1, .i1⟩
  | 54 => ⟨S1x1, .i32⟩
  | 55 => ⟨S1000000x1, .i32⟩
  | 56 => ⟨S1000000x1, .i1⟩
  | 57 => ⟨S1000000x1, .i1⟩
  | 58 => ⟨S_, .i1⟩
  | 59 => ⟨S1000000, .i1⟩
  | 60 => ⟨S1000000x64, .f32⟩
  | 61 => ⟨S1000000x64, .i1⟩
  | 62 => ⟨S_, .f32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S1x64, .f32⟩
  | 70 => ⟨S100000x64, .f32⟩
  | 71 => ⟨S100000x64, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1, .i32⟩
  | 81 => ⟨S_, .i32⟩
  | 82 => ⟨S1000000x1, .i32⟩
  | 83 => ⟨S1000000x1, .i1⟩
  | 84 => ⟨S1x1, .i32⟩
  | 85 => ⟨S1000000x1, .i32⟩
  | 86 => ⟨S1000000x1, .i1⟩
  | 87 => ⟨S1000000x1, .i1⟩
  | 88 => ⟨S_, .i1⟩
  | 89 => ⟨S1000000, .i1⟩
  | 90 => ⟨S1000000x64, .f32⟩
  | 91 => ⟨S1000000x64, .i1⟩
  | 92 => ⟨S_, .f32⟩
  | 93 => ⟨S1000000x64, .f32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S1x64, .f32⟩
  | 100 => ⟨S100000x64, .f32⟩
  | 101 => ⟨S100000x64, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1, .i32⟩
  | 111 => ⟨S_, .i32⟩
  | 112 => ⟨S1000000x1, .i32⟩
  | 113 => ⟨S1000000x1, .i1⟩
  | 114 => ⟨S1x1, .i32⟩
  | 115 => ⟨S1000000x1, .i32⟩
  | 116 => ⟨S1000000x1, .i1⟩
  | 117 => ⟨S1000000x1, .i1⟩
  | 118 => ⟨S_, .i1⟩
  | 119 => ⟨S1000000, .i1⟩
  | 120 => ⟨S1000000x64, .f32⟩
  | 121 => ⟨S1000000x64, .i1⟩
  | 122 => ⟨S_, .f32⟩
  | 123 => ⟨S1000000x64, .f32⟩
  | 124 => ⟨S1000000x64, .f32⟩
  | 125 => ⟨S_, .f32⟩
  | 126 => ⟨S100000x64, .f32⟩
  | 127 => ⟨S1000000x1, .i32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S200000x1, .i32⟩
  | 11 => ⟨S1, .i32⟩
  | 12 => ⟨S_, .i32⟩
  | 13 => ⟨S200000x1, .i32⟩
  | 14 => ⟨S200000x1, .i1⟩
  | 15 => ⟨S1x1, .i32⟩
  | 16 => ⟨S200000x1, .i32⟩
  | 17 => ⟨S200000x1, .i1⟩
  | 18 => ⟨S200000x1, .i1⟩
  | 19 => ⟨S_, .i1⟩
  | 20 => ⟨S200000, .i1⟩
  | 21 => ⟨S200000x64, .f32⟩
  | 22 => ⟨S200000x64, .i1⟩
  | 23 => ⟨S_, .f32⟩
  | 24 => ⟨S200000x64, .f32⟩
  | 25 => ⟨S200000x64, .f32⟩
  | 26 => ⟨S_, .i32⟩
  | 27 => ⟨S200000, .i32⟩
  | 28 => ⟨S200000, .i1⟩
  | 29 => ⟨S_, .i32⟩
  | 30 => ⟨S200000, .i32⟩
  | 31 => ⟨S200000, .i32⟩
  | 32 => ⟨S200000, .i32⟩
  | 33 => ⟨S200000x1, .i32⟩
  | 34 => ⟨S1, .i32⟩
  | 35 => ⟨S_, .i32⟩
  | 36 => ⟨S200000x1, .i32⟩
  | 37 => ⟨S200000x1, .i1⟩
  | 38 => ⟨S1x1, .i32⟩
  | 39 => ⟨S200000x1, .i32⟩
  | 40 => ⟨S200000x1, .i1⟩
  | 41 => ⟨S200000x1, .i1⟩
  | 42 => ⟨S_, .i1⟩
  | 43 => ⟨S200000, .i1⟩
  | 44 => ⟨S200000x64, .f32⟩
  | 45 => ⟨S200000x64, .i1⟩
  | 46 => ⟨S_, .f32⟩
  | 47 => ⟨S200000x64, .f32⟩
  | 48 => ⟨S200000x64, .f32⟩
  | 49 => ⟨S200000x128, .f32⟩
  | 50 => ⟨S1x64, .f32⟩
  | 51 => ⟨S1x2, .f32⟩
  | 52 => ⟨S200000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S64x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x1, .f32⟩
  | .local _ .vmem, ⟨17, _⟩ => ⟨S10000x1, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x1, .f32⟩
  | .local _ .vmem, ⟨31, _⟩ => ⟨S10000x1, .f32⟩
  | .local _ .vmem, ⟨32, _⟩ => ⟨S64x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S10000x128, .f32⟩
  | .local _ .vmem, ⟨43, _⟩ => ⟨S10000x128, .f32⟩
  | .local _ .vmem, ⟨44, _⟩ => ⟨S128x64, .f32⟩
  | .local _ .vmem, ⟨45, _⟩ => ⟨S1x64, .f32⟩
  | .local _ .vmem, ⟨46, _⟩ => ⟨S64x2, .f32⟩
  | .local _ .vmem, ⟨47, _⟩ => ⟨S1x2, .f32⟩
  | .local _ .vmem, ⟨48, _⟩ => ⟨S10000x2, .f32⟩
  | .local _ .vmem, ⟨49, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v16 : Ref sig .tc := ⟨.hbm, 64, rfl⟩
abbrev main_cst_6 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_call3_cst : Ref sig .tc := ⟨.hbm, 92, rfl⟩
abbrev main_call3_v15 : Ref sig .tc := ⟨.hbm, 93, rfl⟩
abbrev main_v23 : Ref sig .tc := ⟨.hbm, 94, rfl⟩
abbrev main_cst_7 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_call4_c : Ref sig .tc := ⟨.hbm, 102, rfl⟩
abbrev main_call4_v0 : Ref sig .tc := ⟨.hbm, 103, rfl⟩
abbrev main_call4_v1 : Ref sig .tc := ⟨.hbm, 104, rfl⟩
abbrev main_call4_c_0 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_c_1 : Ref sig .tc := ⟨.hbm, 110, rfl⟩
abbrev main_call4_c_2 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_c_3 : Ref sig .tc := ⟨.hbm, 118, rfl⟩
abbrev main_call4_v12 : Ref sig .tc := ⟨.hbm, 119, rfl⟩
abbrev main_call4_v13 : Ref sig .tc := ⟨.hbm, 120, rfl⟩
abbrev main_call4_v14 : Ref sig .tc := ⟨.hbm, 121, rfl⟩
abbrev main_call4_cst : Ref sig .tc := ⟨.hbm, 122, rfl⟩
abbrev main_call4_v15 : Ref sig .tc := ⟨.hbm, 123, rfl⟩
abbrev main_v30 : Ref sig .tc := ⟨.hbm, 124, rfl⟩
abbrev main_cst_8 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_call5_c : Ref sig .tc := ⟨.hbm, 131, rfl⟩
abbrev main_call5_v0 : Ref sig .tc := ⟨.hbm, 132, rfl⟩
abbrev main_call5_v1 : Ref sig .tc := ⟨.hbm, 133, rfl⟩
abbrev main_call5_c_0 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_c_1 : Ref sig .tc := ⟨.hbm, 139, rfl⟩
abbrev main_call5_c_2 : Ref sig .tc := ⟨.hbm, 140, rfl⟩
abbrev main_call5_v6 : Ref sig .tc := ⟨.hbm, 141, rfl⟩
abbrev main_call5_v7 : Ref sig .tc := ⟨.hbm, 142, rfl⟩
abbrev main_call5_v8 : Ref sig .tc := ⟨.hbm, 143, rfl⟩
abbrev main_call5_v9 : Ref sig .tc := ⟨.hbm, 144, rfl⟩
abbrev main_call5_v10 : Ref sig .tc := ⟨.hbm, 145, rfl⟩
abbrev main_call5_v11 : Ref sig .tc := ⟨.hbm, 146, rfl⟩
abbrev main_call5_c_3 : Ref sig .tc := ⟨.hbm, 147, rfl⟩
abbrev main_call5_v12 : Ref sig .tc := ⟨.hbm, 148, rfl⟩
abbrev main_call5_v13 : Ref sig .tc := ⟨.hbm, 149, rfl⟩
abbrev main_call5_v14 : Ref sig .tc := ⟨.hbm, 150, rfl⟩
abbrev main_call5_cst : Ref sig .tc := ⟨.hbm, 151, rfl⟩
abbrev main_call5_v15 : Ref sig .tc := ⟨.hbm, 152, rfl⟩
abbrev main_v36 : Ref sig .tc := ⟨.hbm, 153, rfl⟩
abbrev main_call6_c : Ref sig .tc := ⟨.hbm, 154, rfl⟩
abbrev main_call6_v0 : Ref sig .tc := ⟨.hbm, 155, rfl⟩
abbrev main_call6_v1 : Ref sig .tc := ⟨.hbm, 156, rfl⟩
abbrev main_call6_c_0 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_v5 : Ref sig .tc := ⟨.hbm, 161, rfl⟩
abbrev main_call6_c_1 : Ref sig .tc := ⟨.hbm, 162, rfl⟩
abbrev main_call6_c_2 : Ref sig .tc := ⟨.hbm, 163, rfl⟩
abbrev main_call6_v6 : Ref sig .tc := ⟨.hbm, 164, rfl⟩
abbrev main_call6_v7 : Ref sig .tc := ⟨.hbm, 165, rfl⟩
abbrev main_call6_v8 : Ref sig .tc := ⟨.hbm, 166, rfl⟩
abbrev main_call6_v9 : Ref sig .tc := ⟨.hbm, 167, rfl⟩
abbrev main_call6_v10 : Ref sig .tc := ⟨.hbm, 168, rfl⟩
abbrev main_call6_v11 : Ref sig .tc := ⟨.hbm, 169, rfl⟩
abbrev main_call6_c_3 : Ref sig .tc := ⟨.hbm, 170, rfl⟩
abbrev main_call6_v12 : Ref sig .tc := ⟨.hbm, 171, rfl⟩
abbrev main_call6_v13 : Ref sig .tc := ⟨.hbm, 172, rfl⟩
abbrev main_call6_v14 : Ref sig .tc := ⟨.hbm, 173, rfl⟩
abbrev main_call6_cst : Ref sig .tc := ⟨.hbm, 174, rfl⟩
abbrev main_call6_v15 : Ref sig .tc := ⟨.hbm, 175, rfl⟩
abbrev main_v37 : Ref sig .tc := ⟨.hbm, 176, rfl⟩
abbrev main_v38 : Ref sig .tc := ⟨.hbm, 177, rfl⟩
abbrev main_v39 : Ref sig .tc := ⟨.hbm, 178, rfl⟩
abbrev main_v40 : Ref sig .tc := ⟨.hbm, 179, rfl⟩
abbrev main_v41 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg4_0 : Ref sig .tc := ⟨.vmem, 47, rfl⟩
abbrev cc6_stg5_0 : Ref sig .tc := ⟨.vmem, 48, rfl⟩
abbrev cc6_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem4_0 : DmaSem sig := 47
abbrev cc6_sem5_0 : DmaSem sig := 48
abbrev cc6_sem5_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x64_0 : S200000.BroadcastsInDim S200000x64 (![0] : Fin 1 → Fin S200000x64.rank)
  bcast_S_S200000x64 : S_.BroadcastsInDim S200000x64 (![] : Fin 0 → Fin S200000x64.rank)
  concatenates_S200000x64_S200000x64_S200000x128_d1 : Shape.Concatenates [S200000x64, S200000x64] S200000x128 1
  shapeCasts_S2_S1x2 : S2.ShapeCasts S1x2
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S200000x1_S200000x64_1_0_n_n_0_1_164_wf : GatherDims.WF S100000x64 S200000x1 S200000x64 [1] [0] [] [0] [] 1 ![1, 64]
  dot_S10000x128_S128x64_S10000x64_1_0_0_1_n_n_wf : DotDims.WF S10000x128 S128x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S200000x128.size a
  hwx6_0 : ∀ i : grid6.Coords, EltTy.bits .f32 = 32 ∨ (Rect.block (s := S200000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x2.size a ≤ S200000x2.size a
  hwx6_5 : ∀ i : grid6.Coords, EltTy.bits .f32 = 32 ∨ (Rect.block (s := S200000x2) S10000x2.size (cc6_transform_5 i) (hinb6_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v28) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v28) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v33) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v34) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v35) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v38) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v39) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S64x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v40) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v41) S10000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x64 : Shape := ⟨2, ![100000, 64]⟩
abbrev S1000000 : Shape := ⟨1, ![1000000]⟩
abbrev S200000 : Shape := ⟨1, ![200000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S200000x1 : Shape := ⟨2, ![200000, 1]⟩
abbrev S200000x64 : Shape := ⟨2, ![200000, 64]⟩
abbrev S200000x128 : Shape := ⟨2, ![200000, 128]⟩
abbrev S200000x2 : Shape := ⟨2, ![200000, 2]⟩
abbrev S1x2 : Shape := ⟨2, ![1, 2]⟩

abbrev nBuf : Space → Nat
  | .hbm => 158
  | .vmem => 0
  | .smem => 0
  | _ => 0

abbrev hbmTy0_0 (i : Nat) : BufTy := match i % 128 with
  | 0 => ⟨S100000x64, .f32⟩
  | 1 => ⟨S1000000, .i32⟩
  | 2 => ⟨S1000000, .i32⟩
  | 3 => ⟨S200000, .i32⟩
  | 4 => ⟨S200000, .i32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x64, .f32⟩
  | 12 => ⟨S64, .f32⟩
  | 13 => ⟨S64x2, .f32⟩
  | 14 => ⟨S2, .f32⟩
  | 15 => ⟨S_, .f32⟩
  | 16 => ⟨S1000000, .f32⟩
  | 17 => ⟨S_, .f32⟩
  | 18 => ⟨S100000, .f32⟩
  | 19 => ⟨S1000000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S1000000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S100000x64, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x64, .f32⟩
  | 52 => ⟨S_, .f32⟩
  | 53 => ⟨S100000x64, .f32⟩
  | 54 => ⟨S1000000x1, .i32⟩
  | 55 => ⟨S100000x64, .f32⟩
  | 56 => ⟨S100000x1, .f32⟩
  | 57 => ⟨S100000x64, .f32⟩
  | 58 => ⟨S100000x64, .f32⟩
  | 59 => ⟨S1x64, .f32⟩
  | 60 => ⟨S100000x64, .f32⟩
  | 61 => ⟨S100000x64, .f32⟩
  | 62 => ⟨S_, .f32⟩
  | 63 => ⟨S100000x64, .f32⟩
  | 64 => ⟨S100000x64, .f32⟩
  | 65 => ⟨S100000x1, .f32⟩
  | 66 => ⟨S100000x64, .f32⟩
  | 67 => ⟨S100000x64, .f32⟩
  | 68 => ⟨S100000x64, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x64, .f32⟩
  | 78 => ⟨S_, .f32⟩
  | 79 => ⟨S100000x64, .f32⟩
  | 80 => ⟨S1000000x1, .i32⟩
  | 81 => ⟨S100000x64, .f32⟩
  | 82 => ⟨S100000x1, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x1, .f32⟩
  | 92 => ⟨S100000x64, .f32⟩
  | 93 => ⟨S100000x64, .f32⟩
  | 94 => ⟨S100000x64, .f32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x64, .f32⟩
  | 104 => ⟨S_, .f32⟩
  | 105 => ⟨S100000x64, .f32⟩
  | 106 => ⟨S1000000x1, .i32⟩
  | 107 => ⟨S100000x64, .f32⟩
  | 108 => ⟨S100000x1, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x64, .f32⟩
  | 123 => ⟨S_, .i32⟩
  | 124 => ⟨S200000, .i32⟩
  | 125 => ⟨S200000, .i1⟩
  | 126 => ⟨S_, .i32⟩
  | 127 => ⟨S200000, .i32⟩
  | _ => ⟨S100000x64, .f32⟩

abbrev hbmTy0_1 (i : Nat) : BufTy := match i % 128 with
  | 0 => ⟨S200000, .i32⟩
  | 1 => ⟨S200000, .i32⟩
  | 2 => ⟨S200000x1, .i32⟩
  | 3 => ⟨S200000x64, .f32⟩
  | 4 => ⟨S200000x128, .f32⟩
  | 5 => ⟨S200000x64, .f32⟩
  | 6 => ⟨S1x64, .f32⟩
  | 7 => ⟨S200000x64, .f32⟩
  | 8 => ⟨S200000x64, .f32⟩
  | 9 => ⟨S_, .f32⟩
  | 10 => ⟨S200000x64, .f32⟩
  | 11 => ⟨S200000x64, .f32⟩
  | 12 => ⟨S200000x2, .f32⟩
  | 13 => ⟨S1x2, .f32⟩
  | 14 => ⟨S200000x2, .f32⟩
  | 15 => ⟨S200000x2, .f32⟩
  | 16 => ⟨S_, .f32⟩
  | 17 => ⟨S200000, .f32⟩
  | 18 => ⟨S_, .f32⟩
  | 19 => ⟨S200000, .f32⟩
  | 20 => ⟨S200000, .f32⟩
  | 21 => ⟨S200000x1, .f32⟩
  | 22 => ⟨S200000x2, .f32⟩
  | 23 => ⟨S200000x2, .f32⟩
  | 24 => ⟨S200000x2, .f32⟩
  | 25 => ⟨S_, .f32⟩
  | 26 => ⟨S200000, .f32⟩
  | 27 => ⟨S200000x1, .f32⟩
  | 28 => ⟨S200000x2, .f32⟩
  | 29 => ⟨S200000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v8 : Ref sig .tc := ⟨.hbm, 32, rfl⟩
abbrev main_cst_4 : Ref sig .tc := ⟨.hbm, 33, rfl⟩
abbrev main_v9 : Ref sig .tc := ⟨.hbm, 34, rfl⟩
abbrev main_v10 : Ref sig .tc := ⟨.hbm, 35, rfl⟩
abbrev main_cst_5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_7 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_call2_cst : Ref sig .tc := ⟨.hbm, 62, rfl⟩
abbrev main_call2_v0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_8 : Ref sig .tc := ⟨.hbm, 69, rfl⟩
abbrev main_v38 : Ref sig .tc := ⟨.hbm, 70, rfl⟩
abbrev main_v39 : Ref sig .tc := ⟨.hbm, 71, rfl⟩
abbrev main_c_9 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_10 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call3_cst : Ref sig .tc := ⟨.hbm, 88, rfl⟩
abbrev main_call3_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_11 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_13 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_c_15 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_call4_cst : Ref sig .tc := ⟨.hbm, 137, rfl⟩
abbrev main_call4_v0 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_18 : Ref sig .tc := ⟨.hbm, 144, rfl⟩
abbrev main_v99 : Ref sig .tc := ⟨.hbm, 145, rfl⟩
abbrev main_cst_19 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_20 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  reducesTo_S200000x2_S200000_d1 : S200000x2.ReducesTo [1] S200000
  h_S_ : 0 < S_.numel
  bcast_S200000x1_S200000x2_0_1 : S200000x1.BroadcastsInDim S200000x2 (![0, 1] : Fin 2 → Fin S200000x2.rank)
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S200000x1_S200000x64_1_0_n_n_0_1_164_wf : GatherDims.WF S100000x64 S200000x1 S200000x64 [1] [0] [] [0] [] 1 ![1, 64]
  dot_S200000x128_S128x64_S200000x64_1_0_0_1_n_n_wf : DotDims.WF S200000x128 S128x64 S200000x64 [1] [0] [0] [1] [] []
  dot_S200000x64_S64x2_S200000x2_1_0_0_1_n_n_wf : DotDims.WF S200000x64 S64x2 S200000x2 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x2_S200000x2_1_0_0_1_n_n : DotDims S200000x64 S64x2 S200000x2 where
  lhsContracting := [1]
  rhsContracting := [0]
  lhsNonContracting := [0]
  rhsNonContracting := [1]
  lhsBatch := []
  rhsBatch := []
  wf := dot_S200000x64_S64x2_S200000x2_1_0_0_1_n_n_wf

class Facts : Prop extends Facts₀ where

variable [Facts]
-- ==== Proof.Spec.lean ====
/-
  The common specification: what each of the seven kernel launches leaves in its output array, as ONE
  function of the arrays it reads, index by index over the extended reals. The row count `n` is a parameter:
  the same formula speaks of a 10000-row block and of the whole array.

  * `scaleMatmul h s w`: row r, column q holds  ∑ₖ (h[r,k] · s[r]) · w[k,q]   (a row scaled, then multiplied by a 64×64 matrix);
  * `scaleBias a s b`:   a[r,q] · s[r] + b[q], and `scaleBiasRelu` its maximum with zero;
  * `mlpSoftmax p w₁ b₁ w₂ b₂`: the two-layer perceptron of row r of p followed by the softmax over its two logits,
    the maximum taken against −∞ exactly as both programs take it.
  Every sum runs over a literal `Fin`, every index is built by `ix2`.
-/
import Idealize.ShloMosaic.PureOps.Ideal
import Idealize.ShloMosaic.Lib.ValueIdx

noncomputable section

namespace Cert.Spec

open Idealize.ShloMosaic Idealize.ShloMosaic.ValueIdx

/-- An [n × d] array's index type. -/
abbrev Ix (n d : Nat) : Type := (⟨2, ![n, d]⟩ : Shape).Idx

/-- The float zero and −∞ as both programs spell them. -/
abbrev zeroE : EReal := Ideal.ofBits .f32 0x00000000#32
abbrev negInfE : EReal := Ideal.ofBits .f32 0xFF800000#32

/-! ## A scaled row times a matrix -/

def scaleMatmulAt {n : Nat} (h : Ix n 64 → EReal) (s : Ix n 1 → EReal) (w : Ix 64 64 → EReal) (r : Fin n) (q : Fin 64) : EReal :=
  ∑ k : Fin 64, (h (ix2 r k) * s (ix2 r (0 : Fin 1))) * w (ix2 k q)

def scaleMatmul {n : Nat} (h : Ix n 64 → EReal) (s : Ix n 1 → EReal) (w : Ix 64 64 → EReal) : Ix n 64 → EReal :=
  fun i => scaleMatmulAt h s w (i 0) (i 1)

theorem scaleMatmul_ix2 {n : Nat} (h : Ix n 64 → EReal) (s : Ix n 1 → EReal) (w : Ix 64 64 → EReal) (r : Fin n) (q : Fin 64) :
    scaleMatmul h s w (ix2 r q) = scaleMatmulAt h s w r q := rfl

/-! ## A scaled row plus a bias row, with and without the rectifier -/

def scaleBiasAt {n : Nat} (a : Ix n 64 → EReal) (s : Ix n 1 → EReal) (b : Ix 1 64 → EReal) (r : Fin n) (q : Fin 64) : EReal :=
  a (ix2 r q) * s (ix2 r (0 : Fin 1)) + b (ix2 (0 : Fin 1) q)

def scaleBias {n : Nat} (a : Ix n 64 → EReal) (s : Ix n 1 → EReal) (b : Ix 1 64 → EReal) : Ix n 64 → EReal :=
  fun i => scaleBiasAt a s b (i 0) (i 1)

def scaleBiasRelu {n : Nat} (a : Ix n 64 → EReal) (s : Ix n 1 → EReal) (b : Ix 1 64 → EReal) : Ix n 64 → EReal :=
  fun i => max (scaleBiasAt a s b (i 0) (i 1)) zeroE

theorem scaleBias_ix2 {n : Nat} (a : Ix n 64 → EReal) (s : Ix n 1 → EReal) (b : Ix 1 64 → EReal) (r : Fin n) (q : Fin 64) :
    scaleBias a s b (ix2 r q) = scaleBiasAt a s b r q := rfl

theorem scaleBiasRelu_ix2 {n : Nat} (a : Ix n 64 → EReal) (s : Ix n 1 → EReal) (b : Ix 1 64 → EReal) (r : Fin n) (q : Fin 64) :
    scaleBiasRelu a s b (ix2 r q) = max (scaleBiasAt a s b r q) zeroE := rfl

/-! ## The perceptron and the softmax of a pair row -/

/-- Hidden unit j of pair row r: the rectified affine map of the row. -/
def hiddenAt {n : Nat} (p : Ix n 128 → EReal) (w₁ : Ix 128 64 → EReal) (b₁ : Ix 1 64 → EReal) (r : Fin n) (j : Fin 64) : EReal :=
  max ((∑ k : Fin 128, p (ix2 r k) * w₁ (ix2 k j)) + b₁ (ix2 (0 : Fin 1) j)) zeroE

/-- Logit q of pair row r. -/
def logitAt {n : Nat} (p : Ix n 128 → EReal) (w₁ : Ix 128 64 → EReal) (b₁ : Ix 1 64 → EReal) (w₂ : Ix 64 2 → EReal) (b₂ : Ix 1 2 → EReal)
    (r : Fin n) (q : Fin 2) : EReal :=
  (∑ j : Fin 64, hiddenAt p w₁ b₁ r j * w₂ (ix2 j q)) + b₂ (ix2 (0 : Fin 1) q)

/-- The row maximum the softmax subtracts: the maximum of −∞ and the fold of `max` from −∞ over the two logits. -/
def rowMaxAt {n : Nat} (p : Ix n 128 → EReal) (w₁ : Ix 128 64 → EReal) (b₁ : Ix 1 64 → EReal) (w₂ : Ix 64 2 → EReal) (b₂ : Ix 1 2 → EReal)
    (r : Fin n) : EReal :=
  max negInfE ((Finset.univ : Finset (Fin 2)).fold max negInfE (fun q => logitAt p w₁ b₁ w₂ b₂ r q))

/-- The shifted exponential. -/
def expAt {n : Nat} (p : Ix n 128 → EReal) (w₁ : Ix 128 64 → EReal) (b₁ : Ix 1 64 → EReal) (w₂ : Ix 64 2 → EReal) (b₂ : Ix 1 2 → EReal)
    (r : Fin n) (q : Fin 2) : EReal :=
  Ideal.exp (logitAt p w₁ b₁ w₂ b₂ r q - rowMaxAt p w₁ b₁ w₂ b₂ r)

def mlpSoftmaxAt {n : Nat} (p : Ix n 128 → EReal) (w₁ : Ix 128 64 → EReal) (b₁ : Ix 1 64 → EReal) (w₂ : Ix 64 2 → EReal) (b₂ : Ix 1 2 → EReal)
    (r : Fin n) (q : Fin 2) : EReal :=
  Ideal.div (expAt p w₁ b₁ w₂ b₂ r q) (∑ q' : Fin 2, expAt p w₁ b₁ w₂ b₂ r q')

def mlpSoftmax {n : Nat} (p : Ix n 128 → EReal) (w₁ : Ix 128 64 → EReal) (b₁ : Ix 1 64 → EReal) (w₂ : Ix 64 2 → EReal) (b₂ : Ix 1 2 → EReal) :
    Ix n 2 → EReal :=
  fun i => mlpSoftmaxAt p w₁ b₁ w₂ b₂ (i 0) (i 1)

theorem mlpSoftmax_ix2 {n : Nat} (p : Ix n 128 → EReal) (w₁ : Ix 128 64 → EReal) (b₁ : Ix 1 64 → EReal) (w₂ : Ix 64 2 → EReal) (b₂ : Ix 1 2 → EReal)
    (r : Fin n) (q : Fin 2) : mlpSoftmax p w₁ b₁ w₂ b₂ (ix2 r q) = mlpSoftmaxAt p w₁ b₁ w₂ b₂ r q := rfl

end Cert.Spec

end
-- ==== Proof.KPay.lean ====
/-
  The arithmetic of the six node-array launches at an index. Entry (p, q) of what a scale-and-multiply body stores is the
  scaled row p of its feature block times column q of the matrix — the matrix unit's contraction read as a sum over the
  64 contracted coordinates, the changes of float format being the identity on the extended reals; entry (p, q) of what a
  scale-and-bias body stores is a[p,q] · s[p] + b[q], under a maximum with zero where the layer rectifies.
-/
import proofs.«400118_j7739531067711_2_alg».proof.Proof.Gen.KernelIdeal.Skeleton
import proofs.«400118_j7739531067711_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Spec

/-! ## The [10000 × 64] · [64 × 64] contraction at an index -/

theorem lhsA_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsA_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsA_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsA_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of a block's product into the zero accumulator: the sum over the contracted coordinate. -/
theorem matmulA_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ k : Fin 64, l (ix2 p k) * r (ix2 k q) := by
  show FloatOps.matmul _ _ _ _ _ _ = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-- A [10000 × 1] column laid along a block's 64 columns reads, at (p, q), the column at (p, 0). -/
theorem bcastColA_apply (v : FVec Ideal S10000x1 .f32) (p : Fin 10000) (q : Fin 64) :
    broadcastTo S10000x64 v broadcasts_S10000x1_S10000x64 (ix2 p q) = v (ix2 p (0 : Fin 1)) := by
  refine broadcastTo_apply v broadcasts_S10000x1_S10000x64 (ix2 p q) (ix2 p (0 : Fin 1)) fun a => ?_
  match a with
  | ⟨0, _⟩ => show p.val = if (10000 : Nat) = 1 then 0 else p.val; rw [if_neg (by decide)]
  | ⟨1, _⟩ => show 0 = if (1 : Nat) = 1 then 0 else q.val; rw [if_pos rfl]

/-- The first launch's store at (p, q): the scaled row times the matrix column. -/
theorem k0_pay1_apply (x0 : Vec Ideal S10000x64 .f32) (x1 : Vec Ideal S10000x1 .f32) (x2 : Vec Ideal S64x64 .f32) (p : Fin 10000) (q : Fin 64) :
    k0_pay1 x0 x1 x2 (ix2 p q) = scaleMatmulAt (n := 10000) x0 x1 x2 p q := by
  unfold k0_pay1 scaleMatmulAt
  rw [matmulA_apply]
  refine Finset.sum_congr rfl fun k _ => ?_
  show (x0 (ix2 p k) * broadcastTo S10000x64 (shapeCast S10000x1 x1 shapeCasts_S10000x1_S10000x1) broadcasts_S10000x1_S10000x64 (ix2 p k)) * x2 (ix2 k q) = _
  rw [bcastColA_apply, shapeCast_self]

/-- The third and fifth launches' store at (p, q): the same, the feature block passing through an identity cast. -/
theorem k2_pay1_apply (x0 : Vec Ideal S10000x64 .f32) (x1 : Vec Ideal S10000x1 .f32) (x2 : Vec Ideal S64x64 .f32) (p : Fin 10000) (q : Fin 64) :
    k2_pay1 x0 x1 x2 (ix2 p q) = scaleMatmulAt (n := 10000) x0 x1 x2 p q := by
  unfold k2_pay1 scaleMatmulAt
  rw [matmulA_apply]
  refine Finset.sum_congr rfl fun k _ => ?_
  show (shapeCast S10000x64 x0 shapeCasts_S10000x64_S10000x64 (ix2 p k) * broadcastTo S10000x64 (shapeCast S10000x1 x1 shapeCasts_S10000x1_S10000x1) broadcasts_S10000x1_S10000x64 (ix2 p k)) * x2 (ix2 k q) = _
  rw [bcastColA_apply]
  simp only [shapeCast_self]

theorem k4_pay1_apply (x0 : Vec Ideal S10000x64 .f32) (x1 : Vec Ideal S10000x1 .f32) (x2 : Vec Ideal S64x64 .f32) (p : Fin 10000) (q : Fin 64) :
    k4_pay1 x0 x1 x2 (ix2 p q) = scaleMatmulAt (n := 10000) x0 x1 x2 p q := by
  unfold k4_pay1 scaleMatmulAt
  rw [matmulA_apply]
  refine Finset.sum_congr rfl fun k _ => ?_
  show (shapeCast S10000x64 x0 shapeCasts_S10000x64_S10000x64 (ix2 p k) * broadcastTo S10000x64 (shapeCast S10000x1 x1 shapeCasts_S10000x1_S10000x1) broadcasts_S10000x1_S10000x64 (ix2 p k)) * x2 (ix2 k q) = _
  rw [bcastColA_apply]
  simp only [shapeCast_self]

/-! ## Scale and bias -/

/-- A [1 × 64] row laid down a block's ten thousand rows reads, at (p, q), the row at (0, q). -/
theorem bcastRowA_apply (v : FVec Ideal S1x64 .f32) (p : Fin 10000) (q : Fin 64) :
    broadcastTo S10000x64 v broadcasts_S1x64_S10000x64 (ix2 p q) = v (ix2 (0 : Fin 1) q) := by
  refine broadcastTo_apply v broadcasts_S1x64_S10000x64 (ix2 p q) (ix2 (0 : Fin 1) q) fun a => ?_
  match a with
  | ⟨0, _⟩ => show 0 = if (1 : Nat) = 1 then 0 else p.val; rw [if_pos rfl]
  | ⟨1, _⟩ => show q.val = if (64 : Nat) = 1 then 0 else q.val; rw [if_neg (by decide)]

/-- The second and fourth launches' store at (p, q): the rectified scaled-and-biased entry. -/
theorem k1_pay1_apply (x0 : Vec Ideal S10000x64 .f32) (x1 : Vec Ideal S10000x1 .f32) (x2 : Vec Ideal S1x64 .f32) (p : Fin 10000) (q : Fin 64) :
    k1_pay1 x0 x1 x2 (ix2 p q) = max (scaleBiasAt (n := 10000) x0 x1 x2 p q) zeroE := by
  unfold k1_pay1 scaleBiasAt
  show max (shapeCast S10000x64 x0 shapeCasts_S10000x64_S10000x64 (ix2 p q) * broadcastTo S10000x64 (shapeCast S10000x1 x1 shapeCasts_S10000x1_S10000x1) broadcasts_S10000x1_S10000x64 (ix2 p q) + broadcastTo S10000x64 (shapeCast S1x64 x2 shapeCasts_S1x64_S1x64) broadcasts_S1x64_S10000x64 (ix2 p q)) zeroE = _
  rw [bcastColA_apply, bcastRowA_apply]
  simp only [shapeCast_self]

theorem k3_pay1_apply (x0 : Vec Ideal S10000x64 .f32) (x1 : Vec Ideal S10000x1 .f32) (x2 : Vec Ideal S1x64 .f32) (p : Fin 10000) (q : Fin 64) :
    k3_pay1 x0 x1 x2 (ix2 p q) = max (scaleBiasAt (n := 10000) x0 x1 x2 p q) zeroE := by
  unfold k3_pay1 scaleBiasAt
  show max (shapeCast S10000x64 x0 shapeCasts_S10000x64_S10000x64 (ix2 p q) * broadcastTo S10000x64 (shapeCast S10000x1 x1 shapeCasts_S10000x1_S10000x1) broadcasts_S10000x1_S10000x64 (ix2 p q) + broadcastTo S10000x64 (shapeCast S1x64 x2 shapeCasts_S1x64_S1x64) broadcasts_S1x64_S10000x64 (ix2 p q)) zeroE = _
  rw [bcastColA_apply, bcastRowA_apply]
  simp only [shapeCast_self]

/-- The sixth launch's store at (p, q): the scaled-and-biased entry, not rectified. -/
theorem k5_pay1_apply (x0 : Vec Ideal S10000x64 .f32) (x1 : Vec Ideal S10000x1 .f32) (x2 : Vec Ideal S1x64 .f32) (p : Fin 10000) (q : Fin 64) :
    k5_pay1 x0 x1 x2 (ix2 p q) = scaleBiasAt (n := 10000) x0 x1 x2 p q := by
  unfold k5_pay1 scaleBiasAt
  show shapeCast S10000x64 x0 shapeCasts_S10000x64_S10000x64 (ix2 p q) * broadcastTo S10000x64 (shapeCast S10000x1 x1 shapeCasts_S10000x1_S10000x1) broadcasts_S10000x1_S10000x64 (ix2 p q) + broadcastTo S10000x64 (shapeCast S1x64 x2 shapeCasts_S1x64_S1x64) broadcasts_S1x64_S10000x64 (ix2 p q) = _
  rw [bcastColA_apply, bcastRowA_apply]
  simp only [shapeCast_self]

end Cert.KernelIdeal.Pay

end
-- ==== Proof.Region0.lean ====
/-
  Launch 0 (a row scaled by its node's factor, then multiplied by a 64×64 matrix), read as a whole array: grid point t
  works on rows 10000·t … 10000·t + 9999 of the node arrays and on the whole matrix, so what it writes back is block t
  of ONE function of the arrays the launch finds — `Spec.scaleMatmul` of them — and the ten blocks tile the output.
-/
import proofs.«400118_j7739531067711_2_alg».proof.Proof.Gen.KernelIdeal.Frame
import proofs.«400118_j7739531067711_2_alg».proof.Proof.KPay
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The node arrays and the matrix as the launch finds them, at their literal types. -/
abbrev arrH (c : Dev nD) : S100000x64.Idx → EReal := V c (Pipeline.arrRef spec0 0)
abbrev arrS (c : Dev nD) : S100000x1.Idx → EReal := V c (Pipeline.arrRef spec0 1)
abbrev arrW (c : Dev nD) : S64x64.Idx → EReal := V c (Pipeline.arrRef spec0 2)

/-- The three input blocks of grid point t, at their literal types. -/
abbrev blkH (c : Dev nD) (t : Fin cfg0.N) : Vec Ideal S10000x64 .f32 := iblk0 V c 0 t
abbrev blkS (c : Dev nD) (t : Fin cfg0.N) : Vec Ideal S10000x1 .f32 := iblk0 V c 1 t
abbrev blkW (c : Dev nD) (t : Fin cfg0.N) : Vec Ideal S64x64 .f32 := iblk0 V c 2 t

/-- The index maps over the grid: the node windows move down ten thousand rows a point, the matrix stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- Every block row of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- Entry (p, k) of the feature block at point t is entry (10000·t + p, k) of the array. -/
theorem blkH_apply (c : Dev nD) (t : Fin cfg0.N) (p : Fin 10000) (k : Fin 64) (r : Fin 100000) (hr : r.val = t.val * 10000 + p.val) :
    blkH V c t (ix2 p k) = arrH V c (ix2 r k) := by
  obtain ⟨e0, e1, -⟩ := idx_facts t
  unfold blkH iblk0
  rw [View.read_apply]
  show V c (Pipeline.arrRef spec0 0) _ = V c (Pipeline.arrRef spec0 0) _
  congr 1
  funext a
  apply Fin.ext
  match a with
  | ⟨0, _⟩ => show win0_0.index t 0 * 10000 + 1 * p.val = r.val; rw [e0, hr]; omega
  | ⟨1, _⟩ => show win0_0.index t 1 * 64 + 1 * k.val = k.val; rw [e1]; omega

/-- Entry (p, 0) of the factor block at point t is entry (10000·t + p, 0) of the column. -/
theorem blkS_apply (c : Dev nD) (t : Fin cfg0.N) (p : Fin 10000) (r : Fin 100000) (hr : r.val = t.val * 10000 + p.val) :
    blkS V c t (ix2 p (0 : Fin 1)) = arrS V c (ix2 r (0 : Fin 1)) := by
  obtain ⟨-, -, e0, e1, -⟩ := idx_facts t
  unfold blkS iblk0
  rw [View.read_apply]
  show V c (Pipeline.arrRef spec0 1) _ = V c (Pipeline.arrRef spec0 1) _
  congr 1
  funext a
  apply Fin.ext
  match a with
  | ⟨0, _⟩ => show win0_1.index t 0 * 10000 + 1 * p.val = r.val; rw [e0, hr]; omega
  | ⟨1, _⟩ => show win0_1.index t 1 * 1 + 1 * 0 = 0; rw [e1]

/-- The matrix block is the matrix. -/
theorem blkW_apply (c : Dev nD) (t : Fin cfg0.N) (k q : Fin 64) :
    blkW V c t (ix2 k q) = arrW V c (ix2 k q) := by
  obtain ⟨-, -, -, -, e0, e1, -⟩ := idx_facts t
  unfold blkW iblk0
  rw [View.read_apply]
  show V c (Pipeline.arrRef spec0 2) _ = V c (Pipeline.arrRef spec0 2) _
  congr 1
  funext a
  apply Fin.ext
  match a with
  | ⟨0, _⟩ => show win0_2.index t 0 * 64 + 1 * k.val = k.val; rw [e0]; omega
  | ⟨1, _⟩ => show win0_2.index t 1 * 64 + 1 * q.val = q.val; rw [e1]; omega

/-- WHAT POINT t WRITES BACK is block t of `scaleMatmul` of the arrays the launch finds. -/
theorem flushed_eq (c : Dev nD) (t : Fin cfg0.N) :
    (dat0 V c).flushed 3 t = ((cfg0.win 3).blk t).view.read (Elt Ideal) (scaleMatmul (arrH V c) (arrS V c) (arrW V c)) := by
  show (cfg0.win 3).cut (grid0.coords t) ((dat0 V c).after 3 t) = _
  rw [after0_3]
  unfold out0_3
  rw [View.canon_unit_zero hz]
  simp only [View.ld_unit_zero (S := S10000x64) hz, View.ld_unit_zero (S := S10000x1) hz, View.ld_unit_zero (S := S64x64) hz]
  obtain ⟨-, -, -, -, -, -, e0, e1, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg0.win 3).blk t).view.emb (ix2 p q) = (ix2 (⟨t.val * 10000 + p.val, hr⟩ : Fin 100000) q : S100000x64.Idx) := by
    funext a
    apply Fin.ext
    match a with
    | ⟨0, _⟩ => show win0_3.index t 0 * 10000 + 1 * p.val = t.val * 10000 + p.val; rw [e0]; omega
    | ⟨1, _⟩ => show win0_3.index t 1 * 64 + 1 * q.val = q.val; rw [e1]; omega
  rw [View.read_apply, hemb]
  show k0_pay1 (blkH V c t) (blkS V c t) (blkW V c t) (ix2 p q) = scaleMatmul (arrH V c) (arrS V c) (arrW V c) (ix2 (⟨t.val * 10000 + p.val, hr⟩ : Fin 100000) q)
  refine (Pay.k0_pay1_apply (blkH V c t) (blkS V c t) (blkW V c t) p q).trans ?_
  rw [scaleMatmul_ix2]
  unfold scaleMatmulAt
  refine Finset.sum_congr rfl fun k _ => ?_
  rw [blkH_apply V c t p k ⟨t.val * 10000 + p.val, hr⟩ rfl, blkS_apply V c t p ⟨t.val * 10000 + p.val, hr⟩ rfl, blkW_apply V c t k q]

/-- An index of the output array is in point t's block iff its row is among the block's ten thousand. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v15).slice (win0_3.rect t)).set ↔ _
  rw [View.set_slice_whole, Rect.mem_set_unit]
  exact Iff.rfl

/-- THE OUTPUT ARRAY after the launch: `scaleMatmul` of the arrays it found. -/
theorem final (c : Dev nD) :
    (dat0 V c).arrAt 3 cfg0.N = scaleMatmul (arrH V c) (arrS V c) (arrW V c) :=
  (dat0 V c).arrAt_eq_of_cover 3 _ (fun t _ => flushed_eq V c t) fun i => by
    have hi0 : (i 0).val < 100000 := (i 0).isLt
    have hi1 : (i 1).val < 64 := (i 1).isLt
    obtain ⟨t, ht⟩ := idx_onto ⟨(i 0).val / 10000, by omega⟩
    have q0 : win0_3.index t (0 : Fin 2) = (i 0).val / 10000 := congrFun ht 0
    have q1 : win0_3.index t (1 : Fin 2) = 0 := congrFun ht 1
    refine ⟨t, flush0_3 t, ?_⟩
    rw [mem_blk]
    intro a
    match a with
    | ⟨0, _⟩ => show win0_3.index t (0 : Fin 2) * 10000 ≤ (i 0).val ∧ (i 0).val < win0_3.index t (0 : Fin 2) * 10000 + 10000; omega
    | ⟨1, _⟩ => show win0_3.index t (1 : Fin 2) * 64 ≤ (i 1).val ∧ (i 1).val < win0_3.index t (1 : Fin 2) * 64 + 64; omega

end Cert.KernelIdeal.Region0

end
-- ==== Proof.Region1.lean ====
/-
  Launch 1 (the aggregated rows scaled by their node's factor, a bias row added, the maximum with zero taken), read as a whole array: grid point t
  works on rows 10000·t … 10000·t + 9999 of the node arrays and on the whole bias row, so what it writes back is block t
  of ONE function of the arrays the launch finds — `Spec.scaleBiasRelu` of them — and the ten blocks tile the output.
-/
import proofs.«400118_j7739531067711_2_alg».proof.Proof.Gen.KernelIdeal.Frame
import proofs.«400118_j7739531067711_2_alg».proof.Proof.KPay
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The node arrays and the bias row as the launch finds them, at their literal types. -/
abbrev arrA (c : Dev nD) : S100000x64.Idx → EReal := V c (Pipeline.arrRef spec1 0)
abbrev arrS (c : Dev nD) : S100000x1.Idx → EReal := V c (Pipeline.arrRef spec1 1)
abbrev arrB (c : Dev nD) : S1x64.Idx → EReal := V c (Pipeline.arrRef spec1 2)

/-- The three input blocks of grid point t, at their literal types. -/
abbrev blkA (c : Dev nD) (t : Fin cfg1.N) : Vec Ideal S10000x64 .f32 := iblk1 V c 0 t
abbrev blkS (c : Dev nD) (t : Fin cfg1.N) : Vec Ideal S10000x1 .f32 := iblk1 V c 1 t
abbrev blkB (c : Dev nD) (t : Fin cfg1.N) : Vec Ideal S1x64 .f32 := iblk1 V c 2 t

/-- The index maps over the grid: the node windows move down ten thousand rows a point, the bias row stays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Every block row of the output is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- Entry (p, k) of the aggregate block at point t is entry (10000·t + p, k) of the array. -/
theorem blkA_apply (c : Dev nD) (t : Fin cfg1.N) (p : Fin 10000) (k : Fin 64) (r : Fin 100000) (hr : r.val = t.val * 10000 + p.val) :
    blkA V c t (ix2 p k) = arrA V c (ix2 r k) := by
  obtain ⟨e0, e1, -⟩ := idx_facts t
  unfold blkA iblk1
  rw [View.read_apply]
  show V c (Pipeline.arrRef spec1 0) _ = V c (Pipeline.arrRef spec1 0) _
  congr 1
  funext a
  apply Fin.ext
  match a with
  | ⟨0, _⟩ => show win1_0.index t 0 * 10000 + 1 * p.val = r.val; rw [e0, hr]; omega
  | ⟨1, _⟩ => show win1_0.index t 1 * 64 + 1 * k.val = k.val; rw [e1]; omega

/-- Entry (p, 0) of the factor block at point t is entry (10000·t + p, 0) of the column. -/
theorem blkS_apply (c : Dev nD) (t : Fin cfg1.N) (p : Fin 10000) (r : Fin 100000) (hr : r.val = t.val * 10000 + p.val) :
    blkS V c t (ix2 p (0 : Fin 1)) = arrS V c (ix2 r (0 : Fin 1)) := by
  obtain ⟨-, -, e0, e1, -⟩ := idx_facts t
  unfold blkS iblk1
  rw [View.read_apply]
  show V c (Pipeline.arrRef spec1 1) _ = V c (Pipeline.arrRef spec1 1) _
  congr 1
  funext a
  apply Fin.ext
  match a with
  | ⟨0, _⟩ => show win1_1.index t 0 * 10000 + 1 * p.val = r.val; rw [e0, hr]; omega
  | ⟨1, _⟩ => show win1_1.index t 1 * 1 + 1 * 0 = 0; rw [e1]

/-- The bias block is the bias row. -/
theorem blkB_apply (c : Dev nD) (t : Fin cfg1.N) (q : Fin 64) :
    blkB V c t (ix2 (0 : Fin 1) q) = arrB V c (ix2 (0 : Fin 1) q) := by
  obtain ⟨-, -, -, -, e0, e1, -⟩ := idx_facts t
  unfold blkB iblk1
  rw [View.read_apply]
  show V c (Pipeline.arrRef spec1 2) _ = V c (Pipeline.arrRef spec1 2) _
  congr 1
  funext a
  apply Fin.ext
  match a with
  | ⟨0, _⟩ => show win1_2.index t 0 * 1 + 1 * 0 = 0; rw [e0]
  | ⟨1, _⟩ => show win1_2.index t 1 * 64 + 1 * q.val = q.val; rw [e1]; omega

/-- WHAT POINT t WRITES BACK is block t of `scaleBiasRelu` of the arrays the launch finds. -/
theorem flushed_eq (c : Dev nD) (t : Fin cfg1.N) :
    (dat1 V c).flushed 3 t = ((cfg1.win 3).blk t).view.read (Elt Ideal) (scaleBiasRelu (arrA V c) (arrS V c) (arrB V c)) := by
  show (cfg1.win 3).cut (grid1.coords t) ((dat1 V c).after 3 t) = _
  rw [after1_3]
  unfold out1_3
  rw [View.canon_unit_zero hz]
  simp only [View.ld_unit_zero (S := S10000x64) hz, View.ld_unit_zero (S := S10000x1) hz, View.ld_unit_zero (S := S1x64) hz]
  obtain ⟨-, -, -, -, -, -, e0, e1, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg1.win 3).blk t).view.emb (ix2 p q) = (ix2 (⟨t.val * 10000 + p.val, hr⟩ : Fin 100000) q : S100000x64.Idx) := by
    funext a
    apply Fin.ext
    match a with
    | ⟨0, _⟩ => show win1_3.index t 0 * 10000 + 1 * p.val = t.val * 10000 + p.val; rw [e0]; omega
    | ⟨1, _⟩ => show win1_3.index t 1 * 64 + 1 * q.val = q.val; rw [e1]; omega
  rw [View.read_apply, hemb]
  show k1_pay1 (blkA V c t) (blkS V c t) (blkB V c t) (ix2 p q) = scaleBiasRelu (arrA V c) (arrS V c) (arrB V c) (ix2 (⟨t.val * 10000 + p.val, hr⟩ : Fin 100000) q)
  refine (Pay.k1_pay1_apply (blkA V c t) (blkS V c t) (blkB V c t) p q).trans ?_
  rw [scaleBiasRelu_ix2]
  unfold scaleBiasAt
  rw [blkA_apply V c t p q ⟨t.val * 10000 + p.val, hr⟩ rfl, blkS_apply V c t p ⟨t.val * 10000 + p.val, hr⟩ rfl, blkB_apply V c t q]

/-- An index of the output array is in point t's block iff its row is among the block's ten thousand. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v21).slice (win1_3.rect t)).set ↔ _
  rw [View.set_slice_whole, Rect.mem_set_unit]
  exact Iff.rfl

/-- THE OUTPUT ARRAY after the launch: `scaleBiasRelu` of the arrays it found. -/
theorem final (c : Dev nD) :
    (dat1 V c).arrAt 3 cfg1.N = scaleBiasRelu (arrA V c) (arrS V c) (arrB V c) :=
  (dat1 V c).arrAt_eq_of_cover 3 _ (fun t _ => flushed_eq V c t) fun i => by
    have hi0 : (i 0).val < 100000 := (i 0).isLt
    have hi1 : (i 1).val < 64 := (i 1).isLt
    obtain ⟨t, ht⟩ := idx_onto ⟨(i 0).val / 10000, by omega⟩
    have q0 : win1_3.index t (0 : Fin 2) = (i 0).val / 10000 := congrFun ht 0
    have q1 : win1_3.index t (1 : Fin 2) = 0 := congrFun ht 1
    refine ⟨t, flush1_3 t, ?_⟩
    rw [mem_blk]
    intro a
    match a with
    | ⟨0, _⟩ => show win1_3.index t (0 : Fin 2) * 10000 ≤ (i 0).val ∧ (i 0).val < win1_3.index t (0 : Fin 2) * 10000 + 10000; omega
    | ⟨1, _⟩ => show win1_3.index t (1 : Fin 2) * 64 ≤ (i 1).val ∧ (i 1).val < win1_3.index t (1 : Fin 2) * 64 + 64; omega

end Cert.KernelIdeal.Region1

end
-- ==== Proof.Region2.lean ====
/-
  Launch 2 (a row scaled by its node's factor, then multiplied by a 64×64 matrix), read as a whole array: grid point t
  works on rows 10000·t … 10000·t + 9999 of the node arrays and on the whole matrix, so what it writes back is block t
  of ONE function of the arrays the launch finds — `Spec.scaleMatmul` of them — and the ten blocks tile the output.
-/
import proofs.«400118_j7739531067711_2_alg».proof.Proof.Gen.KernelIdeal.Frame
import proofs.«400118_j7739531067711_2_alg».proof.Proof.KPay
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The node arrays and the matrix as the launch finds them, at their literal types. -/
abbrev arrH (c : Dev nD) : S100000x64.Idx → EReal := V c (Pipeline.arrRef spec2 0)
abbrev arrS (c : Dev nD) : S100000x1.Idx → EReal := V c (Pipeline.arrRef spec2 1)
abbrev arrW (c : Dev nD) : S64x64.Idx → EReal := V c (Pipeline.arrRef spec2 2)

/-- The three input blocks of grid point t, at their literal types. -/
abbrev blkH (c : Dev nD) (t : Fin cfg2.N) : Vec Ideal S10000x64 .f32 := iblk2 V c 0 t
abbrev blkS (c : Dev nD) (t : Fin cfg2.N) : Vec Ideal S10000x1 .f32 := iblk2 V c 1 t
abbrev blkW (c : Dev nD) (t : Fin cfg2.N) : Vec Ideal S64x64 .f32 := iblk2 V c 2 t

/-- The index maps over the grid: the node windows move down ten thousand rows a point, the matrix stays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- Every block row of the output is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- Entry (p, k) of the feature block at point t is entry (10000·t + p, k) of the array. -/
theorem blkH_apply (c : Dev nD) (t : Fin cfg2.N) (p : Fin 10000) (k : Fin 64) (r : Fin 100000) (hr : r.val = t.val * 10000 + p.val) :
    blkH V c t (ix2 p k) = arrH V c (ix2 r k) := by
  obtain ⟨e0, e1, -⟩ := idx_facts t
  unfold blkH iblk2
  rw [View.read_apply]
  show V c (Pipeline.arrRef spec2 0) _ = V c (Pipeline.arrRef spec2 0) _
  congr 1
  funext a
  apply Fin.ext
  match a with
  | ⟨0, _⟩ => show win2_0.index t 0 * 10000 + 1 * p.val = r.val; rw [e0, hr]; omega
  | ⟨1, _⟩ => show win2_0.index t 1 * 64 + 1 * k.val = k.val; rw [e1]; omega

/-- Entry (p, 0) of the factor block at point t is entry (10000·t + p, 0) of the column. -/
theorem blkS_apply (c : Dev nD) (t : Fin cfg2.N) (p : Fin 10000) (r : Fin 100000) (hr : r.val = t.val * 10000 + p.val) :
    blkS V c t (ix2 p (0 : Fin 1)) = arrS V c (ix2 r (0 : Fin 1)) := by
  obtain ⟨-, -, e0, e1, -⟩ := idx_facts t
  unfold blkS iblk2
  rw [View.read_apply]
  show V c (Pipeline.arrRef spec2 1) _ = V c (Pipeline.arrRef spec2 1) _
  congr 1
  funext a
  apply Fin.ext
  match a with
  | ⟨0, _⟩ => show win2_1.index t 0 * 10000 + 1 * p.val = r.val; rw [e0, hr]; omega
  | ⟨1, _⟩ => show win2_1.index t 1 * 1 + 1 * 0 = 0; rw [e1]

/-- The matrix block is the matrix. -/
theorem blkW_apply (c : Dev nD) (t : Fin cfg2.N) (k q : Fin 64) :
    blkW V c t (ix2 k q) = arrW V c (ix2 k q) := by
  obtain ⟨-, -, -, -, e0, e1, -⟩ := idx_facts t
  unfold blkW iblk2
  rw [View.read_apply]
  show V c (Pipeline.arrRef spec2 2) _ = V c (Pipeline.arrRef spec2 2) _
  congr 1
  funext a
  apply Fin.ext
  match a with
  | ⟨0, _⟩ => show win2_2.index t 0 * 64 + 1 * k.val = k.val; rw [e0]; omega
  | ⟨1, _⟩ => show win2_2.index t 1 * 64 + 1 * q.val = q.val; rw [e1]; omega

/-- WHAT POINT t WRITES BACK is block t of `scaleMatmul` of the arrays the launch finds. -/
theorem flushed_eq (c : Dev nD) (t : Fin cfg2.N) :
    (dat2 V c).flushed 3 t = ((cfg2.win 3).blk t).view.read (Elt Ideal) (scaleMatmul (arrH V c) (arrS V c) (arrW V c)) := by
  show (cfg2.win 3).cut (grid2.coords t) ((dat2 V c).after 3 t) = _
  rw [after2_3]
  unfold out2_3
  rw [View.canon_unit_zero hz]
  simp only [View.ld_unit_zero (S := S10000x64) hz, View.ld_unit_zero (S := S10000x1) hz, View.ld_unit_zero (S := S64x64) hz]
  obtain ⟨-, -, -, -, -, -, e0, e1, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg2.win 3).blk t).view.emb (ix2 p q) = (ix2 (⟨t.val * 10000 + p.val, hr⟩ : Fin 100000) q : S100000x64.Idx) := by
    funext a
    apply Fin.ext
    match a with
    | ⟨0, _⟩ => show win2_3.index t 0 * 10000 + 1 * p.val = t.val * 10000 + p.val; rw [e0]; omega
    | ⟨1, _⟩ => show win2_3.index t 1 * 64 + 1 * q.val = q.val; rw [e1]; omega
  rw [View.read_apply, hemb]
  show k2_pay1 (blkH V c t) (blkS V c t) (blkW V c t) (ix2 p q) = scaleMatmul (arrH V c) (arrS V c) (arrW V c) (ix2 (⟨t.val * 10000 + p.val, hr⟩ : Fin 100000) q)
  refine (Pay.k2_pay1_apply (blkH V c t) (blkS V c t) (blkW V c t) p q).trans ?_
  rw [scaleMatmul_ix2]
  unfold scaleMatmulAt
  refine Finset.sum_congr rfl fun k _ => ?_
  rw [blkH_apply V c t p k ⟨t.val * 10000 + p.val, hr⟩ rfl, blkS_apply V c t p ⟨t.val * 10000 + p.val, hr⟩ rfl, blkW_apply V c t k q]

/-- An index of the output array is in point t's block iff its row is among the block's ten thousand. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v22).slice (win2_3.rect t)).set ↔ _
  rw [View.set_slice_whole, Rect.mem_set_unit]
  exact Iff.rfl

/-- THE OUTPUT ARRAY after the launch: `scaleMatmul` of the arrays it found. -/
theorem final (c : Dev nD) :
    (dat2 V c).arrAt 3 cfg2.N = scaleMatmul (arrH V c) (arrS V c) (arrW V c) :=
  (dat2 V c).arrAt_eq_of_cover 3 _ (fun t _ => flushed_eq V c t) fun i => by
    have hi0 : (i 0).val < 100000 := (i 0).isLt
    have hi1 : (i 1).val < 64 := (i 1).isLt
    obtain ⟨t, ht⟩ := idx_onto ⟨(i 0).val / 10000, by omega⟩
    have q0 : win2_3.index t (0 : Fin 2) = (i 0).val / 10000 := congrFun ht 0
    have q1 : win2_3.index t (1 : Fin 2) = 0 := congrFun ht 1
    refine ⟨t, flush2_3 t, ?_⟩
    rw [mem_blk]
    intro a
    match a with
    | ⟨0, _⟩ => show win2_3.index t (0 : Fin 2) * 10000 ≤ (i 0).val ∧ (i 0).val < win2_3.index t (0 : Fin 2) * 10000 + 10000; omega
    | ⟨1, _⟩ => show win2_3.index t (1 : Fin 2) * 64 ≤ (i 1).val ∧ (i 1).val < win2_3.index t (1 : Fin 2) * 64 + 64; omega

end Cert.KernelIdeal.Region2

end
-- ==== Proof.Region3.lean ====
/-
  Launch 3 (the aggregated rows scaled by their node's factor, a bias row added, the maximum with zero taken), read as a whole array: grid point t
  works on rows 10000·t … 10000·t + 9999 of the node arrays and on the whole bias row, so what it writes back is block t
  of ONE function of the arrays the launch finds — `Spec.scaleBiasRelu` of them — and the ten blocks tile the output.
-/
import proofs.«400118_j7739531067711_2_alg».proof.Proof.Gen.KernelIdeal.Frame
import proofs.«400118_j7739531067711_2_alg».proof.Proof.KPay
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The node arrays and the bias row as the launch finds them, at their literal types. -/
abbrev arrA (c : Dev nD) : S100000x64.Idx → EReal := V c (Pipeline.arrRef spec3 0)
abbrev arrS (c : Dev nD) : S100000x1.Idx → EReal := V c (Pipeline.arrRef spec3 1)
abbrev arrB (c : Dev nD) : S1x64.Idx → EReal := V c (Pipeline.arrRef spec3 2)

/-- The three input blocks of grid point t, at their literal types. -/
abbrev blkA (c : Dev nD) (t : Fin cfg3.N) : Vec Ideal S10000x64 .f32 := iblk3 V c 0 t
abbrev blkS (c : Dev nD) (t : Fin cfg3.N) : Vec Ideal S10000x1 .f32 := iblk3 V c 1 t
abbrev blkB (c : Dev nD) (t : Fin cfg3.N) : Vec Ideal S1x64 .f32 := iblk3 V c 2 t

/-- The index maps over the grid: the node windows move down ten thousand rows a point, the bias row stays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- Every block row of the output is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- Entry (p, k) of the aggregate block at point t is entry (10000·t + p, k) of the array. -/
theorem blkA_apply (c : Dev nD) (t : Fin cfg3.N) (p : Fin 10000) (k : Fin 64) (r : Fin 100000) (hr : r.val = t.val * 10000 + p.val) :
    blkA V c t (ix2 p k) = arrA V c (ix2 r k) := by
  obtain ⟨e0, e1, -⟩ := idx_facts t
  unfold blkA iblk3
  rw [View.read_apply]
  show V c (Pipeline.arrRef spec3 0) _ = V c (Pipeline.arrRef spec3 0) _
  congr 1
  funext a
  apply Fin.ext
  match a with
  | ⟨0, _⟩ => show win3_0.index t 0 * 10000 + 1 * p.val = r.val; rw [e0, hr]; omega
  | ⟨1, _⟩ => show win3_0.index t 1 * 64 + 1 * k.val = k.val; rw [e1]; omega

/-- Entry (p, 0) of the factor block at point t is entry (10000·t + p, 0) of the column. -/
theorem blkS_apply (c : Dev nD) (t : Fin cfg3.N) (p : Fin 10000) (r : Fin 100000) (hr : r.val = t.val * 10000 + p.val) :
    blkS V c t (ix2 p (0 : Fin 1)) = arrS V c (ix2 r (0 : Fin 1)) := by
  obtain ⟨-, -, e0, e1, -⟩ := idx_facts t
  unfold blkS iblk3
  rw [View.read_apply]
  show V c (Pipeline.arrRef spec3 1) _ = V c (Pipeline.arrRef spec3 1) _
  congr 1
  funext a
  apply Fin.ext
  match a with
  | ⟨0, _⟩ => show win3_1.index t 0 * 10000 + 1 * p.val = r.val; rw [e0, hr]; omega
  | ⟨1, _⟩ => show win3_1.index t 1 * 1 + 1 * 0 = 0; rw [e1]

/-- The bias block is the bias row. -/
theorem blkB_apply (c : Dev nD) (t : Fin cfg3.N) (q : Fin 64) :
    blkB V c t (ix2 (0 : Fin 1) q) = arrB V c (ix2 (0 : Fin 1) q) := by
  obtain ⟨-, -, -, -, e0, e1, -⟩ := idx_facts t
  unfold blkB iblk3
  rw [View.read_apply]
  show V c (Pipeline.arrRef spec3 2) _ = V c (Pipeline.arrRef spec3 2) _
  congr 1
  funext a
  apply Fin.ext
  match a with
  | ⟨0, _⟩ => show win3_2.index t 0 * 1 + 1 * 0 = 0; rw [e0]
  | ⟨1, _⟩ => show win3_2.index t 1 * 64 + 1 * q.val = q.val; rw [e1]; omega

/-- WHAT POINT t WRITES BACK is block t of `scaleBiasRelu` of the arrays the launch finds. -/
theorem flushed_eq (c : Dev nD) (t : Fin cfg3.N) :
    (dat3 V c).flushed 3 t = ((cfg3.win 3).blk t).view.read (Elt Ideal) (scaleBiasRelu (arrA V c) (arrS V c) (arrB V c)) := by
  show (cfg3.win 3).cut (grid3.coords t) ((dat3 V c).after 3 t) = _
  rw [after3_3]
  unfold out3_3
  rw [View.canon_unit_zero hz]
  simp only [View.ld_unit_zero (S := S10000x64) hz, View.ld_unit_zero (S := S10000x1) hz, View.ld_unit_zero (S := S1x64) hz]
  obtain ⟨-, -, -, -, -, -, e0, e1, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg3.win 3).blk t).view.emb (ix2 p q) = (ix2 (⟨t.val * 10000 + p.val, hr⟩ : Fin 100000) q : S100000x64.Idx) := by
    funext a
    apply Fin.ext
    match a with
    | ⟨0, _⟩ => show win3_3.index t 0 * 10000 + 1 * p.val = t.val * 10000 + p.val; rw [e0]; omega
    | ⟨1, _⟩ => show win3_3.index t 1 * 64 + 1 * q.val = q.val; rw [e1]; omega
  rw [View.read_apply, hemb]
  show k3_pay1 (blkA V c t) (blkS V c t) (blkB V c t) (ix2 p q) = scaleBiasRelu (arrA V c) (arrS V c) (arrB V c) (ix2 (⟨t.val * 10000 + p.val, hr⟩ : Fin 100000) q)
  refine (Pay.k3_pay1_apply (blkA V c t) (blkS V c t) (blkB V c t) p q).trans ?_
  rw [scaleBiasRelu_ix2]
  unfold scaleBiasAt
  rw [blkA_apply V c t p q ⟨t.val * 10000 + p.val, hr⟩ rfl, blkS_apply V c t p ⟨t.val * 10000 + p.val, hr⟩ rfl, blkB_apply V c t q]

/-- An index of the output array is in point t's block iff its row is among the block's ten thousand. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v28).slice (win3_3.rect t)).set ↔ _
  rw [View.set_slice_whole, Rect.mem_set_unit]
  exact Iff.rfl

/-- THE OUTPUT ARRAY after the launch: `scaleBiasRelu` of the arrays it found. -/
theorem final (c : Dev nD) :
    (dat3 V c).arrAt 3 cfg3.N = scaleBiasRelu (arrA V c) (arrS V c) (arrB V c) :=
  (dat3 V c).arrAt_eq_of_cover 3 _ (fun t _ => flushed_eq V c t) fun i => by
    have hi0 : (i 0).val < 100000 := (i 0).isLt
    have hi1 : (i 1).val < 64 := (i 1).isLt
    obtain ⟨t, ht⟩ := idx_onto ⟨(i 0).val / 10000, by omega⟩
    have q0 : win3_3.index t (0 : Fin 2) = (i 0).val / 10000 := congrFun ht 0
    have q1 : win3_3.index t (1 : Fin 2) = 0 := congrFun ht 1
    refine ⟨t, flush3_3 t, ?_⟩
    rw [mem_blk]
    intro a
    match a with
    | ⟨0, _⟩ => show win3_3.index t (0 : Fin 2) * 10000 ≤ (i 0).val ∧ (i 0).val < win3_3.index t (0 : Fin 2) * 10000 + 10000; omega
    | ⟨1, _⟩ => show win3_3.index t (1 : Fin 2) * 64 ≤ (i 1).val ∧ (i 1).val < win3_3.index t (1 : Fin 2) * 64 + 64; omega

end Cert.KernelIdeal.Region3

end
-- ==== Proof.Region4.lean ====
/-
  Launch 4 (a row scaled by its node's factor, then multiplied by a 64×64 matrix), read as a whole array: grid point t
  works on rows 10000·t … 10000·t + 9999 of the node arrays and on the whole matrix, so what it writes back is block t
  of ONE function of the arrays the launch finds — `Spec.scaleMatmul` of them — and the ten blocks tile the output.
-/
import proofs.«400118_j7739531067711_2_alg».proof.Proof.Gen.KernelIdeal.Frame
import proofs.«400118_j7739531067711_2_alg».proof.Proof.KPay
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The node arrays and the matrix as the launch finds them, at their literal types. -/
abbrev arrH (c : Dev nD) : S100000x64.Idx → EReal := V c (Pipeline.arrRef spec4 0)
abbrev arrS (c : Dev nD) : S100000x1.Idx → EReal := V c (Pipeline.arrRef spec4 1)
abbrev arrW (c : Dev nD) : S64x64.Idx → EReal := V c (Pipeline.arrRef spec4 2)

/-- The three input blocks of grid point t, at their literal types. -/
abbrev blkH (c : Dev nD) (t : Fin cfg4.N) : Vec Ideal S10000x64 .f32 := iblk4 V c 0 t
abbrev blkS (c : Dev nD) (t : Fin cfg4.N) : Vec Ideal S10000x1 .f32 := iblk4 V c 1 t
abbrev blkW (c : Dev nD) (t : Fin cfg4.N) : Vec Ideal S64x64 .f32 := iblk4 V c 2 t

/-- The index maps over the grid: the node windows move down ten thousand rows a point, the matrix stays. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

/-- Every block row of the output is some point's. -/
theorem idx_onto : ∀ q0 : Fin 10, ∃ t : Fin cfg4.N, win4_3.index t = ![q0.val, 0] :=
  (by decide +kernel : ∀ q0 : Fin 10, ∃ t : Fin grid4.N, win4_3.index t = ![q0.val, 0])

/-- Entry (p, k) of the feature block at point t is entry (10000·t + p, k) of the array. -/
theorem blkH_apply (c : Dev nD) (t : Fin cfg4.N) (p : Fin 10000) (k : Fin 64) (r : Fin 100000) (hr : r.val = t.val * 10000 + p.val) :
    blkH V c t (ix2 p k) = arrH V c (ix2 r k) := by
  obtain ⟨e0, e1, -⟩ := idx_facts t
  unfold blkH iblk4
  rw [View.read_apply]
  show V c (Pipeline.arrRef spec4 0) _ = V c (Pipeline.arrRef spec4 0) _
  congr 1
  funext a
  apply Fin.ext
  match a with
  | ⟨0, _⟩ => show win4_0.index t 0 * 10000 + 1 * p.val = r.val; rw [e0, hr]; omega
  | ⟨1, _⟩ => show win4_0.index t 1 * 64 + 1 * k.val = k.val; rw [e1]; omega

/-- Entry (p, 0) of the factor block at point t is entry (10000·t + p, 0) of the column. -/
theorem blkS_apply (c : Dev nD) (t : Fin cfg4.N) (p : Fin 10000) (r : Fin 100000) (hr : r.val = t.val * 10000 + p.val) :
    blkS V c t (ix2 p (0 : Fin 1)) = arrS V c (ix2 r (0 : Fin 1)) := by
  obtain ⟨-, -, e0, e1, -⟩ := idx_facts t
  unfold blkS iblk4
  rw [View.read_apply]
  show V c (Pipeline.arrRef spec4 1) _ = V c (Pipeline.arrRef spec4 1) _
  congr 1
  funext a
  apply Fin.ext
  match a with
  | ⟨0, _⟩ => show win4_1.index t 0 * 10000 + 1 * p.val = r.val; rw [e0, hr]; omega
  | ⟨1, _⟩ => show win4_1.index t 1 * 1 + 1 * 0 = 0; rw [e1]

/-- The matrix block is the matrix. -/
theorem blkW_apply (c : Dev nD) (t : Fin cfg4.N) (k q : Fin 64) :
    blkW V c t (ix2 k q) = arrW V c (ix2 k q) := by
  obtain ⟨-, -, -, -, e0, e1, -⟩ := idx_facts t
  unfold blkW iblk4
  rw [View.read_apply]
  show V c (Pipeline.arrRef spec4 2) _ = V c (Pipeline.arrRef spec4 2) _
  congr 1
  funext a
  apply Fin.ext
  match a with
  | ⟨0, _⟩ => show win4_2.index t 0 * 64 + 1 * k.val = k.val; rw [e0]; omega
  | ⟨1, _⟩ => show win4_2.index t 1 * 64 + 1 * q.val = q.val; rw [e1]; omega

/-- WHAT POINT t WRITES BACK is block t of `scaleMatmul` of the arrays the launch finds. -/
theorem flushed_eq (c : Dev nD) (t : Fin cfg4.N) :
    (dat4 V c).flushed 3 t = ((cfg4.win 3).blk t).view.read (Elt Ideal) (scaleMatmul (arrH V c) (arrS V c) (arrW V c)) := by
  show (cfg4.win 3).cut (grid4.coords t) ((dat4 V c).after 3 t) = _
  rw [after4_3]
  unfold out4_3
  rw [View.canon_unit_zero hz]
  simp only [View.ld_unit_zero (S := S10000x64) hz, View.ld_unit_zero (S := S10000x1) hz, View.ld_unit_zero (S := S64x64) hz]
  obtain ⟨-, -, -, -, -, -, e0, e1, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg4.win 3).blk t).view.emb (ix2 p q) = (ix2 (⟨t.val * 10000 + p.val, hr⟩ : Fin 100000) q : S100000x64.Idx) := by
    funext a
    apply Fin.ext
    match a with
    | ⟨0, _⟩ => show win4_3.index t 0 * 10000 + 1 * p.val = t.val * 10000 + p.val; rw [e0]; omega
    | ⟨1, _⟩ => show win4_3.index t 1 * 64 + 1 * q.val = q.val; rw [e1]; omega
  rw [View.read_apply, hemb]
  show k4_pay1 (blkH V c t) (blkS V c t) (blkW V c t) (ix2 p q) = scaleMatmul (arrH V c) (arrS V c) (arrW V c) (ix2 (⟨t.val * 10000 + p.val, hr⟩ : Fin 100000) q)
  refine (Pay.k4_pay1_apply (blkH V c t) (blkS V c t) (blkW V c t) p q).trans ?_
  rw [scaleMatmul_ix2]
  unfold scaleMatmulAt
  refine Finset.sum_congr rfl fun k _ => ?_
  rw [blkH_apply V c t p k ⟨t.val * 10000 + p.val, hr⟩ rfl, blkS_apply V c t p ⟨t.val * 10000 + p.val, hr⟩ rfl, blkW_apply V c t k q]

/-- An index of the output array is in point t's block iff its row is among the block's ten thousand. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v29).slice (win4_3.rect t)).set ↔ _
  rw [View.set_slice_whole, Rect.mem_set_unit]
  exact Iff.rfl

/-- THE OUTPUT ARRAY after the launch: `scaleMatmul` of the arrays it found. -/
theorem final (c : Dev nD) :
    (dat4 V c).arrAt 3 cfg4.N = scaleMatmul (arrH V c) (arrS V c) (arrW V c) :=
  (dat4 V c).arrAt_eq_of_cover 3 _ (fun t _ => flushed_eq V c t) fun i => by
    have hi0 : (i 0).val < 100000 := (i 0).isLt
    have hi1 : (i 1).val < 64 := (i 1).isLt
    obtain ⟨t, ht⟩ := idx_onto ⟨(i 0).val / 10000, by omega⟩
    have q0 : win4_3.index t (0 : Fin 2) = (i 0).val / 10000 := congrFun ht 0
    have q1 : win4_3.index t (1 : Fin 2) = 0 := congrFun ht 1
    refine ⟨t, flush4_3 t, ?_⟩
    rw [mem_blk]
    intro a
    match a with
    | ⟨0, _⟩ => show win4_3.index t (0 : Fin 2) * 10000 ≤ (i 0).val ∧ (i 0).val < win4_3.index t (0 : Fin 2) * 10000 + 10000; omega
    | ⟨1, _⟩ => show win4_3.index t (1 : Fin 2) * 64 ≤ (i 1).val ∧ (i 1).val < win4_3.index t (1 : Fin 2) * 64 + 64; omega

end Cert.KernelIdeal.Region4

end
-- ==== Proof.Region5.lean ====
/-
  Launch 5 (the aggregated rows scaled by their node's factor, a bias row added), read as a whole array: grid point t
  works on rows 10000·t … 10000·t + 9999 of the node arrays and on the whole bias row, so what it writes back is block t
  of ONE function of the arrays the launch finds — `Spec.scaleBias` of them — and the ten blocks tile the output.
-/
import proofs.«400118_j7739531067711_2_alg».proof.Proof.Gen.KernelIdeal.Frame
import proofs.«400118_j7739531067711_2_alg».proof.Proof.KPay
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The node arrays and the bias row as the launch finds them, at their literal types. -/
abbrev arrA (c : Dev nD) : S100000x64.Idx → EReal := V c (Pipeline.arrRef spec5 0)
abbrev arrS (c : Dev nD) : S100000x1.Idx → EReal := V c (Pipeline.arrRef spec5 1)
abbrev arrB (c : Dev nD) : S1x64.Idx → EReal := V c (Pipeline.arrRef spec5 2)

/-- The three input blocks of grid point t, at their literal types. -/
abbrev blkA (c : Dev nD) (t : Fin cfg5.N) : Vec Ideal S10000x64 .f32 := iblk5 V c 0 t
abbrev blkS (c : Dev nD) (t : Fin cfg5.N) : Vec Ideal S10000x1 .f32 := iblk5 V c 1 t
abbrev blkB (c : Dev nD) (t : Fin cfg5.N) : Vec Ideal S1x64 .f32 := iblk5 V c 2 t

/-- The index maps over the grid: the node windows move down ten thousand rows a point, the bias row stays. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 10 :=
  (by decide +kernel : ∀ t : Fin grid5.N, _)

/-- Every block row of the output is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

/-- Entry (p, k) of the aggregate block at point t is entry (10000·t + p, k) of the array. -/
theorem blkA_apply (c : Dev nD) (t : Fin cfg5.N) (p : Fin 10000) (k : Fin 64) (r : Fin 100000) (hr : r.val = t.val * 10000 + p.val) :
    blkA V c t (ix2 p k) = arrA V c (ix2 r k) := by
  obtain ⟨e0, e1, -⟩ := idx_facts t
  unfold blkA iblk5
  rw [View.read_apply]
  show V c (Pipeline.arrRef spec5 0) _ = V c (Pipeline.arrRef spec5 0) _
  congr 1
  funext a
  apply Fin.ext
  match a with
  | ⟨0, _⟩ => show win5_0.index t 0 * 10000 + 1 * p.val = r.val; rw [e0, hr]; omega
  | ⟨1, _⟩ => show win5_0.index t 1 * 64 + 1 * k.val = k.val; rw [e1]; omega

/-- Entry (p, 0) of the factor block at point t is entry (10000·t + p, 0) of the column. -/
theorem blkS_apply (c : Dev nD) (t : Fin cfg5.N) (p : Fin 10000) (r : Fin 100000) (hr : r.val = t.val * 10000 + p.val) :
    blkS V c t (ix2 p (0 : Fin 1)) = arrS V c (ix2 r (0 : Fin 1)) := by
  obtain ⟨-, -, e0, e1, -⟩ := idx_facts t
  unfold blkS iblk5
  rw [View.read_apply]
  show V c (Pipeline.arrRef spec5 1) _ = V c (Pipeline.arrRef spec5 1) _
  congr 1
  funext a
  apply Fin.ext
  match a with
  | ⟨0, _⟩ => show win5_1.index t 0 * 10000 + 1 * p.val = r.val; rw [e0, hr]; omega
  | ⟨1, _⟩ => show win5_1.index t 1 * 1 + 1 * 0 = 0; rw [e1]

/-- The bias block is the bias row. -/
theorem blkB_apply (c : Dev nD) (t : Fin cfg5.N) (q : Fin 64) :
    blkB V c t (ix2 (0 : Fin 1) q) = arrB V c (ix2 (0 : Fin 1) q) := by
  obtain ⟨-, -, -, -, e0, e1, -⟩ := idx_facts t
  unfold blkB iblk5
  rw [View.read_apply]
  show V c (Pipeline.arrRef spec5 2) _ = V c (Pipeline.arrRef spec5 2) _
  congr 1
  funext a
  apply Fin.ext
  match a with
  | ⟨0, _⟩ => show win5_2.index t 0 * 1 + 1 * 0 = 0; rw [e0]
  | ⟨1, _⟩ => show win5_2.index t 1 * 64 + 1 * q.val = q.val; rw [e1]; omega

/-- WHAT POINT t WRITES BACK is block t of `scaleBias` of the arrays the launch finds. -/
theorem flushed_eq (c : Dev nD) (t : Fin cfg5.N) :
    (dat5 V c).flushed 3 t = ((cfg5.win 3).blk t).view.read (Elt Ideal) (scaleBias (arrA V c) (arrS V c) (arrB V c)) := by
  show (cfg5.win 3).cut (grid5.coords t) ((dat5 V c).after 3 t) = _
  rw [after5_3]
  unfold out5_3
  rw [View.canon_unit_zero hz]
  simp only [View.ld_unit_zero (S := S10000x64) hz, View.ld_unit_zero (S := S10000x1) hz, View.ld_unit_zero (S := S1x64) hz]
  obtain ⟨-, -, -, -, -, -, e0, e1, ht⟩ := idx_facts t
  funext j
  obtain ⟨p, q, rfl⟩ : ∃ (p : Fin 10000) (q : Fin 64), j = ix2 p q := ⟨j 0, j 1, eq_ix2 j⟩
  have hr : t.val * 10000 + p.val < 100000 := by have := p.isLt; omega
  have hemb : ((cfg5.win 3).blk t).view.emb (ix2 p q) = (ix2 (⟨t.val * 10000 + p.val, hr⟩ : Fin 100000) q : S100000x64.Idx) := by
    funext a
    apply Fin.ext
    match a with
    | ⟨0, _⟩ => show win5_3.index t 0 * 10000 + 1 * p.val = t.val * 10000 + p.val; rw [e0]; omega
    | ⟨1, _⟩ => show win5_3.index t 1 * 64 + 1 * q.val = q.val; rw [e1]; omega
  rw [View.read_apply, hemb]
  show k5_pay1 (blkA V c t) (blkS V c t) (blkB V c t) (ix2 p q) = scaleBias (arrA V c) (arrS V c) (arrB V c) (ix2 (⟨t.val * 10000 + p.val, hr⟩ : Fin 100000) q)
  refine (Pay.k5_pay1_apply (blkA V c t) (blkS V c t) (blkB V c t) p q).trans ?_
  rw [scaleBias_ix2]
  unfold scaleBiasAt
  rw [blkA_apply V c t p q ⟨t.val * 10000 + p.val, hr⟩ rfl, blkS_apply V c t p ⟨t.val * 10000 + p.val, hr⟩ rfl, blkB_apply V c t q]

/-- An index of the output array is in point t's block iff its row is among the block's ten thousand. -/
theorem mem_blk (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v35).slice (win5_3.rect t)).set ↔ _
  rw [View.set_slice_whole, Rect.mem_set_unit]
  exact Iff.rfl

/-- THE OUTPUT ARRAY after the launch: `scaleBias` of the arrays it found. -/
theorem final (c : Dev nD) :
    (dat5 V c).arrAt 3 cfg5.N = scaleBias (arrA V c) (arrS V c) (arrB V c) :=
  (dat5 V c).arrAt_eq_of_cover 3 _ (fun t _ => flushed_eq V c t) fun i => by
    have hi0 : (i 0).val < 100000 := (i 0).isLt
    have hi1 : (i 1).val < 64 := (i 1).isLt
    obtain ⟨t, ht⟩ := idx_onto ⟨(i 0).val / 10000, by omega⟩
    have q0 : win5_3.index t (0 : Fin 2) = (i 0).val / 10000 := congrFun ht 0
    have q1 : win5_3.index t (1 : Fin 2) = 0 := congrFun ht 1
    refine ⟨t, flush5_3 t, ?_⟩
    rw [mem_blk]
    intro a
    match a with
    | ⟨0, _⟩ => show win5_3.index t (0 : Fin 2) * 10000 ≤ (i 0).val ∧ (i 0).val < win5_3.index t (0 : Fin 2) * 10000 + 10000; omega
    | ⟨1, _⟩ => show win5_3.index t (1 : Fin 2) * 64 ≤ (i 1).val ∧ (i 1).val < win5_3.index t (1 : Fin 2) * 64 + 64; omega

end Cert.KernelIdeal.Region5

end
-- ==== Proof.KPay6.lean ====
/-
  The seventh launch's arithmetic at an index: entry (p, q) of what the body stores is the softmax, over the two
  logits of row p, of a two-layer perceptron of that row — two contractions read as sums over their contracted
  coordinates (the changes of float format being the identity on the extended reals), the bias rows added, the
  rectifier after the first, the row maximum taken against −∞, the shifted exponentials and their row sum.
-/
import proofs.«400118_j7739531067711_2_alg».proof.Proof.Gen.KernelIdeal.Skeleton
import proofs.«400118_j7739531067711_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay6

open Cert.KernelIdeal Cert.KernelIdeal.Gen Idealize.ShloMosaic Idealize.ShloMosaic.ValueIdx Cert.Spec

/-! ## The [10000 × 128] · [128 × 64] contraction at an index -/

theorem lhsB_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsB_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsB_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsB_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry (p, q) of the product into the zero accumulator: the sum over the 128 contracted coordinates. -/
theorem matmulB_apply {φ₁ φ₂ : FTy} (l : FVec Ideal S10000x128 φ₁) (r : FVec Ideal S128x64 φ₂) (p : Fin 10000) (q : Fin 64) :
    matmul dot_S10000x128_S128x64_S10000x64_1_0_0_1_n_n none l r (constant S10000x64 .f32 0x00000000#32) (ix2 p q)
      = ∑ k : Fin 128, l (ix2 p k) * r (ix2 k q) := by
  show FloatOps.matmul _ _ _ _ _ _ = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The [10000 × 64] · [64 × 2] contraction at an index -/

theorem lhsC_0 (i : S10000x2.Idx) (q : dot_S10000x64_S64x2_S10000x2_1_0_0_1_n_n.contr.Idx) :
    (dot_S10000x64_S64x2_S10000x2_1_0_0_1_n_n.lhsIdx i q 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
theorem lhsC_1 (i : S10000x2.Idx) (q : dot_S10000x64_S64x2_S10000x2_1_0_0_1_n_n.contr.Idx) :
    (dot_S10000x64_S64x2_S10000x2_1_0_0_1_n_n.lhsIdx i q 1).val = (q ⟨0, by decide⟩).val :=
  dot_S10000x64_S64x2_S10000x2_1_0_0_1_n_n.lhsIdx_val_of_single rfl i q
theorem rhsC_0 (i : S10000x2.Idx) (q : dot_S10000x64_S64x2_S10000x2_1_0_0_1_n_n.contr.Idx) :
    (dot_S10000x64_S64x2_S10000x2_1_0_0_1_n_n.rhsIdx i q 0).val = (q ⟨0, by decide⟩).val :=
  dot_S10000x64_S64x2_S10000x2_1_0_0_1_n_n.rhsIdx_val_of_single rfl i q
theorem rhsC_1 (i : S10000x2.Idx) (q : dot_S10000x64_S64x2_S10000x2_1_0_0_1_n_n.contr.Idx) :
    (dot_S10000x64_S64x2_S10000x2_1_0_0_1_n_n.rhsIdx i q 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- Entry (p, q) of the product into the zero accumulator: the sum over the 64 contracted coordinates. -/
theorem matmulC_apply {φ₁ φ₂ : FTy} (l : FVec Ideal S10000x64 φ₁) (r : FVec Ideal S64x2 φ₂) (p : Fin 10000) (q : Fin 2) :
    matmul dot_S10000x64_S64x2_S10000x2_1_0_0_1_n_n none l r (constant S10000x2 .f32 0x00000000#32) (ix2 p q)
      = ∑ k : Fin 64, l (ix2 p k) * r (ix2 k q) := by
  show FloatOps.matmul _ _ _ _ _ _ = _
  rw [Ideal.matmul_constant_zero_apply, ← Equiv.sum_comp (ValueIdx.contrEquiv1 dot_S10000x64_S64x2_S10000x2_1_0_0_1_n_n 64 rfl rfl).symm]
  refine Finset.sum_congr rfl fun k _ => ?_
  have hk := ValueIdx.contrEquiv1_symm_val dot_S10000x64_S64x2_S10000x2_1_0_0_1_n_n 64 rfl rfl k
  have el : dot_S10000x64_S64x2_S10000x2_1_0_0_1_n_n.lhsIdx (ix2 p q) ((ValueIdx.contrEquiv1 dot_S10000x64_S64x2_S10000x2_1_0_0_1_n_n 64 rfl rfl).symm k) = ix2 p k := funext fun a => Fin.ext (by
    match a with
    | ⟨0, _⟩ => exact lhsC_0 _ _
    | ⟨1, _⟩ => exact (lhsC_1 _ _).trans hk)
  have er : dot_S10000x64_S64x2_S10000x2_1_0_0_1_n_n.rhsIdx (ix2 p q) ((ValueIdx.contrEquiv1 dot_S10000x64_S64x2_S10000x2_1_0_0_1_n_n 64 rfl rfl).symm k) = ix2 k q := funext fun a => Fin.ext (by
    match a with
    | ⟨0, _⟩ => exact (rhsC_0 _ _).trans hk
    | ⟨1, _⟩ => exact rhsC_1 _ _)
  rw [el, er]

/-! ## Bias rows, the unit column and the reductions at an index -/

/-- The [1 × 64] bias row laid along the 10000 rows reads, at (p, j), the row at (0, j). -/
theorem bcastRow64_apply (v : FVec Ideal S1x64 .f32) (p : Fin 10000) (j : Fin 64) :
    broadcastTo S10000x64 v broadcasts_S1x64_S10000x64 (ix2 p j) = v (ix2 (0 : Fin 1) j) := by
  refine broadcastTo_apply v broadcasts_S1x64_S10000x64 (ix2 p j) (ix2 (0 : Fin 1) j) fun a => ?_
  match a with
  | ⟨0, _⟩ => show 0 = if (1 : Nat) = 1 then 0 else p.val; rw [if_pos rfl]
  | ⟨1, _⟩ => show j.val = if (64 : Nat) = 1 then 0 else j.val; rw [if_neg (by decide)]

/-- The [1 × 2] bias row laid along the 10000 rows reads, at (p, q), the row at (0, q). -/
theorem bcastRow2_apply (v : FVec Ideal S1x2 .f32) (p : Fin 10000) (q : Fin 2) :
    broadcastTo S10000x2 v broadcasts_S1x2_S10000x2 (ix2 p q) = v (ix2 (0 : Fin 1) q) := by
  refine broadcastTo_apply v broadcasts_S1x2_S10000x2 (ix2 p q) (ix2 (0 : Fin 1) q) fun a => ?_
  match a with
  | ⟨0, _⟩ => show 0 = if (1 : Nat) = 1 then 0 else p.val; rw [if_pos rfl]
  | ⟨1, _⟩ => show q.val = if (2 : Nat) = 1 then 0 else q.val; rw [if_neg (by decide)]

/-- A [10000 × 1] column laid along the two columns reads, at (p, q), the column at (p, 0). -/
theorem bcastCol2_apply (v : FVec Ideal S10000x1 .f32) (p : Fin 10000) (q : Fin 2) :
    broadcastTo S10000x2 v broadcasts_S10000x1_S10000x2 (ix2 p q) = v (ix2 p (0 : Fin 1)) := by
  refine broadcastTo_apply v broadcasts_S10000x1_S10000x2 (ix2 p q) (ix2 p (0 : Fin 1)) fun a => ?_
  match a with
  | ⟨0, _⟩ => show p.val = if (10000 : Nat) = 1 then 0 else p.val; rw [if_neg (by decide)]
  | ⟨1, _⟩ => show 0 = if (1 : Nat) = 1 then 0 else q.val; rw [if_pos rfl]

/-- A length-10000 vector viewed as a [10000 × 1] column reads, at (p, 0), the vector at p: the two row-major
    positions are both p. -/
theorem castCol_apply (v : FVec Ideal S10000 .f32) (p : Fin 10000) :
    shapeCast S10000x1 v shapeCasts_S10000_S10000x1 (ix2 p (0 : Fin 1)) = v (ix1 p) := by
  refine shapeCast_apply v shapeCasts_S10000_S10000x1 (ix2 p (0 : Fin 1)) (ix1 p) ?_
  rw [Shape.rowMajor_val_one, Shape.rowMajor_val_two]
  show p.val = p.val * 1 + 0
  omega

/-- Row p with the coordinate k inserted on the reduced axis is the index (p, k). -/
theorem lift_ix1 (p : Fin 10000) (k : Fin 2) : reduces_S10000x2_S10000.lift (ix1 p) k = ix2 p k :=
  funext fun a => Fin.ext (by
    match a with
    | ⟨0, _⟩ => rfl
    | ⟨1, _⟩ => rfl)

/-- The maximum over the two columns of row p, folded from −∞. -/
theorem redMax_apply (v : FVec Ideal S10000x2 .f32) (p : Fin 10000) :
    multiReduction (F := Ideal) .maximumf [1] S10000 v 0xFF800000#32 reduces_S10000x2_S10000 (.inl rfl) rfl (ix1 p)
      = (Finset.univ : Finset (Fin 2)).fold max (Ideal.ofBits .f32 0xFF800000#32) (fun k => v (ix2 p k)) := by
  refine (Ideal.multiReduction_maximumf_single v 0xFF800000#32 reduces_S10000x2_S10000 (.inl rfl) rfl (ix1 p)).trans ?_
  refine Finset.fold_congr fun k _ => ?_
  exact congrArg v (lift_ix1 p k)

/-- The sum over the two columns of row p. -/
theorem redAdd_apply (v : FVec Ideal S10000x2 .f32) (p : Fin 10000) :
    multiReduction (F := Ideal) .add [1] S10000 v 0x00000000#32 reduces_S10000x2_S10000 (.inl rfl) rfl (ix1 p)
      = ∑ k : Fin 2, v (ix2 p k) := by
  refine (Ideal.multiReduction_add_single v 0x00000000#32 reduces_S10000x2_S10000 (.inl rfl) rfl (ix1 p)).trans ?_
  refine Finset.sum_congr rfl fun k _ => ?_
  exact congrArg v (lift_ix1 p k)

/-! ## The perceptron's two layers at an index -/

/-- An exponential at an index is the exponential of the element. -/
theorem exp_apply {s : Shape} {φ : FTy} (a : FVec Ideal s φ) (i : s.Idx) : exp a i = Ideal.exp (a i) := rfl

/-- Hidden unit j of row p: the row times column j of the first matrix, plus the bias, rectified. -/
theorem hidden_apply (x0 : Vec Ideal S10000x128 .f32) (x1 : Vec Ideal S128x64 .f32) (x2 : Vec Ideal S1x64 .f32) (p : Fin 10000) (j : Fin 64) :
    maximumf (addf (matmul dot_S10000x128_S128x64_S10000x64_1_0_0_1_n_n none
          (truncf .bf16 (shapeCast S10000x128 x0 shapeCasts_S10000x128_S10000x128) bitsLt_bf16_f32)
          (truncf .bf16 x1 bitsLt_bf16_f32) (constant S10000x64 .f32 0x00000000#32))
        (broadcastTo S10000x64 (shapeCast S1x64 x2 shapeCasts_S1x64_S1x64) broadcasts_S1x64_S10000x64))
      (broadcast S10000x64 (FloatOps.ofBits (F := Ideal) .f32 0x00000000#32)) (ix2 p j)
    = max ((∑ k : Fin 128, x0 (ix2 p k) * x1 (ix2 k j)) + x2 (ix2 (0 : Fin 1) j)) (Ideal.ofBits .f32 0x00000000#32) := by
  refine (maximumf_apply _ _ (ix2 p j)).trans ?_
  refine congrArg (fun t => max t (Ideal.ofBits .f32 0x00000000#32)) ?_
  refine (addf_apply _ _ (ix2 p j)).trans ?_
  rw [matmulB_apply, bcastRow64_apply]
  refine congrArg₂ (· + ·) (Finset.sum_congr rfl fun k _ => ?_) ?_
  · exact congrArg (· * x1 (ix2 k j)) (congrFun (shapeCast_self x0 shapeCasts_S10000x128_S10000x128) (ix2 p k))
  · exact congrFun (shapeCast_self x2 shapeCasts_S1x64_S1x64) (ix2 (0 : Fin 1) j)

/-- Logit q of row p, over a hidden block whose row p is known: the hidden row times column q of the second
    matrix, plus the bias. -/
theorem logits_apply (h : FVec Ideal S10000x64 .f32) (g : Fin 64 → EReal) (x3 : Vec Ideal S64x2 .f32) (x4 : Vec Ideal S1x2 .f32) (p : Fin 10000)
    (hh : ∀ j : Fin 64, h (ix2 p j) = g j) (q : Fin 2) :
    addf (matmul dot_S10000x64_S64x2_S10000x2_1_0_0_1_n_n none (truncf .bf16 h bitsLt_bf16_f32) (truncf .bf16 x3 bitsLt_bf16_f32)
          (constant S10000x2 .f32 0x00000000#32))
        (broadcastTo S10000x2 (shapeCast S1x2 x4 shapeCasts_S1x2_S1x2) broadcasts_S1x2_S10000x2) (ix2 p q)
      = (∑ j : Fin 64, g j * x3 (ix2 j q)) + x4 (ix2 (0 : Fin 1) q) := by
  refine (addf_apply _ _ (ix2 p q)).trans ?_
  rw [matmulC_apply, bcastRow2_apply]
  refine congrArg₂ (· + ·) (Finset.sum_congr rfl fun j _ => ?_) ?_
  · exact congrArg (· * x3 (ix2 j q)) (hh j)
  · exact congrFun (shapeCast_self x4 shapeCasts_S1x2_S1x2) (ix2 (0 : Fin 1) q)

/-! ## The softmax of a pair row at an index -/

/-- The shifted exponential at (p, q), over a logits block whose row p is known: the logit minus the row maximum —
    the maximum of −∞ and the fold of the maximum from −∞ over the row — exponentiated. -/
theorem shiftExp_apply (l : FVec Ideal S10000x2 .f32) (f : Fin 2 → EReal) (p : Fin 10000) (hl : ∀ k : Fin 2, l (ix2 p k) = f k) (q : Fin 2) :
    exp (subf l (broadcastTo S10000x2 (shapeCast S10000x1
        (maximumf (broadcast S10000 (FloatOps.ofBits (F := Ideal) .f32 0xFF800000#32))
          (multiReduction (F := Ideal) .maximumf [1] S10000 l 0xFF800000#32 reduces_S10000x2_S10000 (.inl rfl) rfl))
        shapeCasts_S10000_S10000x1) broadcasts_S10000x1_S10000x2)) (ix2 p q)
      = Ideal.exp (f q - max (Ideal.ofBits .f32 0xFF800000#32)
          ((Finset.univ : Finset (Fin 2)).fold max (Ideal.ofBits .f32 0xFF800000#32) f)) := by
  refine (exp_apply _ (ix2 p q)).trans ?_
  refine congrArg Ideal.exp ?_
  refine (subf_apply _ _ (ix2 p q)).trans ?_
  rw [bcastCol2_apply, castCol_apply]
  refine congrArg₂ (· - ·) (hl q) ?_
  refine (maximumf_apply _ _ (ix1 p)).trans ?_
  refine congrArg (max (Ideal.ofBits .f32 0xFF800000#32)) ?_
  refine (redMax_apply l p).trans ?_
  exact Finset.fold_congr fun k _ => hl k

/-- A block divided by its row sums at (p, q), over a block whose row p is known. -/
theorem normalize_apply (e : FVec Ideal S10000x2 .f32) (g : Fin 2 → EReal) (p : Fin 10000) (he : ∀ k : Fin 2, e (ix2 p k) = g k) (q : Fin 2) :
    divf e (broadcastTo S10000x2 (shapeCast S10000x1
        (multiReduction (F := Ideal) .add [1] S10000 e 0x00000000#32 reduces_S10000x2_S10000 (.inl rfl) rfl)
        shapeCasts_S10000_S10000x1) broadcasts_S10000x1_S10000x2) (ix2 p q)
      = Ideal.div (g q) (∑ k : Fin 2, g k) := by
  refine (divf_apply _ _ (ix2 p q)).trans ?_
  rw [bcastCol2_apply, castCol_apply, redAdd_apply]
  exact congrArg₂ Ideal.div (he q) (Finset.sum_congr rfl fun k _ => he k)

/-! ## The seventh launch's store at an index -/

/-- Entry (p, q) of what the body stores is the specification's softmax of the perceptron of row p. -/
theorem k6_pay1_apply (x0 : Vec Ideal S10000x128 .f32) (x1 : Vec Ideal S128x64 .f32) (x2 : Vec Ideal S1x64 .f32) (x3 : Vec Ideal S64x2 .f32)
    (x4 : Vec Ideal S1x2 .f32) (p : Fin 10000) (q : Fin 2) :
    k6_pay1 x0 x1 x2 x3 x4 (ix2 p q) = mlpSoftmaxAt (n := 10000) x0 x1 x2 x3 x4 p q := by
  unfold k6_pay1
  dsimp only
  refine (normalize_apply _ (expAt (n := 10000) x0 x1 x2 x3 x4 p) p ?_ q).trans rfl
  intro k
  refine (shiftExp_apply _ (logitAt (n := 10000) x0 x1 x2 x3 x4 p) p ?_ k).trans rfl
  intro k'
  refine (logits_apply _ (hiddenAt (n := 10000) x0 x1 x2 p) x3 x4 p ?_ k').trans rfl
  intro j
  exact hidden_apply x0 x1 x2 p j

end Cert.KernelIdeal.Pay6

end
-- ==== Proof.Region6.lean ====
/-
  Launch 6 (a two-layer perceptron of each pair row, then the softmax over its two logits), read as a whole array:
  grid point t works on rows 10000·t … 10000·t + 9999 of the pair array and on the whole weight matrices and bias
  rows, so what it writes back is block t of ONE function of the arrays the launch finds — `Spec.mlpSoftmax` of
  them — and the twenty blocks tile the output.
-/
import proofs.«400118_j7739531067711_2_alg».proof.Proof.Gen.KernelIdeal.Frame
import proofs.«400118_j7739531067711_2_alg».proof.Proof.KPay6
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.SL.Sem
open Idealize.ShloMosaic.Pipeline (Dat Cfg Window)
open Cert.Spec Idealize.ShloMosaic.ValueIdx

/-! ## The specification read off two sets of arrays that agree on one row

The perceptron and the softmax of row r of one pair array and of row r' of another are the same numbers once the
two rows agree entry by entry and the weights and biases agree: each formula of the specification in turn. -/

/-- A hidden unit. -/
theorem hiddenAt_rows {n m : Nat} (P : Ix n 128 → EReal) (P' : Ix m 128 → EReal) (w₁ w₁' : Ix 128 64 → EReal) (b₁ b₁' : Ix 1 64 → EReal)
    (w₂ w₂' : Ix 64 2 → EReal) (b₂ b₂' : Ix 1 2 → EReal) (r : Fin n) (r' : Fin m)
    (hP : ∀ k : Fin 128, P (ix2 r k) = P' (ix2 r' k)) (hW1 : ∀ (k : Fin 128) (j : Fin 64), w₁ (ix2 k j) = w₁' (ix2 k j))
    (hB1 : ∀ j : Fin 64, b₁ (ix2 (0 : Fin 1) j) = b₁' (ix2 (0 : Fin 1) j)) (hW2 : ∀ (j : Fin 64) (q : Fin 2), w₂ (ix2 j q) = w₂' (ix2 j q))
    (hB2 : ∀ q : Fin 2, b₂ (ix2 (0 : Fin 1) q) = b₂' (ix2 (0 : Fin 1) q)) (j : Fin 64) :
    hiddenAt P w₁ b₁ r j = hiddenAt P' w₁' b₁' r' j := by
  unfold hiddenAt
  refine congrArg (fun s => max s zeroE) ?_
  refine congrArg₂ (· + ·) (Finset.sum_congr rfl fun k _ => ?_) (hB1 j)
  exact congrArg₂ (· * ·) (hP k) (hW1 k j)

/-- A logit. -/
theorem logitAt_rows {n m : Nat} (P : Ix n 128 → EReal) (P' : Ix m 128 → EReal) (w₁ w₁' : Ix 128 64 → EReal) (b₁ b₁' : Ix 1 64 → EReal)
    (w₂ w₂' : Ix 64 2 → EReal) (b₂ b₂' : Ix 1 2 → EReal) (r : Fin n) (r' : Fin m)
    (hP : ∀ k : Fin 128, P (ix2 r k) = P' (ix2 r' k)) (hW1 : ∀ (k : Fin 128) (j : Fin 64), w₁ (ix2 k j) = w₁' (ix2 k j))
    (hB1 : ∀ j : Fin 64, b₁ (ix2 (0 : Fin 1) j) = b₁' (ix2 (0 : Fin 1) j)) (hW2 : ∀ (j : Fin 64) (q : Fin 2), w₂ (ix2 j q) = w₂' (ix2 j q))
    (hB2 : ∀ q : Fin 2, b₂ (ix2 (0 : Fin 1) q) = b₂' (ix2 (0 : Fin 1) q)) (q : Fin 2) :
    logitAt P w₁ b₁ w₂ b₂ r q = logitAt P' w₁' b₁' w₂' b₂' r' q := by
  unfold logitAt
  refine congrArg₂ (· + ·) (Finset.sum_congr rfl fun j _ => ?_) (hB2 q)
  exact congrArg₂ (· * ·) (hiddenAt_rows P P' w₁ w₁' b₁ b₁' w₂ w₂' b₂ b₂' r r' hP hW1 hB1 hW2 hB2 j) (hW2 j q)

/-- The row maximum. -/
theorem rowMaxAt_rows {n m : Nat} (P : Ix n 128 → EReal) (P' : Ix m 128 → EReal) (w₁ w₁' : Ix 128 64 → EReal) (b₁ b₁' : Ix 1 64 → EReal)
    (w₂ w₂' : Ix 64 2 → EReal) (b₂ b₂' : Ix 1 2 → EReal) (r : Fin n) (r' : Fin m)
    (hP : ∀ k : Fin 128, P (ix2 r k) = P' (ix2 r' k)) (hW1 : ∀ (k : Fin 128) (j : Fin 64), w₁ (ix2 k j) = w₁' (ix2 k j))
    (hB1 : ∀ j : Fin 64, b₁ (ix2 (0 : Fin 1) j) = b₁' (ix2 (0 : Fin 1) j)) (hW2 : ∀ (j : Fin 64) (q : Fin 2), w₂ (ix2 j q) = w₂' (ix2 j q))
    (hB2 : ∀ q : Fin 2, b₂ (ix2 (0 : Fin 1) q) = b₂' (ix2 (0 : Fin 1) q)) :
    rowMaxAt P w₁ b₁ w₂ b₂ r = rowMaxAt P' w₁' b₁' w₂' b₂' r' := by
  unfold rowMaxAt
  refine congrArg (max negInfE) ?_
  exact Finset.fold_congr fun q _ => logitAt_rows P P' w₁ w₁' b₁ b₁' w₂ w₂' b₂ b₂' r r' hP hW1 hB1 hW2 hB2 q

/-- The shifted exponential. -/
theorem expAt_rows {n m : Nat} (P : Ix n 128 → EReal) (P' : Ix m 128 → EReal) (w₁ w₁' : Ix 128 64 → EReal) (b₁ b₁' : Ix 1 64 → EReal)
    (w₂ w₂' : Ix 64 2 → EReal) (b₂ b₂' : Ix 1 2 → EReal) (r : Fin n) (r' : Fin m)
    (hP : ∀ k : Fin 128, P (ix2 r k) = P' (ix2 r' k)) (hW1 : ∀ (k : Fin 128) (j : Fin 64), w₁ (ix2 k j) = w₁' (ix2 k j))
    (hB1 : ∀ j : Fin 64, b₁ (ix2 (0 : Fin 1) j) = b₁' (ix2 (0 : Fin 1) j)) (hW2 : ∀ (j : Fin 64) (q : Fin 2), w₂ (ix2 j q) = w₂' (ix2 j q))
    (hB2 : ∀ q : Fin 2, b₂ (ix2 (0 : Fin 1) q) = b₂' (ix2 (0 : Fin 1) q)) (q : Fin 2) :
    expAt P w₁ b₁ w₂ b₂ r q = expAt P' w₁' b₁' w₂' b₂' r' q := by
  unfold expAt
  refine congrArg Ideal.exp ?_
  exact congrArg₂ (· - ·) (logitAt_rows P P' w₁ w₁' b₁ b₁' w₂ w₂' b₂ b₂' r r' hP hW1 hB1 hW2 hB2 q) (rowMaxAt_rows P P' w₁ w₁' b₁ b₁' w₂ w₂' b₂ b₂' r r' hP hW1 hB1 hW2 hB2)

/-- The softmax entry. -/
theorem mlpSoftmaxAt_rows {n m : Nat} (P : Ix n 128 → EReal) (P' : Ix m 128 → EReal) (w₁ w₁' : Ix 128 64 → EReal) (b₁ b₁' : Ix 1 64 → EReal)
    (w₂ w₂' : Ix 64 2 → EReal) (b₂ b₂' : Ix 1 2 → EReal) (r : Fin n) (r' : Fin m)
    (hP : ∀ k : Fin 128, P (ix2 r k) = P' (ix2 r' k)) (hW1 : ∀ (k : Fin 128) (j : Fin 64), w₁ (ix2 k j) = w₁' (ix2 k j))
    (hB1 : ∀ j : Fin 64, b₁ (ix2 (0 : Fin 1) j) = b₁' (ix2 (0 : Fin 1) j)) (hW2 : ∀ (j : Fin 64) (q : Fin 2), w₂ (ix2 j q) = w₂' (ix2 j q))
    (hB2 : ∀ q : Fin 2, b₂ (ix2 (0 : Fin 1) q) = b₂' (ix2 (0 : Fin 1) q)) (q : Fin 2) :
    mlpSoftmaxAt P w₁ b₁ w₂ b₂ r q = mlpSoftmaxAt P' w₁' b₁' w₂' b₂' r' q := by
  unfold mlpSoftmaxAt
  exact congrArg₂ Ideal.div (expAt_rows P P' w₁ w₁' b₁ b₁' w₂ w₂' b₂ b₂' r r' hP hW1 hB1 hW2 hB2 q) (Finset.sum_congr rfl fun k _ => expAt_rows P P' w₁ w₁' b₁ b₁' w₂ w₂' b₂ b₂' r r' hP hW1 hB1 hW2 hB2 k)

variable (V : (c : Dev nD) → (b : Ref sig .tc) → Buf (Elt Ideal) ((c : Thread nD τ).loc b))

theorem hz : (![0, 0] : Fin 2 → Nat) = fun _ => 0 := funext fun a => by fin_cases a <;> rfl

/-- The pair array, the two weight matrices and the two bias rows as the launch finds them, at their literal types. -/
abbrev arrP (c : Dev nD) : S200000x128.Idx → EReal := V c (Pipeline.arrRef spec6 0)
abbrev arrW1 (c : Dev nD) : S128x64.Idx → EReal := V c (Pipeline.arrRef spec6 1)
abbrev arrB1 (c : Dev nD) : S1x64.Idx → EReal := V c (Pipeline.arrRef spec6 2)
abbrev arrW2 (c : Dev nD) : S64x2.Idx → EReal := V c (Pipeline.arrRef spec6 3)
abbrev arrB2 (c : Dev nD) : S1x2.Idx → EReal := V c (Pipeline.arrRef spec6 4)

/-- The five input blocks of grid point t, at their literal types. -/
abbrev blkP (c : Dev nD) (t : Fin cfg6.N) : Vec Ideal S10000x128 .f32 := iblk6 V c 0 t
abbrev blkW1 (c : Dev nD) (t : Fin cfg6.N) : Vec Ideal S128x64 .f32 := iblk6 V c 1 t
abbrev blkB1 (c : Dev nD) (t : Fin cfg6.N) : Vec Ideal S1x64 .f32 := iblk6 V c 2 t
abbrev blkW2 (c : Dev nD) (t : Fin cfg6.N) : Vec Ideal S64x2 .f32 := iblk6 V c 3 t
abbrev blkB2 (c : Dev nD) (t : Fin cfg6.N) : Vec Ideal S1x2 .f32 := iblk6 V c 4 t

/-- The index maps over the grid: the pair window and the output window move down ten thousand rows a point, the
    weights and the biases stay. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 ∧ t.val < 20 :=
  (by decide +kernel : ∀ t : Fin grid6.N, _)

/-- Every block row of the output is some point's. -/
theorem idx_onto : ∀ q0 : Fin 20, ∃ t : Fin cfg6.N, win6_5.index t = ![q0.val, 0] :=
  (by decide +kernel : ∀ q0 : Fin 20, ∃ t : Fin grid6.N, win6_5.index t = ![q0.val, 0])

/-- Entry (p, k) of the pair block at point t is entry (10000·t + p, k) of the array. -/
theorem blkP_apply (c : Dev nD) (t : Fin cfg6.N) (p : Fin 10000) (k : Fin 128) (r : Fin 200000) (hr : r.val = t.val * 10000 + p.val) :
    blkP V c t (ix2 p k) = arrP V c (ix2 r k) := by
  obtain ⟨e0, e1, -⟩ := idx_facts t
  unfold blkP iblk6
  rw [View.read_apply]
  show V c (Pipeline.arrRef spec6 0) _ = V c (Pipeline.arrRef spec6 0) _
  congr 1
  funext a
  apply Fin.ext
  match a with
  | ⟨0, _⟩ => show win6_0.index t 0 * 10000 + 1 * p.val = r.val; rw [e0, hr]; omega
  | ⟨1, _⟩ => show win6_0.index t 1 * 128 + 1 * k.val = k.val; rw [e1]; omega

/-- The first weight block is the first weight matrix. -/
theorem blkW1_apply (c : Dev nD) (t : Fin cfg6.N) (k : Fin 128) (j : Fin 64) :
    blkW1 V c t (ix2 k j) = arrW1 V c (ix2 k j) := by
  obtain ⟨-, -, e0, e1, -⟩ := idx_facts t
  unfold blkW1 iblk6
  rw [View.read_apply]
  show V c (Pipeline.arrRef spec6 1) _ = V c (Pipeline.arrRef spec6 1) _
  congr 1
  funext a
  apply Fin.ext
  match a with
  | ⟨0, _⟩ => show win6_1.index t 0 * 128 + 1 * k.val = k.val; rw [e0]; omega
  | ⟨1, _⟩ => show win6_1.index t 1 * 64 + 1 * j.val = j.val; rw [e1]; omega

/-- The first bias block is the first bias row. -/
theorem blkB1_apply (c : Dev nD) (t : Fin cfg6.N) (j : Fin 64) :
    blkB1 V c t (ix2 (0 : Fin 1) j) = arrB1 V c (ix2 (0 : Fin 1) j) := by
  obtain ⟨-, -, -, -, e0, e1, -⟩ := idx_facts t
  unfold blkB1 iblk6
  rw [View.read_apply]
  show V c (Pipeline.arrRef spec6 2) _ = V c (Pipeline.arrRef spec6 2) _
  congr 1
  funext a
  apply Fin.ext
  match a with
  | ⟨0, _⟩ => show win6_2.index t 0 * 1 + 1 * 0 = 0; rw [e0]
  | ⟨1, _⟩ => show win6_2.index t 1 * 64 + 1 * j.val = j.val; rw [e1]; omega

/-- The second weight block is the second weight matrix. -/
theorem blkW2_apply (c : Dev nD) (t : Fin cfg6.N) (j : Fin 64) (q : Fin 2) :
    blkW2 V c t (ix2 j q) = arrW2 V c (ix2 j q) := by
  obtain ⟨-, -, -, -, -, -, e0, e1, -⟩ := idx_facts t
  unfold blkW2 iblk6
  rw [View.read_apply]
  show V c (Pipeline.arrRef spec6 3) _ = V c (Pipeline.arrRef spec6 3) _
  congr 1
  funext a
  apply Fin.ext
  match a with
  | ⟨0, _⟩ => show win6_3.index t 0 * 64 + 1 * j.val = j.val; rw [e0]; omega
  | ⟨1, _⟩ => show win6_3.index t 1 * 2 + 1 * q.val = q.val; rw [e1]; omega

/-- The second bias block is the second bias row. -/
theorem blkB2_apply (c : Dev nD) (t : Fin cfg6.N) (q : Fin 2) :
    blkB2 V c t (ix2 (0 : Fin 1) q) = arrB2 V c (ix2 (0 : Fin 1) q) := by
  obtain ⟨-, -, -, -, -, -, -, -, e0, e1, -⟩ := idx_facts t
  unfold blkB2 iblk6
  rw [View.read_apply]
  show V c (Pipeline.arrRef spec6 4) _ = V c (Pipeline.arrRef spec6 4) _
  congr 1
  funext a
  apply Fin.ext
  match a with
  | ⟨0, _⟩ => show win6_4.index t 0 * 1 + 1 * 0 = 0; rw [e0]
  | ⟨1, _⟩ => show win6_4.index t 1 * 2 + 1 * q.val = q.val; rw [e1]; omega

/-- WHAT POINT t WRITES BACK is block t of `mlpSoftmax` of the arrays the launch finds. -/
theorem flushed_eq (c : Dev nD) (t : Fin cfg6.N) :
    (dat6 V c).flushed 5 t = ((cfg6.win 5).blk t).view.read (Elt Ideal) (mlpSoftmax (arrP V c) (arrW1 V c) (arrB1 V c) (arrW2 V c) (arrB2 V c)) := by
  show (cfg6.win 5).cut (grid6.coords t) ((dat6 V c).after 5 t) = _
  rw [after6_5]
  unfold out6_5
  rw [View.canon_unit_zero hz]
  simp only [View.ld_unit_zero (S := S10000x128) hz, View.ld_unit_zero (S := S128x64) hz, View.ld_unit_zero (S := S1x64) hz,
    View.ld_unit_zero (S := S64x2) hz, View.ld_unit_zero (S := S1x2) hz]
  obtain ⟨-, -, -, -, -, -, -, -, -, -, e0, e1, ht⟩ := idx_facts t
  funext j
  obtain ⟨p, q, rfl⟩ : ∃ (p : Fin 10000) (q : Fin 2), j = ix2 p q := ⟨j 0, j 1, eq_ix2 j⟩
  have hr : t.val * 10000 + p.val < 200000 := by have := p.isLt; omega
  have hemb : ((cfg6.win 5).blk t).view.emb (ix2 p q) = (ix2 (⟨t.val * 10000 + p.val, hr⟩ : Fin 200000) q : S200000x2.Idx) := by
    funext a
    apply Fin.ext
    match a with
    | ⟨0, _⟩ => show win6_5.index t 0 * 10000 + 1 * p.val = t.val * 10000 + p.val; rw [e0]; omega
    | ⟨1, _⟩ => show win6_5.index t 1 * 2 + 1 * q.val = q.val; rw [e1]; omega
  rw [View.read_apply, hemb]
  show k6_pay1 (blkP V c t) (blkW1 V c t) (blkB1 V c t) (blkW2 V c t) (blkB2 V c t) (ix2 p q)
    = mlpSoftmax (arrP V c) (arrW1 V c) (arrB1 V c) (arrW2 V c) (arrB2 V c) (ix2 (⟨t.val * 10000 + p.val, hr⟩ : Fin 200000) q)
  refine (Pay6.k6_pay1_apply (blkP V c t) (blkW1 V c t) (blkB1 V c t) (blkW2 V c t) (blkB2 V c t) p q).trans ?_
  rw [mlpSoftmax_ix2]
  exact mlpSoftmaxAt_rows _ _ _ _ _ _ _ _ _ _ p ⟨t.val * 10000 + p.val, hr⟩
    (fun k => blkP_apply V c t p k ⟨t.val * 10000 + p.val, hr⟩ rfl) (fun k j => blkW1_apply V c t k j) (fun j => blkB1_apply V c t j)
    (fun j q' => blkW2_apply V c t j q') (fun q' => blkB2_apply V c t q') q

/-- An index of the output array is in point t's block iff its row is among the block's ten thousand. -/
theorem mem_blk (t : Fin cfg6.N) (i : S200000x2.Idx) :
    i ∈ ((cfg6.win 5).blk t).view.set ↔ ∀ a : Fin 2, win6_5.index t a * S10000x2.size a ≤ (i a).val ∧ (i a).val < win6_5.index t a * S10000x2.size a + S10000x2.size a := by
  show i ∈ ((View.whole main_v41).slice (win6_5.rect t)).set ↔ _
  rw [View.set_slice_whole, Rect.mem_set_unit]
  exact Iff.rfl

/-- THE OUTPUT ARRAY after the launch: `mlpSoftmax` of the arrays it found. -/
theorem final (c : Dev nD) :
    (dat6 V c).arrAt 5 cfg6.N = mlpSoftmax (arrP V c) (arrW1 V c) (arrB1 V c) (arrW2 V c) (arrB2 V c) :=
  (dat6 V c).arrAt_eq_of_cover 5 _ (fun t _ => flushed_eq V c t) fun i => by
    have hi0 : (i 0).val < 200000 := (i 0).isLt
    have hi1 : (i 1).val < 2 := (i 1).isLt
    obtain ⟨t, ht⟩ := idx_onto ⟨(i 0).val / 10000, by omega⟩
    have q0 : win6_5.index t (0 : Fin 2) = (i 0).val / 10000 := congrFun ht 0
    have q1 : win6_5.index t (1 : Fin 2) = 0 := congrFun ht 1
    refine ⟨t, flush6_5 t, ?_⟩
    rw [mem_blk]
    intro a
    match a with
    | ⟨0, _⟩ => show win6_5.index t (0 : Fin 2) * 10000 ≤ (i 0).val ∧ (i 0).val < win6_5.index t (0 : Fin 2) * 10000 + 10000; omega
    | ⟨1, _⟩ => show win6_5.index t (1 : Fin 2) * 2 ≤ (i 1).val ∧ (i 1).val < win6_5.index t (1 : Fin 2) * 2 + 2; omega

end Cert.KernelIdeal.Region6

end
-- ==== Proof.TakeMask.lean ====
/-
  A table lookup by node numbers. The lookup `take table idx` (along the table's rows, at its default
  out-of-range mode) is the composite
    w    := idx where idx ≥ 0, idx + 100000 where idx < 0      (a negative number counts from the end)
    col  := w as a column with one entry per row
    mask := the conjunction, over the column's one entry, of  col ≥ 0  and  col ≤ 99999
    take := the gathered row where mask holds, a not-a-number elsewhere.
  When every word of idx is a node number, 0 ≤ idx < 100000 as signed words, then w = idx, the mask is 1
  everywhere, and the lookup is the gather itself. Stated twice: for the edge lists (1000000 words) and for
  the pair lists (200000 words).

  Below that: the precondition read back. It is a conjunction whose last conjuncts say, for three of the
  index lists, "every word w has w ≥ 0 and w < 100000"; read at each index that is `NodeRange`.
-/
import proofs.«400118_j7739531067711_2_alg».proof.KernelIdeal
import proofs.«400118_j7739531067711_2_alg».proof.Pre_finite_inputs
import Idealize.ShloMosaic.Lib.ValueIdx
import Idealize.ShloMosaic.Lib.ReduceAll
import Idealize.ShloMosaic.PureOps.Reduce

noncomputable section

namespace Cert.KernelIdeal.Take

open Idealize.ShloMosaic

/-- Every word is a node number: at least 0 and below 100000, as signed words. -/
def NodeRange {S : Shape} (x : IVec S 32) : Prop :=
  ∀ i : S.Idx, IntOp.cmpi .sge (x i) 0#32 = 1#1 ∧ IntOp.cmpi .slt (x i) 100000#32 = 1#1

/-! ## Words -/

/-- A one-bit word made from a Boolean is 1 only when the Boolean is true. -/
theorem eq_true_of_ofBool_eq_one {b : Bool} (h : BitVec.ofBool b = 1#1) : b = true := by
  cases b
  · exact absurd h (by decide)
  · rfl

/-- A word that is at least 0 is not below 0. -/
theorem slt_zero_of_sge_zero {a : BitVec 32} (h : IntOp.cmpi .sge a 0#32 = 1#1) : IntOp.cmpi .slt a 0#32 = 0#1 := by
  have h' : BitVec.ofBool ((0#32 : BitVec 32).sle a) = 1#1 := h
  have h0 : (0#32 : BitVec 32).toInt = 0 := by decide
  have hs := eq_true_of_ofBool_eq_one h'
  simp only [BitVec.sle, h0, decide_eq_true_eq] at hs
  have hf : a.slt 0#32 = false := by
    simp only [BitVec.slt, h0, decide_eq_false_iff_not]; omega
  show BitVec.ofBool (a.slt 0#32) = 0#1
  rw [hf]; rfl

/-- A word below 100000 is at most 99999. -/
theorem sle_of_slt {a : BitVec 32} (h : IntOp.cmpi .slt a 100000#32 = 1#1) : IntOp.cmpi .sle a 99999#32 = 1#1 := by
  have h' : BitVec.ofBool (a.slt 100000#32) = 1#1 := h
  have h1 : (100000#32 : BitVec 32).toInt = 100000 := by decide
  have h2 : (99999#32 : BitVec 32).toInt = 99999 := by decide
  have hs := eq_true_of_ofBool_eq_one h'
  simp only [BitVec.slt, h1, decide_eq_true_eq] at hs
  have ht : a.sle 99999#32 = true := by
    simp only [BitVec.sle, h2, decide_eq_true_eq]; omega
  show BitVec.ofBool (a.sle 99999#32) = 1#1
  rw [ht]; rfl

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l fun n hn => h n (List.mem_cons_of_mem _ hn)

/-- A reduction by `and` from the constant 1 of an array that is 1 everywhere is 1 everywhere. -/
theorem reduce_andi_ones {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_ones x _ fun i _ => hx i

variable [Cert.KernelIdeal.Facts]
open Cert.KernelIdeal Cert.KernelIdeal.Facts₀ Cert.KernelIdeal.Facts

/-! ## The edge lists: 1000000 words -/

def wrapE (x : IVec S1000000 32) : IVec S1000000 32 := select (cmpi .slt x (broadcastInDim S1000000 ![] bcast_S_S1000000 (constantI S_ 32 0#32))) (addi x (broadcastInDim S1000000 ![] bcast_S_S1000000 (constantI S_ 32 100000#32))) x

def colE (x : IVec S1000000 32) : IVec S1000000x1 32 := broadcastInDim S1000000x1 ![0] bcast_S1000000_S1000000x1_0 (wrapE x)

def maskE (x : IVec S1000000 32) : IVec S1000000 1 := Host.reduce IntOp.andi (andi (cmpi .sge (colE x) (broadcastInDim S1000000x1 ![] bcast_S_S1000000x1 (constantI S_ 32 0#32))) (cmpi .sle (colE x) (broadcastInDim S1000000x1 ![0, 1] bcast_S1x1_S1000000x1_0_1 (broadcastInDim S1x1 ![1] bcast_S1_S1x1_1 (constantI S1 32 99999#32))))) (constantI S_ 1 1#1) reducesTo_S1000000x1_S1000000_d1 h_S_

def takeE (P : FVec Ideal S100000x64 .f32) (x : IVec S1000000 32) : FVec Ideal S1000000x64 .f32 := select (broadcastInDim S1000000x64 ![0] bcast_S1000000_S1000000x64_0 (maskE x)) (Host.gather gather_S100000x64_S1000000x1_S1000000x64_1_0_n_n_0_1_164 P (colE x)) (broadcastInDim S1000000x64 ![] bcast_S_S1000000x64 (constant (F := Ideal) S_ .f32 0x7FC00000#32))

/-- Node numbers are not wrapped. -/
theorem wrapE_eq (x : IVec S1000000 32) (hx : NodeRange x) : wrapE x = x := by
  funext i
  show Scalar.select (IntOp.cmpi .slt (x i) 0#32) (IntOp.addi (x i) 100000#32) (x i) = x i
  rw [slt_zero_of_sge_zero (hx i).1]
  exact ValueIdx.select_zero _ _

/-- Every entry of the column is a node number. -/
theorem colE_range (x : IVec S1000000 32) (hx : NodeRange x) (j : S1000000x1.Idx) :
    IntOp.cmpi .sge (colE x j) 0#32 = 1#1 ∧ IntOp.cmpi .sle (colE x j) 99999#32 = 1#1 := by
  unfold colE
  rw [wrapE_eq x hx]
  unfold broadcastInDim
  exact ⟨(hx _).1, sle_of_slt (hx _).2⟩

/-- The mask holds at every row. -/
theorem maskE_eq (x : IVec S1000000 32) (hx : NodeRange x) (e : S1000000.Idx) : maskE x e = 1#1 := by
  unfold maskE
  refine reduce_andi_ones _ _ _ (fun j => ?_) e
  show IntOp.andi (IntOp.cmpi .sge (colE x j) 0#32) (IntOp.cmpi .sle (colE x j) 99999#32) = 1#1
  rw [(colE_range x hx j).1, (colE_range x hx j).2]
  rfl

theorem takeE_eq (P : FVec Ideal S100000x64 .f32) (x : IVec S1000000 32) (hx : NodeRange x) :
    takeE P x = Host.gather gather_S100000x64_S1000000x1_S1000000x64_1_0_n_n_0_1_164 P (colE x) := by
  funext j
  unfold takeE
  rw [ValueIdx.select_apply]
  unfold broadcastInDim
  rw [maskE_eq x hx]
  exact ValueIdx.select_one _ _

/-! ## The pair lists: 200000 words -/

def wrapP (x : IVec S200000 32) : IVec S200000 32 := select (cmpi .slt x (broadcastInDim S200000 ![] bcast_S_S200000 (constantI S_ 32 0#32))) (addi x (broadcastInDim S200000 ![] bcast_S_S200000 (constantI S_ 32 100000#32))) x

def colP (x : IVec S200000 32) : IVec S200000x1 32 := broadcastInDim S200000x1 ![0] bcast_S200000_S200000x1_0 (wrapP x)

def maskP (x : IVec S200000 32) : IVec S200000 1 := Host.reduce IntOp.andi (andi (cmpi .sge (colP x) (broadcastInDim S200000x1 ![] bcast_S_S200000x1 (constantI S_ 32 0#32))) (cmpi .sle (colP x) (broadcastInDim S200000x1 ![0, 1] bcast_S1x1_S200000x1_0_1 (broadcastInDim S1x1 ![1] bcast_S1_S1x1_1 (constantI S1 32 99999#32))))) (constantI S_ 1 1#1) reducesTo_S200000x1_S200000_d1 h_S_

def takeP (P : FVec Ideal S100000x64 .f32) (x : IVec S200000 32) : FVec Ideal S200000x64 .f32 := select (broadcastInDim S200000x64 ![0] bcast_S200000_S200000x64_0 (maskP x)) (Host.gather gather_S100000x64_S200000x1_S200000x64_1_0_n_n_0_1_164 P (colP x)) (broadcastInDim S200000x64 ![] bcast_S_S200000x64 (constant (F := Ideal) S_ .f32 0x7FC00000#32))

/-- Node numbers are not wrapped. -/
theorem wrapP_eq (x : IVec S200000 32) (hx : NodeRange x) : wrapP x = x := by
  funext i
  show Scalar.select (IntOp.cmpi .slt (x i) 0#32) (IntOp.addi (x i) 100000#32) (x i) = x i
  rw [slt_zero_of_sge_zero (hx i).1]
  exact ValueIdx.select_zero _ _

/-- Every entry of the column is a node number. -/
theorem colP_range (x : IVec S200000 32) (hx : NodeRange x) (j : S200000x1.Idx) :
    IntOp.cmpi .sge (colP x j) 0#32 = 1#1 ∧ IntOp.cmpi .sle (colP x j) 99999#32 = 1#1 := by
  unfold colP
  rw [wrapP_eq x hx]
  unfold broadcastInDim
  exact ⟨(hx _).1, sle_of_slt (hx _).2⟩

/-- The mask holds at every row. -/
theorem maskP_eq (x : IVec S200000 32) (hx : NodeRange x) (e : S200000.Idx) : maskP x e = 1#1 := by
  unfold maskP
  refine reduce_andi_ones _ _ _ (fun j => ?_) e
  show IntOp.andi (IntOp.cmpi .sge (colP x j) 0#32) (IntOp.cmpi .sle (colP x j) 99999#32) = 1#1
  rw [(colP_range x hx j).1, (colP_range x hx j).2]
  rfl

theorem takeP_eq (P : FVec Ideal S100000x64 .f32) (x : IVec S200000 32) (hx : NodeRange x) :
    takeP P x = Host.gather gather_S100000x64_S200000x1_S200000x64_1_0_n_n_0_1_164 P (colP x) := by
  funext j
  unfold takeP
  rw [ValueIdx.select_apply]
  unfold broadcastInDim
  rw [maskP_eq x hx]
  exact ValueIdx.select_one _ _

end Cert.KernelIdeal.Take

/-! ## The precondition read back -/

namespace Cert.KernelIdeal.Take

open Idealize.ShloMosaic

/-- A conjunction of two one-bit arrays that is 1 at an index has both conjuncts 1 there. -/
theorem andi_apply_eq_one {s : Shape} (a b : IVec s 1) (i : s.Idx) (h : andi a b i = 1#1) : a i = 1#1 ∧ b i = 1#1 :=
  IntOp.andi_eq_one.1 h

/-- The rank-zero shape has one index. -/
instance subsingleton_scalar_idx : Subsingleton Cert.Pre_finite_inputs.S_.Idx := ⟨fun a b => funext fun d => d.elim0⟩

/-- "Every word w of x has w ≥ 0 and w < 100000", as the precondition spells it (a reduction by `and` over the whole
    list of the conjunction of the two comparisons against broadcast constants), says every word is a node number. -/
theorem nodeRange_of_all {S : Shape} (x : IVec S 32) (h0 : Cert.Pre_finite_inputs.S_.BroadcastsInDim S (![] : Fin 0 → Fin S.rank))
    {axes : List (Fin S.rank)} (hr : S.ReducesTo axes Cert.Pre_finite_inputs.S_) (hu : 0 < Cert.Pre_finite_inputs.S_.numel)
    (e : Host.reduce IntOp.andi
          (andi (cmpi .sge x (broadcastInDim S ![] h0 (constantI Cert.Pre_finite_inputs.S_ 32 0#32)))
                (cmpi .slt x (broadcastInDim S ![] h0 (constantI Cert.Pre_finite_inputs.S_ 32 100000#32))))
          (constantI Cert.Pre_finite_inputs.S_ 1 1#1) hr hu ValueIdx.ix0 = 1#1) : NodeRange x := by
  intro i
  have hi := Host.reduce_andi_all _ _ hr hu ValueIdx.ix0 e i
  exact IntOp.andi_eq_one.1 hi

theorem ranges_of_pre [Cert.Pre_finite_inputs.Facts] (x0 : FVec Ideal Cert.Pre_finite_inputs.S100000x64 .f32) (x1 x2 : IVec Cert.Pre_finite_inputs.S1000000 32) (x3 x4 : IVec Cert.Pre_finite_inputs.S200000 32) (x5 : FVec Ideal Cert.Pre_finite_inputs.S64x64 .f32) (x6 : FVec Ideal Cert.Pre_finite_inputs.S64 .f32) (x7 : FVec Ideal Cert.Pre_finite_inputs.S64x64 .f32) (x8 : FVec Ideal Cert.Pre_finite_inputs.S64 .f32) (x9 : FVec Ideal Cert.Pre_finite_inputs.S64x64 .f32) (x10 : FVec Ideal Cert.Pre_finite_inputs.S64 .f32) (x11 : FVec Ideal Cert.Pre_finite_inputs.S128x64 .f32) (x12 : FVec Ideal Cert.Pre_finite_inputs.S64 .f32) (x13 : FVec Ideal Cert.Pre_finite_inputs.S64x2 .f32) (x14 : FVec Ideal Cert.Pre_finite_inputs.S2 .f32) (h : Cert.Pre_finite_inputs.fn (F := Ideal) x0 x1 x2 x3 x4 x5 x6 x7 x8 x9 x10 x11 x12 x13 x14 = fun _ => 1#1) : NodeRange x1 ∧ NodeRange x3 ∧ NodeRange x4 := by
  have h0 := congrFun h ValueIdx.ix0
  simp only [Cert.Pre_finite_inputs.fn, Cert.Pre_finite_inputs.fn_part1, Cert.Pre_finite_inputs.fn_part2,
    Cert.Pre_finite_inputs.fn_part3, Cert.Pre_finite_inputs.fn_part4] at h0
  obtain ⟨h67, h73⟩ := andi_apply_eq_one _ _ _ h0
  obtain ⟨h60, h66⟩ := andi_apply_eq_one _ _ _ h67
  obtain ⟨-, h59⟩ := andi_apply_eq_one _ _ _ h60
  exact ⟨nodeRange_of_all x1 _ _ _ h59, nodeRange_of_all x3 _ _ _ h66, nodeRange_of_all x4 _ _ _ h73⟩

end Cert.KernelIdeal.Take

end
-- ==== Proof.KHost.lean ====
/-
  The host stretches of the idealized kernel program as functions of the arrays they read: the degree factor
  D^-1/2 of every node (from the list of edge ends), a per-node vector as a column and a bias vector as a row (the
  reshapes in front of the launches), the sum over incoming edges of the looked-up source rows, and the two looked-up
  node rows of every pair side by side. Each column or row reads, at its one free coordinate, the vector it came from.
-/
import proofs.«400118_j7739531067711_2_alg».proof.Proof.Gen.KernelIdeal
import proofs.«400118_j7739531067711_2_alg».proof.Proof.TakeMask
import Idealize.ShloMosaic.Lib.Pipeline.Value
import Idealize.ShloMosaic.Lib.ValueIdx
import Idealize.ShloMosaic.Lib.ValueLayout
import Idealize.ShloMosaic.PureOps.Ideal

noncomputable section

namespace Cert.KernelIdeal.HostFn

open Cert.KernelIdeal Cert.KernelIdeal.Gen
open Idealize.ShloMosaic Idealize.ShloMosaic.ValueIdx Cert.KernelIdeal.Take

/-- The degree factor of every node: (max 1 (number of listed edge ends at the node)) ^ (-1/2). -/
def degNorm (x : IVec S1000000 32) : FVec Ideal S100000 .f32 :=
  Host.powf (maximumf (broadcastInDim S100000 ![] bcast_S_S100000 (id (constant (F := Ideal) S_ .f32 0x3F800000#32)))
      (Host.scatterAdd scatter_S100000_S1000000x1_S1000000_n_0_0_1 (broadcastInDim S100000 ![] bcast_S_S100000 (constant (F := Ideal) S_ .f32 0x00000000#32))
        (broadcastInDim S1000000x1 ![0] bcast_S1000000_S1000000x1_0 x) (broadcastInDim S1000000 ![] bcast_S_S1000000 (constant (F := Ideal) S_ .f32 0x3F800000#32))))
    (broadcastInDim S100000 ![] bcast_S_S100000 (constant (F := Ideal) S_ .f32 0xBF000000#32))

/-- A per-node vector as a column. -/
def colOf (o : FVec Ideal S100000 .f32) : FVec Ideal S100000x1 .f32 := shapeCast S100000x1 o shapeCasts_S100000_S100000x1
/-- A bias vector as a row. -/
def rowOf (b : FVec Ideal S64 .f32) : FVec Ideal S1x64 .f32 := shapeCast S1x64 b shapeCasts_S64_S1x64
def rowOf2 (b : FVec Ideal S2 .f32) : FVec Ideal S1x2 .f32 := shapeCast S1x2 b shapeCasts_S2_S1x2

/-- The sum over incoming edges of the looked-up source rows. -/
def aggE (P : FVec Ideal S100000x64 .f32) (x1 x2 : IVec S1000000 32) : FVec Ideal S100000x64 .f32 :=
  Host.scatterAdd scatter_S100000x64_S1000000x1_S1000000x64_1_0_0_1 (broadcastInDim S100000x64 ![] bcast_S_S100000x64 (constant (F := Ideal) S_ .f32 0x00000000#32))
    (broadcastInDim S1000000x1 ![0] bcast_S1000000_S1000000x1_0 x2) (takeE P x1)

/-- The two looked-up node rows of every pair, side by side. -/
def pairE (H : FVec Ideal S100000x64 .f32) (x3 x4 : IVec S200000 32) : FVec Ideal S200000x128 .f32 :=
  concatenate S200000x128 1 [⟨S200000x64, takeP H x3⟩, ⟨S200000x64, takeP H x4⟩] concatenates_S200000x64_S200000x64_S200000x128_d1

/-- The column reads, at (r, 0), the vector at r: the two row-major positions are both r. -/
theorem colOf_apply (o : FVec Ideal S100000 .f32) (r : Fin 100000) : colOf o (ix2 r (0 : Fin 1)) = o (ix1 r) := by
  unfold colOf
  refine shapeCast_apply o shapeCasts_S100000_S100000x1 (ix2 r (0 : Fin 1)) (ix1 r) ?_
  rw [Shape.rowMajor_val_one, Shape.rowMajor_val_two]
  show r.val = r.val * 1 + 0
  omega

/-- The row reads, at (0, q), the vector at q. -/
theorem rowOf_apply (b : FVec Ideal S64 .f32) (q : Fin 64) : rowOf b (ix2 (0 : Fin 1) q) = b (ix1 q) := by
  unfold rowOf
  exact shapeCast_a_1a_apply b shapeCasts_S64_S1x64 0 q

theorem rowOf2_apply (b : FVec Ideal S2 .f32) (q : Fin 2) : rowOf2 b (ix2 (0 : Fin 1) q) = b (ix1 q) := by
  unfold rowOf2
  exact shapeCast_a_1a_apply b shapeCasts_S2_S1x2 0 q

end Cert.KernelIdeal.HostFn

end
-- ==== Proof.RefStages.lean ====
/-
  The reference program's dense steps, each as the common specification's function of the stage before it.
  A graph-convolution layer scales each row of its input by the out-degree factor and multiplies by a 64×64 matrix;
  after the edge aggregation it scales each row by the in-degree factor, adds the bias row and (in the first two layers) takes the
  maximum with zero. The head is a two-layer perceptron followed by a softmax over two logits.
-/
import proofs.«400118_j7739531067711_2_alg».proof.Proof.Gen.ReferenceIdeal.Read
import proofs.«400118_j7739531067711_2_alg».proof.Proof.Spec

noncomputable section

namespace Cert.ReferenceIdeal.Stages

open Cert.ReferenceIdeal Cert.ReferenceIdeal.Read Idealize.ShloMosaic Idealize.ShloMosaic.ValueIdx Cert.Spec

/-- The first layer's projection: each row of the input scaled by the out-degree factor, times the 64×64 matrix. -/
theorem conv1_proj
    (x0 : (⟨S100000x64, .f32⟩ : BufTy).Contents (Elt Ideal))
    (x1 : (⟨S1000000, .i32⟩ : BufTy).Contents (Elt Ideal))
    (x5 : (⟨S64x64, .f32⟩ : BufTy).Contents (Elt Ideal))
    (so : Ix 100000 1 → EReal)
    (hso : ∀ r : Fin 100000, so (ix2 r (0 : Fin 1)) = val_main_v10 (F := Ideal) x1 (ix1 r)) :
    scaleMatmul x0 so x5 = val_main_v16 (F := Ideal) x0 x1 x5 := by
  funext i
  obtain ⟨r, q, rfl⟩ : ∃ (r : Fin 100000) (q : Fin 64), i = ix2 r q := ⟨i 0, i 1, eq_ix2 i⟩
  rw [scaleMatmul_ix2, val_main_v16_apply]
  unfold scaleMatmulAt
  refine Finset.sum_congr rfl fun k _ => ?_
  rw [val_main_v15_apply, val_main_v14_apply, val_main_v13_apply]
  have el : lidx_main_v16 (ix2 r q) k = ix2 r k := funext fun a => by
    match a with | ⟨0, _⟩ => rfl | ⟨1, _⟩ => rfl
  have er : ridx_main_v16 (ix2 r q) k = ix2 k q := funext fun a => by
    match a with | ⟨0, _⟩ => rfl | ⟨1, _⟩ => rfl
  have e1 : idx_main_v13 (idx_main_v14 (ix2 r k)) = ix1 r := funext fun a => by
    match a with | ⟨0, _⟩ => rfl
  rw [el, er, e1, hso]
  rfl

/-- The first layer's output: the aggregated rows scaled by the in-degree factor, plus the bias row, rectified. -/
theorem conv1_out
    (x0 : (⟨S100000x64, .f32⟩ : BufTy).Contents (Elt Ideal))
    (x1 x2 : (⟨S1000000, .i32⟩ : BufTy).Contents (Elt Ideal))
    (x5 : (⟨S64x64, .f32⟩ : BufTy).Contents (Elt Ideal))
    (x6 : (⟨S64, .f32⟩ : BufTy).Contents (Elt Ideal))
    (si : Ix 100000 1 → EReal)
    (hsi : ∀ r : Fin 100000, si (ix2 r (0 : Fin 1)) = val_main_v12 (F := Ideal) x2 (ix1 r))
    (b : Ix 1 64 → EReal)
    (hb : ∀ q : Fin 64, b (ix2 (0 : Fin 1) q) = x6 (ix1 q)) :
    scaleBiasRelu (val_main_v26 (F := Ideal) x0 x1 x2 x5) si b = val_main_v33 (F := Ideal) x0 x1 x2 x5 x6 := by
  funext i
  obtain ⟨r, q, rfl⟩ : ∃ (r : Fin 100000) (q : Fin 64), i = ix2 r q := ⟨i 0, i 1, eq_ix2 i⟩
  rw [scaleBiasRelu_ix2, val_main_v33_apply, val_main_v32_apply, val_main_v29_apply, val_main_v28_apply, val_main_v27_apply,
    val_main_v31_apply, val_main_v30_apply, val_main_call2_v0_apply, val_main_call2_cst_apply]
  unfold scaleBiasAt
  have e1 : idx_main_v27 (idx_main_v28 (ix2 r q)) = ix1 r := funext fun a => by
    match a with | ⟨0, _⟩ => rfl
  have e2 : idx_main_v30 (idx_main_v31 (ix2 r q)) = ix1 q := funext fun a => by
    match a with | ⟨0, _⟩ => rfl
  rw [e1, e2, hsi, hb]
  rfl

/-- The second layer's projection of the first layer's output. -/
theorem conv2_proj
    (x0 : (⟨S100000x64, .f32⟩ : BufTy).Contents (Elt Ideal))
    (x1 x2 : (⟨S1000000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (so : Ix 100000 1 → EReal)
    (hso : ∀ r : Fin 100000, so (ix2 r (0 : Fin 1)) = val_main_v10 (F := Ideal) x1 (ix1 r)) :
    scaleMatmul (val_main_v33 (F := Ideal) x0 x1 x2 x5 x6) so x7 = val_main_v37 (F := Ideal) x0 x1 x2 x5 x6 x7 := by
  funext i
  obtain ⟨r, q, rfl⟩ : ∃ (r : Fin 100000) (q : Fin 64), i = ix2 r q := ⟨i 0, i 1, eq_ix2 i⟩
  rw [scaleMatmul_ix2, val_main_v37_apply]
  unfold scaleMatmulAt
  refine Finset.sum_congr rfl fun k _ => ?_
  rw [val_main_v36_apply, val_main_v35_apply, val_main_v34_apply]
  have el : lidx_main_v37 (ix2 r q) k = ix2 r k := funext fun a => by
    match a with | ⟨0, _⟩ => rfl | ⟨1, _⟩ => rfl
  have er : ridx_main_v37 (ix2 r q) k = ix2 k q := funext fun a => by
    match a with | ⟨0, _⟩ => rfl | ⟨1, _⟩ => rfl
  have e1 : idx_main_v34 (idx_main_v35 (ix2 r k)) = ix1 r := funext fun a => by
    match a with | ⟨0, _⟩ => rfl
  rw [el, er, e1, hso]
  rfl

/-- The second layer's output: scaled by the in-degree factor, plus the bias row, rectified. -/
theorem conv2_out
    (x0 : (⟨S100000x64, .f32⟩ : BufTy).Contents (Elt Ideal))
    (x1 x2 : (⟨S1000000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (si : Ix 100000 1 → EReal)
    (hsi : ∀ r : Fin 100000, si (ix2 r (0 : Fin 1)) = val_main_v12 (F := Ideal) x2 (ix1 r))
    (b : Ix 1 64 → EReal)
    (hb : ∀ q : Fin 64, b (ix2 (0 : Fin 1) q) = x8 (ix1 q)) :
    scaleBiasRelu (val_main_v47 (F := Ideal) x0 x1 x2 x5 x6 x7) si b = val_main_v54 (F := Ideal) x0 x1 x2 x5 x6 x7 x8 := by
  funext i
  obtain ⟨r, q, rfl⟩ : ∃ (r : Fin 100000) (q : Fin 64), i = ix2 r q := ⟨i 0, i 1, eq_ix2 i⟩
  rw [scaleBiasRelu_ix2, val_main_v54_apply, val_main_v53_apply, val_main_v50_apply, val_main_v49_apply, val_main_v48_apply,
    val_main_v52_apply, val_main_v51_apply, val_main_call3_v0_apply, val_main_call3_cst_apply]
  unfold scaleBiasAt
  have e1 : idx_main_v48 (idx_main_v49 (ix2 r q)) = ix1 r := funext fun a => by
    match a with | ⟨0, _⟩ => rfl
  have e2 : idx_main_v51 (idx_main_v52 (ix2 r q)) = ix1 q := funext fun a => by
    match a with | ⟨0, _⟩ => rfl
  rw [e1, e2, hsi, hb]
  rfl

/-- The third layer's projection of the second layer's output. -/
theorem conv3_proj
    (x0 : (⟨S100000x64, .f32⟩ : BufTy).Contents (Elt Ideal))
    (x1 x2 : (⟨S1000000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (so : Ix 100000 1 → EReal)
    (hso : ∀ r : Fin 100000, so (ix2 r (0 : Fin 1)) = val_main_v10 (F := Ideal) x1 (ix1 r)) :
    scaleMatmul (val_main_v54 (F := Ideal) x0 x1 x2 x5 x6 x7 x8) so x9 = val_main_v58 (F := Ideal) x0 x1 x2 x5 x6 x7 x8 x9 := by
  funext i
  obtain ⟨r, q, rfl⟩ : ∃ (r : Fin 100000) (q : Fin 64), i = ix2 r q := ⟨i 0, i 1, eq_ix2 i⟩
  rw [scaleMatmul_ix2, val_main_v58_apply]
  unfold scaleMatmulAt
  refine Finset.sum_congr rfl fun k _ => ?_
  rw [val_main_v57_apply, val_main_v56_apply, val_main_v55_apply]
  have el : lidx_main_v58 (ix2 r q) k = ix2 r k := funext fun a => by
    match a with | ⟨0, _⟩ => rfl | ⟨1, _⟩ => rfl
  have er : ridx_main_v58 (ix2 r q) k = ix2 k q := funext fun a => by
    match a with | ⟨0, _⟩ => rfl | ⟨1, _⟩ => rfl
  have e1 : idx_main_v55 (idx_main_v56 (ix2 r k)) = ix1 r := funext fun a => by
    match a with | ⟨0, _⟩ => rfl
  rw [el, er, e1, hso]
  rfl

/-- The third layer's output: scaled by the in-degree factor, plus the bias row; no rectifier. -/
theorem conv3_out
    (x0 : (⟨S100000x64, .f32⟩ : BufTy).Contents (Elt Ideal))
    (x1 x2 : (⟨S1000000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (x10 : (⟨S64, .f32⟩ : BufTy).Contents (Elt Ideal))
    (si : Ix 100000 1 → EReal)
    (hsi : ∀ r : Fin 100000, si (ix2 r (0 : Fin 1)) = val_main_v12 (F := Ideal) x2 (ix1 r))
    (b : Ix 1 64 → EReal)
    (hb : ∀ q : Fin 64, b (ix2 (0 : Fin 1) q) = x10 (ix1 q)) :
    scaleBias (val_main_v68 (F := Ideal) x0 x1 x2 x5 x6 x7 x8 x9) si b = val_main_v74 (F := Ideal) x0 x1 x2 x5 x6 x7 x8 x9 x10 := by
  funext i
  obtain ⟨r, q, rfl⟩ : ∃ (r : Fin 100000) (q : Fin 64), i = ix2 r q := ⟨i 0, i 1, eq_ix2 i⟩
  rw [scaleBias_ix2, val_main_v74_apply, val_main_v71_apply, val_main_v70_apply, val_main_v69_apply,
    val_main_v73_apply, val_main_v72_apply]
  unfold scaleBiasAt
  have e1 : idx_main_v69 (idx_main_v70 (ix2 r q)) = ix1 r := funext fun a => by
    match a with | ⟨0, _⟩ => rfl
  have e2 : idx_main_v72 (idx_main_v73 (ix2 r q)) = ix1 q := funext fun a => by
    match a with | ⟨0, _⟩ => rfl
  rw [e1, e2, hsi, hb]
  rfl

/-! ## The head: perceptron and softmax of a pair row -/

/-- The source index over row `r` with coordinate `k` put back on the reduced axis is (r, k). -/
theorem lift_row (hR : S200000x2.Reduces [1] S200000) (r : Fin 200000) (k : Fin (S200000x2.size 1)) :
    hR.lift (ix1 r) k = ix2 r (⟨k.val, k.isLt⟩ : Fin 2) := by
  funext c
  apply Fin.ext
  rw [Shape.Reduces.lift_val]
  unfold Shape.Reduces.liftVal
  match c with
  | ⟨0, _⟩ => rfl
  | ⟨1, _⟩ => rfl

/-- A row's maximum from −∞: the fold of the maximum over the row's two entries. -/
theorem reduceMax_row (y : (⟨S200000x2, .f32⟩ : BufTy).Contents (Elt Ideal)) (r : Fin 200000) :
    Host.reduce (FloatOps.maximumf (F := Ideal) (φ := .f32)) y (val_main_cst_18 (F := Ideal)) Gen.reducesTo_S200000x2_S200000_d1 Gen.h_S_ (ix1 r)
      = (Finset.univ : Finset (Fin 2)).fold max negInfE (fun q => y (ix2 r q)) := by
  have hR : S200000x2.Reduces [1] S200000 := by decide
  rw [Host.reduce_eq_fold_single (FloatOps.maximumf (F := Ideal) (φ := .f32)) y _ Gen.reducesTo_S200000x2_S200000_d1 hR Gen.h_S_]
  exact Finset.fold_congr fun k _ => congrArg y (lift_row hR r k)

/-- A hidden unit of the perceptron: the rectified affine map of a pair row. -/
theorem hidden_eq
    (x0 : (⟨S100000x64, .f32⟩ : BufTy).Contents (Elt Ideal))
    (x1 x2 : (⟨S1000000, .i32⟩ : BufTy).Contents (Elt Ideal))
    (x3 x4 : (⟨S200000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (x10 : (⟨S64, .f32⟩ : BufTy).Contents (Elt Ideal))
    (x11 : (⟨S128x64, .f32⟩ : BufTy).Contents (Elt Ideal))
    (x12 : (⟨S64, .f32⟩ : BufTy).Contents (Elt Ideal))
    (b : Ix 1 64 → EReal)
    (hb : ∀ q : Fin 64, b (ix2 (0 : Fin 1) q) = x12 (ix1 q))
    (r : Fin 200000) (j : Fin 64) :
    val_main_v94 (F := Ideal) x0 x1 x2 x3 x4 x5 x6 x7 x8 x9 x10 x11 x12 (ix2 r j) = hiddenAt (val_main_v89 (F := Ideal) x0 x1 x2 x3 x4 x5 x6 x7 x8 x9 x10) x11 b r j := by
  rw [val_main_v94_apply, val_main_v93_apply, val_main_v90_apply, val_main_v92_apply, val_main_v91_apply,
    val_main_call4_v0_apply, val_main_call4_cst_apply]
  unfold hiddenAt
  have el : ∀ k : Fin 128, lidx_main_v90 (ix2 r j) k = ix2 r k := fun k => funext fun a => by
    match a with | ⟨0, _⟩ => rfl | ⟨1, _⟩ => rfl
  have er : ∀ k : Fin 128, ridx_main_v90 (ix2 r j) k = ix2 k j := fun k => funext fun a => by
    match a with | ⟨0, _⟩ => rfl | ⟨1, _⟩ => rfl
  have e2 : idx_main_v91 (idx_main_v92 (ix2 r j)) = ix1 j := funext fun a => by
    match a with | ⟨0, _⟩ => rfl
  simp only [el, er]
  rw [e2, ← hb]
  rfl

/-- A logit: the hidden row times the second matrix plus its bias. -/
theorem logit_eq
    (x0 : (⟨S100000x64, .f32⟩ : BufTy).Contents (Elt Ideal))
    (x1 x2 : (⟨S1000000, .i32⟩ : BufTy).Contents (Elt Ideal))
    (x3 x4 : (⟨S200000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (x10 : (⟨S64, .f32⟩ : BufTy).Contents (Elt Ideal))
    (x11 : (⟨S128x64, .f32⟩ : BufTy).Contents (Elt Ideal))
    (x12 : (⟨S64, .f32⟩ : BufTy).Contents (Elt Ideal))
    (x13 : (⟨S64x2, .f32⟩ : BufTy).Contents (Elt Ideal))
    (x14 : (⟨S2, .f32⟩ : BufTy).Contents (Elt Ideal))
    (b : Ix 1 64 → EReal)
    (hb : ∀ q : Fin 64, b (ix2 (0 : Fin 1) q) = x12 (ix1 q))
    (b2 : Ix 1 2 → EReal)
    (hb2 : ∀ q : Fin 2, b2 (ix2 (0 : Fin 1) q) = x14 (ix1 q))
    (r : Fin 200000) (q : Fin 2) :
    val_main_v98 (F := Ideal) x0 x1 x2 x3 x4 x5 x6 x7 x8 x9 x10 x11 x12 x13 x14 (ix2 r q) = logitAt (val_main_v89 (F := Ideal) x0 x1 x2 x3 x4 x5 x6 x7 x8 x9 x10) x11 b x13 b2 r q := by
  rw [val_main_v98_apply, val_main_v95_apply, val_main_v97_apply, val_main_v96_apply]
  unfold logitAt
  have el : ∀ k : Fin 64, lidx_main_v95 (ix2 r q) k = ix2 r k := fun k => funext fun a => by
    match a with | ⟨0, _⟩ => rfl | ⟨1, _⟩ => rfl
  have er : ∀ k : Fin 64, ridx_main_v95 (ix2 r q) k = ix2 k q := fun k => funext fun a => by
    match a with | ⟨0, _⟩ => rfl | ⟨1, _⟩ => rfl
  have e2 : idx_main_v96 (idx_main_v97 (ix2 r q)) = ix1 q := funext fun a => by
    match a with | ⟨0, _⟩ => rfl
  simp only [el, er, hidden_eq x0 x1 x2 x3 x4 x5 x6 x7 x8 x9 x10 x11 x12 b hb]
  rw [e2, ← hb2]
  rfl

/-- The row maximum the softmax subtracts: the maximum of −∞ and the fold of the maximum from −∞ over the two logits. -/
theorem rowMax_eq
    (x0 : (⟨S100000x64, .f32⟩ : BufTy).Contents (Elt Ideal))
    (x1 x2 : (⟨S1000000, .i32⟩ : BufTy).Contents (Elt Ideal))
    (x3 x4 : (⟨S200000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (x10 : (⟨S64, .f32⟩ : BufTy).Contents (Elt Ideal))
    (x11 : (⟨S128x64, .f32⟩ : BufTy).Contents (Elt Ideal))
    (x12 : (⟨S64, .f32⟩ : BufTy).Contents (Elt Ideal))
    (x13 : (⟨S64x2, .f32⟩ : BufTy).Contents (Elt Ideal))
    (x14 : (⟨S2, .f32⟩ : BufTy).Contents (Elt Ideal))
    (b : Ix 1 64 → EReal)
    (hb : ∀ q : Fin 64, b (ix2 (0 : Fin 1) q) = x12 (ix1 q))
    (b2 : Ix 1 2 → EReal)
    (hb2 : ∀ q : Fin 2, b2 (ix2 (0 : Fin 1) q) = x14 (ix1 q))
    (r : Fin 200000) :
    val_main_v101 (F := Ideal) x0 x1 x2 x3 x4 x5 x6 x7 x8 x9 x10 x11 x12 x13 x14 (ix1 r) = rowMaxAt (val_main_v89 (F := Ideal) x0 x1 x2 x3 x4 x5 x6 x7 x8 x9 x10) x11 b x13 b2 r := by
  rw [val_main_v101_apply, val_main_v100_apply, val_main_cst_19_apply]
  unfold rowMaxAt val_main_v99
  rw [reduceMax_row]
  simp only [logit_eq x0 x1 x2 x3 x4 x5 x6 x7 x8 x9 x10 x11 x12 x13 x14 b hb b2 hb2 r]
  rfl

/-- The shifted exponential of a logit. -/
theorem exp_eq
    (x0 : (⟨S100000x64, .f32⟩ : BufTy).Contents (Elt Ideal))
    (x1 x2 : (⟨S1000000, .i32⟩ : BufTy).Contents (Elt Ideal))
    (x3 x4 : (⟨S200000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (x10 : (⟨S64, .f32⟩ : BufTy).Contents (Elt Ideal))
    (x11 : (⟨S128x64, .f32⟩ : BufTy).Contents (Elt Ideal))
    (x12 : (⟨S64, .f32⟩ : BufTy).Contents (Elt Ideal))
    (x13 : (⟨S64x2, .f32⟩ : BufTy).Contents (Elt Ideal))
    (x14 : (⟨S2, .f32⟩ : BufTy).Contents (Elt Ideal))
    (b : Ix 1 64 → EReal)
    (hb : ∀ q : Fin 64, b (ix2 (0 : Fin 1) q) = x12 (ix1 q))
    (b2 : Ix 1 2 → EReal)
    (hb2 : ∀ q : Fin 2, b2 (ix2 (0 : Fin 1) q) = x14 (ix1 q))
    (r : Fin 200000) (q : Fin 2) :
    val_main_v105 (F := Ideal) x0 x1 x2 x3 x4 x5 x6 x7 x8 x9 x10 x11 x12 x13 x14 (ix2 r q) = expAt (val_main_v89 (F := Ideal) x0 x1 x2 x3 x4 x5 x6 x7 x8 x9 x10) x11 b x13 b2 r q := by
  rw [val_main_v105_apply, val_main_v104_apply, val_main_v103_apply, val_main_v102_apply]
  unfold expAt
  have e : idx_main_v102 (idx_main_v103 (ix2 r q)) = ix1 r := funext fun a => by
    match a with | ⟨0, _⟩ => rfl
  rw [e, rowMax_eq x0 x1 x2 x3 x4 x5 x6 x7 x8 x9 x10 x11 x12 x13 x14 b hb b2 hb2 r, logit_eq x0 x1 x2 x3 x4 x5 x6 x7 x8 x9 x10 x11 x12 x13 x14 b hb b2 hb2 r q,
    Ideal.hostUnary_exp_def, Ideal.subf_def]

/-- The head: the two-layer perceptron of a pair row followed by the softmax over its two logits. The row sum starts
    from the float zero, which is the extended real 0. -/
theorem head
    (x0 : (⟨S100000x64, .f32⟩ : BufTy).Contents (Elt Ideal))
    (x1 x2 : (⟨S1000000, .i32⟩ : BufTy).Contents (Elt Ideal))
    (x3 x4 : (⟨S200000, .i32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S64x64, .f32⟩ : BufTy).Contents (Elt Ideal))
    (x10 : (⟨S64, .f32⟩ : BufTy).Contents (Elt Ideal))
    (x11 : (⟨S128x64, .f32⟩ : BufTy).Contents (Elt Ideal))
    (x12 : (⟨S64, .f32⟩ : BufTy).Contents (Elt Ideal))
    (x13 : (⟨S64x2, .f32⟩ : BufTy).Contents (Elt Ideal))
    (x14 : (⟨S2, .f32⟩ : BufTy).Contents (Elt Ideal))
    (b : Ix 1 64 → EReal)
    (hb : ∀ q : Fin 64, b (ix2 (0 : Fin 1) q) = x12 (ix1 q))
    (b2 : Ix 1 2 → EReal)
    (hb2 : ∀ q : Fin 2, b2 (ix2 (0 : Fin 1) q) = x14 (ix1 q)) :
    mlpSoftmax (val_main_v89 (F := Ideal) x0 x1 x2 x3 x4 x5 x6 x7 x8 x9 x10) x11 b x13 b2 = val_main_v109 (F := Ideal) x0 x1 x2 x3 x4 x5 x6 x7 x8 x9 x10 x11 x12 x13 x14 := by
  funext i
  obtain ⟨r, q, rfl⟩ : ∃ (r : Fin 200000) (q : Fin 2), i = ix2 r q := ⟨i 0, i 1, eq_ix2 i⟩
  rw [mlpSoftmax_ix2, val_main_v109_apply, val_main_v108_apply, val_main_v107_apply, val_main_v106_apply, val_main_cst_20_apply]
  unfold mlpSoftmaxAt
  have e : ∀ k : Fin 2, idx_main_v106 (idx_main_v107 (idx_main_v108 (ix2 r q))) k = ix2 r k := fun k => funext fun a => by
    match a with | ⟨0, _⟩ => rfl | ⟨1, _⟩ => rfl
  simp only [e, exp_eq x0 x1 x2 x3 x4 x5 x6 x7 x8 x9 x10 x11 x12 x13 x14 b hb b2 hb2 r]
  rw [Ideal.hostDivf_def, Ideal.ofBits_def, Ideal.ofBits_zero_f32, zero_add]

end Cert.ReferenceIdeal.Stages

end
-- ==== Proof.Bridge.lean ====
/-
  The idealized kernel program's host stretches are the reference program's stages: the degree factors, the sums over
  incoming edges of looked-up rows and the pair concatenation are the same host operations in both programs, over
  records and shapes that each program states for itself with equal fields. The kernel program's lookups carry an
  out-of-range mask, which holds everywhere when the index words are node numbers.
-/
import proofs.«400118_j7739531067711_2_alg».proof.Proof.KHost
import proofs.«400118_j7739531067711_2_alg».proof.Proof.TakeMask
import proofs.«400118_j7739531067711_2_alg».proof.Proof.Gen.ReferenceIdeal.Read

noncomputable section

namespace Cert.Bridge

open Cert.KernelIdeal.HostFn Cert.KernelIdeal.Take Cert.ReferenceIdeal.Read Idealize.ShloMosaic

/-- The out-degree factor. -/
theorem deg_out (x1 : IVec Cert.KernelIdeal.S1000000 32) : degNorm x1 = val_main_v10 (F := Ideal) x1 := by
  unfold degNorm val_main_v10 val_main_v9 val_main_cst_4 val_main_v4 val_main_call0_v1 val_main_call0_v0 val_main_cst_1
    val_main_v3 val_main_v2 val_main_v1 val_main_cst_0 val_main_v0 val_main_cst
  rfl

/-- The in-degree factor. -/
theorem deg_in (x2 : IVec Cert.KernelIdeal.S1000000 32) : degNorm x2 = val_main_v12 (F := Ideal) x2 := by
  unfold degNorm val_main_v12 val_main_v11 val_main_cst_5 val_main_v8 val_main_call1_v1 val_main_call1_v0 val_main_cst_3
    val_main_v7 val_main_v6 val_main_v5 val_main_cst_2 val_main_v0 val_main_cst
  rfl

/-- The first layer's sum over incoming edges. -/
theorem agg1 (x0 : FVec Ideal Cert.KernelIdeal.S100000x64 .f32) (x1 x2 : IVec Cert.KernelIdeal.S1000000 32) (x5 : FVec Ideal Cert.KernelIdeal.S64x64 .f32)
    (h1 : NodeRange x1) :
    aggE (val_main_v16 (F := Ideal) x0 x1 x5) x1 x2 = val_main_v26 (F := Ideal) x0 x1 x2 x5 := by
  unfold aggE
  rw [takeE_eq _ _ h1]
  unfold val_main_v26 val_main_v25 val_main_v24 val_main_cst_7 val_main_v23 val_main_v22 val_main_v21 val_main_v20 val_main_v19
    val_main_c_6 val_main_v18 val_main_v17 val_main_c
  generalize val_main_v16 (F := Ideal) x0 x1 x5 = P
  unfold colE wrapE
  rfl

/-- The second layer's sum over incoming edges. -/
theorem agg2 (x0 : FVec Ideal Cert.KernelIdeal.S100000x64 .f32) (x1 x2 : IVec Cert.KernelIdeal.S1000000 32) (x5 : FVec Ideal Cert.KernelIdeal.S64x64 .f32) (x6 : FVec Ideal Cert.KernelIdeal.S64 .f32) (x7 : FVec Ideal Cert.KernelIdeal.S64x64 .f32)
    (h1 : NodeRange x1) :
    aggE (val_main_v37 (F := Ideal) x0 x1 x2 x5 x6 x7) x1 x2 = val_main_v47 (F := Ideal) x0 x1 x2 x5 x6 x7 := by
  unfold aggE
  rw [takeE_eq _ _ h1]
  unfold val_main_v47 val_main_v46 val_main_v45 val_main_cst_10 val_main_v44 val_main_v43 val_main_v42 val_main_v41 val_main_v40
    val_main_c_9 val_main_v39 val_main_v38 val_main_c_8
  generalize val_main_v37 (F := Ideal) x0 x1 x2 x5 x6 x7 = P
  unfold colE wrapE
  rfl

/-- The third layer's sum over incoming edges. -/
theorem agg3 (x0 : FVec Ideal Cert.KernelIdeal.S100000x64 .f32) (x1 x2 : IVec Cert.KernelIdeal.S1000000 32) (x5 : FVec Ideal Cert.KernelIdeal.S64x64 .f32) (x6 : FVec Ideal Cert.KernelIdeal.S64 .f32) (x7 : FVec Ideal Cert.KernelIdeal.S64x64 .f32) (x8 : FVec Ideal Cert.KernelIdeal.S64 .f32) (x9 : FVec Ideal Cert.KernelIdeal.S64x64 .f32)
    (h1 : NodeRange x1) :
    aggE (val_main_v58 (F := Ideal) x0 x1 x2 x5 x6 x7 x8 x9) x1 x2 = val_main_v68 (F := Ideal) x0 x1 x2 x5 x6 x7 x8 x9 := by
  unfold aggE
  rw [takeE_eq _ _ h1]
  unfold val_main_v68 val_main_v67 val_main_v66 val_main_cst_13 val_main_v65 val_main_v64 val_main_v63 val_main_v62 val_main_v61
    val_main_c_12 val_main_v60 val_main_v59 val_main_c_11
  generalize val_main_v58 (F := Ideal) x0 x1 x2 x5 x6 x7 x8 x9 = P
  unfold colE wrapE
  rfl

/-- The two looked-up rows of every pair, side by side. -/
theorem pair (x0 : FVec Ideal Cert.KernelIdeal.S100000x64 .f32) (x1 x2 : IVec Cert.KernelIdeal.S1000000 32) (x3 x4 : IVec Cert.KernelIdeal.S200000 32) (x5 : FVec Ideal Cert.KernelIdeal.S64x64 .f32) (x6 : FVec Ideal Cert.KernelIdeal.S64 .f32) (x7 : FVec Ideal Cert.KernelIdeal.S64x64 .f32) (x8 : FVec Ideal Cert.KernelIdeal.S64 .f32) (x9 : FVec Ideal Cert.KernelIdeal.S64x64 .f32) (x10 : FVec Ideal Cert.KernelIdeal.S64 .f32)
    (h3 : NodeRange x3) (h4 : NodeRange x4) :
    pairE (val_main_v74 (F := Ideal) x0 x1 x2 x5 x6 x7 x8 x9 x10) x3 x4 = val_main_v89 (F := Ideal) x0 x1 x2 x3 x4 x5 x6 x7 x8 x9 x10 := by
  unfold pairE
  rw [takeP_eq _ _ h3, takeP_eq _ _ h4]
  unfold val_main_v89 val_main_v88 val_main_v87 val_main_v86 val_main_v85 val_main_v84 val_main_c_17 val_main_v83 val_main_v82 val_main_c_16
    val_main_v81 val_main_v80 val_main_v79 val_main_v78 val_main_v77 val_main_c_15 val_main_v76 val_main_v75 val_main_c_14
  generalize val_main_v74 (F := Ideal) x0 x1 x2 x5 x6 x7 x8 x9 x10 = H
  unfold colP wrapP
  rfl

end Cert.Bridge

end
-- ==== Proof.KChain0.lean ====
/-
  What the program's buffers hold when the first launch starts. The program first runs five stretches of host
  operations: the ones vector, the count of listed edge ends at every node (a scatter-add of ones, once at the
  edge sources and once at the edge targets), its maximum with 1, the power -1/2 of that, and the result as a
  column. Each stretch is read as a function of an ARBITRARY earlier content of the buffers it reads; the
  stretches are then joined by equations, the buffers a stretch does not write keeping what they held.
  The program's argument arrays are written by none of the five stretches.
-/
import proofs.«400118_j7739531067711_2_alg».proof.Proof.Gen.KernelIdeal.Frame
import proofs.«400118_j7739531067711_2_alg».proof.Proof.KHost
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.HostFn Cert.KernelIdeal.Take

variable (m : (ℓ : Loc nD τ sig) → Buf (Elt Ideal) ℓ) (ρ : Dev nD → PrngReg)

/-- Through the five stretches, for a buffer none of them writes. -/
local macro "thru5" : tactic => `(tactic| (dsimp only [W5, W4, W3, W2, W1, W0]; after_results))

/-! ## The argument arrays are as launched -/

set_option maxHeartbeats 400000 in
theorem W5_arg0 (c : Dev nD) : W5 m ρ c (Proc.devRef .tc main_arg0) = m ((c : Thread nD τ).loc main_arg0) := by thru5
set_option maxHeartbeats 400000 in
theorem W5_arg1 (c : Dev nD) : W5 m ρ c (Proc.devRef .tc main_arg1) = m ((c : Thread nD τ).loc main_arg1) := by thru5
set_option maxHeartbeats 400000 in
theorem W5_arg2 (c : Dev nD) : W5 m ρ c (Proc.devRef .tc main_arg2) = m ((c : Thread nD τ).loc main_arg2) := by thru5
set_option maxHeartbeats 400000 in
theorem W5_arg5 (c : Dev nD) : W5 m ρ c (Proc.devRef .tc main_arg5) = m ((c : Thread nD τ).loc main_arg5) := by thru5
set_option maxHeartbeats 400000 in
theorem W5_arg6 (c : Dev nD) : W5 m ρ c (Proc.devRef .tc main_arg6) = m ((c : Thread nD τ).loc main_arg6) := by thru5
set_option maxHeartbeats 400000 in
theorem W5_arg7 (c : Dev nD) : W5 m ρ c (Proc.devRef .tc main_arg7) = m ((c : Thread nD τ).loc main_arg7) := by thru5
set_option maxHeartbeats 400000 in
theorem W5_arg8 (c : Dev nD) : W5 m ρ c (Proc.devRef .tc main_arg8) = m ((c : Thread nD τ).loc main_arg8) := by thru5
set_option maxHeartbeats 400000 in
theorem W5_arg9 (c : Dev nD) : W5 m ρ c (Proc.devRef .tc main_arg9) = m ((c : Thread nD τ).loc main_arg9) := by thru5
set_option maxHeartbeats 400000 in
theorem W5_arg10 (c : Dev nD) : W5 m ρ c (Proc.devRef .tc main_arg10) = m ((c : Thread nD τ).loc main_arg10) := by thru5

/-! ## Each stretch over arbitrary earlier contents -/

/-- The first stretch leaves the constant 1 in its last scalar. -/
theorem s0_cst1 (X : Valuation τ sig (Elt Ideal)) :
    StableHlo.after hostOps0 X (Proc.devRef .tc main_cst_1) = constant (F := Ideal) S_ .f32 0x3F800000#32 := by
  simp only [hostOps0]; after_results

/-- The first stretch leaves the ones vector, one entry per listed edge. -/
theorem s0_v0 (X : Valuation τ sig (Elt Ideal)) :
    StableHlo.after hostOps0 X (Proc.devRef .tc main_v0)
      = broadcastInDim S1000000 ![] bcast_S_S1000000 (constant (F := Ideal) S_ .f32 0x3F800000#32) := by
  simp only [hostOps0]; after_results

/-- The first stretch counts the listed edge ends at every node, over the edge sources. -/
theorem s0_v3 (X : Valuation τ sig (Elt Ideal)) :
    StableHlo.after hostOps0 X (Proc.devRef .tc main_v3)
      = Host.scatterAdd scatter_S100000_S1000000x1_S1000000_n_0_0_1
          (broadcastInDim S100000 ![] bcast_S_S100000 (constant (F := Ideal) S_ .f32 0x00000000#32))
          (broadcastInDim S1000000x1 ![0] bcast_S1000000_S1000000x1_0 (X (Proc.devRef .tc main_arg1) : IVec S1000000 32))
          (broadcastInDim S1000000 ![] bcast_S_S1000000 (constant (F := Ideal) S_ .f32 0x3F800000#32)) := by
  simp only [hostOps0]; after_results

/-- The second stretch takes the maximum of the count with 1. -/
theorem s1_v4 (X : Valuation τ sig (Elt Ideal)) :
    StableHlo.after hostOps0_1 X (Proc.devRef .tc main_v4)
      = maximumf (F := Ideal) (s := S100000) (φ := .f32)
          (broadcastInDim S100000 ![] bcast_S_S100000 (id (X (Proc.devRef .tc main_cst_1)))) (X (Proc.devRef .tc main_v3)) := by
  simp only [hostOps0_1]; after_results; rfl

/-- The third stretch leaves the constant 1 in its last scalar. -/
theorem s2_cst3 (X : Valuation τ sig (Elt Ideal)) :
    StableHlo.after hostOps0_2 X (Proc.devRef .tc main_cst_3) = constant (F := Ideal) S_ .f32 0x3F800000#32 := by
  simp only [hostOps0_2]; after_results

/-- The third stretch counts the listed edge ends at every node, over the edge targets, adding the ones vector
    it finds. -/
theorem s2_v7 (X : Valuation τ sig (Elt Ideal)) :
    StableHlo.after hostOps0_2 X (Proc.devRef .tc main_v7)
      = Host.scatterAdd scatter_S100000_S1000000x1_S1000000_n_0_0_1
          (broadcastInDim S100000 ![] bcast_S_S100000 (constant (F := Ideal) S_ .f32 0x00000000#32))
          (broadcastInDim S1000000x1 ![0] bcast_S1000000_S1000000x1_0 (X (Proc.devRef .tc main_arg2) : IVec S1000000 32))
          (X (Proc.devRef .tc main_v0) : FVec Ideal S1000000 .f32) := by
  simp only [hostOps0_2]; after_results

/-- The fourth stretch takes the maximum of the second count with 1. -/
theorem s3_v8 (X : Valuation τ sig (Elt Ideal)) :
    StableHlo.after hostOps0_3 X (Proc.devRef .tc main_v8)
      = maximumf (F := Ideal) (s := S100000) (φ := .f32)
          (broadcastInDim S100000 ![] bcast_S_S100000 (id (X (Proc.devRef .tc main_cst_3)))) (X (Proc.devRef .tc main_v7)) := by
  simp only [hostOps0_3]; after_results; rfl

/-- The fifth stretch raises the first clipped count to the power -1/2 and lays it as a column. -/
theorem s4_v13 (X : Valuation τ sig (Elt Ideal)) :
    StableHlo.after hostOps0_4 X (Proc.devRef .tc main_v13)
      = colOf (Host.powf (X (Proc.devRef .tc main_v4))
          (broadcastInDim S100000 ![] bcast_S_S100000 (constant (F := Ideal) S_ .f32 0xBF000000#32))) := by
  simp only [hostOps0_4]; after_results; rfl

/-- The fifth stretch does the same with the second clipped count. -/
theorem s4_v14 (X : Valuation τ sig (Elt Ideal)) :
    StableHlo.after hostOps0_4 X (Proc.devRef .tc main_v14)
      = colOf (Host.powf (X (Proc.devRef .tc main_v8))
          (broadcastInDim S100000 ![] bcast_S_S100000 (constant (F := Ideal) S_ .f32 0xBF000000#32))) := by
  simp only [hostOps0_4]; after_results; rfl

/-! ## The stretches joined -/

/-- Before the fifth stretch the first clipped count is the maximum with 1 of the count over the edge sources. -/
theorem W4_v4 (c : Dev nD) :
    W4 m ρ c (Proc.devRef .tc main_v4)
      = maximumf (F := Ideal) (s := S100000) (φ := .f32)
          (broadcastInDim S100000 ![] bcast_S_S100000 (id (constant (F := Ideal) S_ .f32 0x3F800000#32)))
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 (m ((c : Thread nD τ).loc main_arg1)))
            (broadcastInDim S1000000 ![] bcast_S_S1000000 (constant (F := Ideal) S_ .f32 0x3F800000#32))) := by
  have keep : W4 m ρ c (Proc.devRef .tc main_v4) = W2 m ρ c (Proc.devRef .tc main_v4) := by
    dsimp only [W4, W3]; after_results
  have e2 : W2 m ρ c (Proc.devRef .tc main_v4) = _ := s1_v4 (W1 m ρ c)
  have e1a : W1 m ρ c (Proc.devRef .tc main_cst_1) = _ := s0_cst1 (W0 m ρ c)
  have e1b : W1 m ρ c (Proc.devRef .tc main_v3) = _ := s0_v3 (W0 m ρ c)
  rw [keep, e2, e1a, e1b]

theorem W5_v13 (c : Dev nD) :
    W5 m ρ c (Proc.devRef .tc main_v13) = colOf (degNorm (m ((c : Thread nD τ).loc main_arg1))) := by
  refine (s4_v13 (W4 m ρ c)).trans ?_
  rw [W4_v4 m ρ c]
  rfl

/-- Before the fifth stretch the second clipped count is the maximum with 1 of the count over the edge targets. -/
theorem W4_v8 (c : Dev nD) :
    W4 m ρ c (Proc.devRef .tc main_v8)
      = maximumf (F := Ideal) (s := S100000) (φ := .f32)
          (broadcastInDim S100000 ![] bcast_S_S100000 (id (constant (F := Ideal) S_ .f32 0x3F800000#32)))
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 (m ((c : Thread nD τ).loc main_arg2)))
            (broadcastInDim S1000000 ![] bcast_S_S1000000 (constant (F := Ideal) S_ .f32 0x3F800000#32))) := by
  have e4 : W4 m ρ c (Proc.devRef .tc main_v8) = _ := s3_v8 (W3 m ρ c)
  have e3a : W3 m ρ c (Proc.devRef .tc main_cst_3) = _ := s2_cst3 (W2 m ρ c)
  have e3b : W3 m ρ c (Proc.devRef .tc main_v7) = _ := s2_v7 (W2 m ρ c)
  have keep0 : W2 m ρ c (Proc.devRef .tc main_v0) = W1 m ρ c (Proc.devRef .tc main_v0) := by
    dsimp only [W2]; after_results
  have e1 : W1 m ρ c (Proc.devRef .tc main_v0) = _ := s0_v0 (W0 m ρ c)
  have keep2 : W2 m ρ c (Proc.devRef .tc main_arg2) = m ((c : Thread nD τ).loc main_arg2) := by
    dsimp only [W2, W1, W0]; after_results
  rw [e4, e3a, e3b, keep0, e1, keep2]

theorem W5_v14 (c : Dev nD) :
    W5 m ρ c (Proc.devRef .tc main_v14) = colOf (degNorm (m ((c : Thread nD τ).loc main_arg2))) := by
  refine (s4_v14 (W4 m ρ c)).trans ?_
  rw [W4_v8 m ρ c]
  rfl

end Cert.KernelIdeal.Chain

end
-- ==== Proof.KChainL.lean ====
/-
  The host stretches between the first launch and the second, read as functions of what the first launch leaves:
  the lookup of the previous output's rows by the list of edge sources (a negative number counting from the end, a
  row outside the table masked to a not-a-number), those rows summed at the list of edge targets into zeros, and
  the bias vector viewed as a row. Every other buffer the second launch or a later stretch reads is left as the
  first launch left it. Each stretch is first read over arbitrary contents, then the two are composed.
-/
import proofs.«400118_j7739531067711_2_alg».proof.Proof.Gen.KernelIdeal.Frame
import proofs.«400118_j7739531067711_2_alg».proof.Proof.KHost
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.HostFn Cert.KernelIdeal.Take

variable (m : (ℓ : Loc nD τ sig) → Buf (Elt Ideal) ℓ) (ρ : Dev nD → PrngReg)

/-- A value carried along a type equation and back is the value. -/
private theorem cast_back {α β : Type} (h₁ : β = α) (h₂ : α = β) (v : α) : cast h₁ (cast h₂ v) = v := by
  subst h₂; rfl

/-! ## Layer 1: from W6 to W8 -/

set_option maxHeartbeats 1000000 in
/-- The row lookup's stretch over any contents: its result is the masked lookup of the table by the list. -/
theorem take1 (X : Valuation τ sig (Elt Ideal)) :
    StableHlo.after hostOps1 X (Proc.devRef .tc main_v16)
      = takeE (X (Proc.devRef .tc main_v15)) (X (Proc.devRef .tc main_arg1)) := by
  simp only [hostOps1]
  after_results_simp
  simp only [cast_back]
  have eP : ∀ a, (StableHlo.TRef.of (sig := sig) (T := ⟨S100000x64, .f32⟩) main_v15).ofBuf (Val := Elt Ideal) a = a := fun _ => rfl
  have e1 : ∀ a, (StableHlo.TRef.of (sig := sig) (T := ⟨S1000000, .i32⟩) main_arg1).ofBuf (Val := Elt Ideal) a = a := fun _ => rfl
  have eo : ∀ v, (StableHlo.TRef.of (sig := sig) (T := ⟨S1000000x64, .f32⟩) main_v16).toBuf (Val := Elt Ideal) v = v := fun _ => rfl
  rw [eo]
  simp only [eP, e1]
  rfl

set_option maxHeartbeats 400000 in
/-- The aggregation's stretch over any contents: the looked-up rows summed at the second list into zeros. -/
theorem agg1 (X : Valuation τ sig (Elt Ideal)) :
    StableHlo.after hostOps1_1 X (Proc.devRef .tc main_v19)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (X (Proc.devRef .tc main_arg2)))
          (X (Proc.devRef .tc main_v16)) := by
  simp only [hostOps1_1]; after_results

set_option maxHeartbeats 400000 in
/-- The same stretch's reshape: the bias vector as a row. -/
theorem row1 (X : Valuation τ sig (Elt Ideal)) :
    StableHlo.after hostOps1_1 X (Proc.devRef .tc main_v20) = rowOf (X (Proc.devRef .tc main_arg6)) := by
  simp only [hostOps1_1]; after_results; rfl

set_option maxHeartbeats 400000 in
theorem W7_keep_arg2 (c : Dev nD) : W7 m ρ c (Proc.devRef .tc main_arg2) = W6 m ρ c (Proc.devRef .tc main_arg2) := by
  dsimp only [W7]; after_results

set_option maxHeartbeats 400000 in
theorem W7_keep_arg6 (c : Dev nD) : W7 m ρ c (Proc.devRef .tc main_arg6) = W6 m ρ c (Proc.devRef .tc main_arg6) := by
  dsimp only [W7]; after_results

/-- At the launch's entry the aggregate buffer holds the sum over incoming edges of the looked-up rows of the
    previous launch's output. -/
theorem W8_v19 (c : Dev nD) :
    W8 m ρ c (Proc.devRef .tc main_v19)
      = aggE (W6 m ρ c (Proc.devRef .tc main_v15)) (W6 m ρ c (Proc.devRef .tc main_arg1)) (W6 m ρ c (Proc.devRef .tc main_arg2)) := by
  have h : W7 m ρ c (Proc.devRef .tc main_v16)
      = takeE (W6 m ρ c (Proc.devRef .tc main_v15)) (W6 m ρ c (Proc.devRef .tc main_arg1)) := take1 (W6 m ρ c)
  refine (agg1 (W7 m ρ c)).trans ?_
  rw [h, W7_keep_arg2 m ρ c]
  rfl

/-- At the launch's entry the bias buffer holds the bias vector as a row. -/
theorem W8_v20 (c : Dev nD) :
    W8 m ρ c (Proc.devRef .tc main_v20) = rowOf (W6 m ρ c (Proc.devRef .tc main_arg6)) := by
  refine (row1 (W7 m ρ c)).trans ?_
  rw [W7_keep_arg6 m ρ c]

set_option maxHeartbeats 400000 in
theorem W8_keep_v13 (c : Dev nD) : W8 m ρ c (Proc.devRef .tc main_v13) = W6 m ρ c (Proc.devRef .tc main_v13) := by
  dsimp only [W8, W7]; after_results

set_option maxHeartbeats 400000 in
theorem W8_keep_v14 (c : Dev nD) : W8 m ρ c (Proc.devRef .tc main_v14) = W6 m ρ c (Proc.devRef .tc main_v14) := by
  dsimp only [W8, W7]; after_results

set_option maxHeartbeats 400000 in
theorem W8_keep_arg1 (c : Dev nD) : W8 m ρ c (Proc.devRef .tc main_arg1) = W6 m ρ c (Proc.devRef .tc main_arg1) := by
  dsimp only [W8, W7]; after_results

set_option maxHeartbeats 400000 in
theorem W8_keep_arg2 (c : Dev nD) : W8 m ρ c (Proc.devRef .tc main_arg2) = W6 m ρ c (Proc.devRef .tc main_arg2) := by
  dsimp only [W8, W7]; after_results

set_option maxHeartbeats 400000 in
theorem W8_keep_arg7 (c : Dev nD) : W8 m ρ c (Proc.devRef .tc main_arg7) = W6 m ρ c (Proc.devRef .tc main_arg7) := by
  dsimp only [W8, W7]; after_results

set_option maxHeartbeats 400000 in
theorem W8_keep_arg8 (c : Dev nD) : W8 m ρ c (Proc.devRef .tc main_arg8) = W6 m ρ c (Proc.devRef .tc main_arg8) := by
  dsimp only [W8, W7]; after_results

set_option maxHeartbeats 400000 in
theorem W8_keep_arg9 (c : Dev nD) : W8 m ρ c (Proc.devRef .tc main_arg9) = W6 m ρ c (Proc.devRef .tc main_arg9) := by
  dsimp only [W8, W7]; after_results

set_option maxHeartbeats 400000 in
theorem W8_keep_arg10 (c : Dev nD) : W8 m ρ c (Proc.devRef .tc main_arg10) = W6 m ρ c (Proc.devRef .tc main_arg10) := by
  dsimp only [W8, W7]; after_results

end Cert.KernelIdeal.Chain

end
-- ==== Proof.KChainL2.lean ====
/-
  What the program's buffers hold when the launch of layer 2 starts. Between the launches of layers 1 and 2 the
  program runs two stretches of host operations: the lookup of the previous layer's rows by the edge sources (with its
  out-of-range mask), then the sum of the looked-up rows at the edge targets into zeros and the bias vector laid
  as a row. Each stretch is read as a function of ARBITRARY earlier contents of the buffers it reads, the
  transports of a typed buffer to and from its own type removed by rewriting; the two stretches are then joined by
  equations, a buffer neither writes keeping what it held.
-/
import proofs.«400118_j7739531067711_2_alg».proof.Proof.Gen.KernelIdeal.Frame
import proofs.«400118_j7739531067711_2_alg».proof.Proof.KHost
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.HostFn Cert.KernelIdeal.Take

variable (m : (ℓ : Loc nD τ sig) → Buf (Elt Ideal) ℓ) (ρ : Dev nD → PrngReg)

/-- A typed reference's two transports undo each other. -/
private theorem ofBuf_toBuf {T : BufTy} (x : StableHlo.TRef sig T) (v : T.Contents (Elt Ideal)) :
    x.ofBuf (Val := Elt Ideal) (x.toBuf v) = v := by
  obtain ⟨r, h, h2, h3⟩ := x
  subst h
  rfl

/-! ## Each stretch over arbitrary earlier contents -/

set_option maxHeartbeats 1000000 in
/-- The row lookup stretch, over arbitrary earlier contents: it leaves the looked-up rows of the table it finds,
    by the edge sources it finds. -/
theorem take2 (X : Valuation τ sig (Elt Ideal)) :
    StableHlo.after hostOps3 X (Proc.devRef .tc main_v23) = takeE (X (Proc.devRef .tc main_v22)) (X (Proc.devRef .tc main_arg1)) := by
  simp only [hostOps3]
  after_results
  simp only [ofBuf_toBuf]
  have et : ∀ a, (StableHlo.TRef.of (sig := sig) (T := ⟨S100000x64, .f32⟩) main_v22).ofBuf (Val := Elt Ideal) a = a := fun _ => rfl
  have e1 : ∀ a, (StableHlo.TRef.of (sig := sig) (T := ⟨S1000000, .i32⟩) main_arg1).ofBuf (Val := Elt Ideal) a = a := fun _ => rfl
  have eo : ∀ v, (StableHlo.TRef.of (sig := sig) (T := ⟨S1000000x64, .f32⟩) main_v23).toBuf (Val := Elt Ideal) v = v := fun _ => rfl
  rw [eo]
  simp only [et, e1]
  rfl

/-- The scatter-add stretch, over arbitrary earlier contents: the rows it finds, summed at the edge targets it finds. -/
theorem agg2 (X : Valuation τ sig (Elt Ideal)) :
    StableHlo.after hostOps3_1 X (Proc.devRef .tc main_v26)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (X (Proc.devRef .tc main_arg2) : IVec S1000000 32))
          (X (Proc.devRef .tc main_v23) : FVec Ideal S1000000x64 .f32) := by
  simp only [hostOps3_1]; after_results

/-- The same stretch lays the bias vector it finds as a row. -/
theorem row2 (X : Valuation τ sig (Elt Ideal)) :
    StableHlo.after hostOps3_1 X (Proc.devRef .tc main_v27) = rowOf (X (Proc.devRef .tc main_arg8)) := by
  simp only [hostOps3_1]; after_results; rfl

/-! ## Before the launch of layer 2 -/

theorem W12_v26 (c : Dev nD) :
    W12 m ρ c (Proc.devRef .tc main_v26)
      = aggE (W10 m ρ c (Proc.devRef .tc main_v22)) (W10 m ρ c (Proc.devRef .tc main_arg1)) (W10 m ρ c (Proc.devRef .tc main_arg2)) := by
  refine (agg2 (W11 m ρ c)).trans ?_
  have keep : W11 m ρ c (Proc.devRef .tc main_arg2) = W10 m ρ c (Proc.devRef .tc main_arg2) := by
    dsimp only [W11]; after_results
  have et : W11 m ρ c (Proc.devRef .tc main_v23) = _ := take2 (W10 m ρ c)
  rw [keep, et]
  rfl

theorem W12_v27 (c : Dev nD) : W12 m ρ c (Proc.devRef .tc main_v27) = rowOf (W10 m ρ c (Proc.devRef .tc main_arg8)) := by
  refine (row2 (W11 m ρ c)).trans ?_
  have keep : W11 m ρ c (Proc.devRef .tc main_arg8) = W10 m ρ c (Proc.devRef .tc main_arg8) := by
    dsimp only [W11]; after_results
  rw [keep]

theorem W12_keep_v13 (c : Dev nD) : W12 m ρ c (Proc.devRef .tc main_v13) = W10 m ρ c (Proc.devRef .tc main_v13) := by
  dsimp only [W12, W11]; after_results
theorem W12_keep_v14 (c : Dev nD) : W12 m ρ c (Proc.devRef .tc main_v14) = W10 m ρ c (Proc.devRef .tc main_v14) := by
  dsimp only [W12, W11]; after_results
theorem W12_keep_arg1 (c : Dev nD) : W12 m ρ c (Proc.devRef .tc main_arg1) = W10 m ρ c (Proc.devRef .tc main_arg1) := by
  dsimp only [W12, W11]; after_results
theorem W12_keep_arg2 (c : Dev nD) : W12 m ρ c (Proc.devRef .tc main_arg2) = W10 m ρ c (Proc.devRef .tc main_arg2) := by
  dsimp only [W12, W11]; after_results
theorem W12_keep_arg9 (c : Dev nD) : W12 m ρ c (Proc.devRef .tc main_arg9) = W10 m ρ c (Proc.devRef .tc main_arg9) := by
  dsimp only [W12, W11]; after_results
theorem W12_keep_arg10 (c : Dev nD) : W12 m ρ c (Proc.devRef .tc main_arg10) = W10 m ρ c (Proc.devRef .tc main_arg10) := by
  dsimp only [W12, W11]; after_results

end Cert.KernelIdeal.Chain

end
-- ==== Proof.KChainL3.lean ====
/-
  The host stretches between the fifth launch and the sixth, read as functions of what the fifth launch leaves:
  the lookup of the previous output's rows by the list of edge sources (a negative number counting from the end, a
  row outside the table masked to a not-a-number), those rows summed at the list of edge targets into zeros, and
  the bias vector viewed as a row. The one other buffer the sixth launch reads is left as the fifth launch left it.
  Each stretch is first read over arbitrary contents, then the two are composed.
-/
import proofs.«400118_j7739531067711_2_alg».proof.Proof.Gen.KernelIdeal.Frame
import proofs.«400118_j7739531067711_2_alg».proof.Proof.KHost
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.HostFn Cert.KernelIdeal.Take

variable (m : (ℓ : Loc nD τ sig) → Buf (Elt Ideal) ℓ) (ρ : Dev nD → PrngReg)

/-- A value carried along a type equation and back is the value. -/
private theorem cast_back {α β : Type} (h₁ : β = α) (h₂ : α = β) (v : α) : cast h₁ (cast h₂ v) = v := by
  subst h₂; rfl

/-! ## Layer 3: from W14 to W16 -/

set_option maxHeartbeats 1000000 in
/-- The row lookup's stretch over any contents: its result is the masked lookup of the table by the list. -/
theorem take3 (X : Valuation τ sig (Elt Ideal)) :
    StableHlo.after hostOps5 X (Proc.devRef .tc main_v30)
      = takeE (X (Proc.devRef .tc main_v29)) (X (Proc.devRef .tc main_arg1)) := by
  simp only [hostOps5]
  after_results_simp
  simp only [cast_back]
  have eP : ∀ a, (StableHlo.TRef.of (sig := sig) (T := ⟨S100000x64, .f32⟩) main_v29).ofBuf (Val := Elt Ideal) a = a := fun _ => rfl
  have e1 : ∀ a, (StableHlo.TRef.of (sig := sig) (T := ⟨S1000000, .i32⟩) main_arg1).ofBuf (Val := Elt Ideal) a = a := fun _ => rfl
  have eo : ∀ v, (StableHlo.TRef.of (sig := sig) (T := ⟨S1000000x64, .f32⟩) main_v30).toBuf (Val := Elt Ideal) v = v := fun _ => rfl
  rw [eo]
  simp only [eP, e1]
  rfl

set_option maxHeartbeats 400000 in
/-- The aggregation's stretch over any contents: the looked-up rows summed at the second list into zeros. -/
theorem agg3 (X : Valuation τ sig (Elt Ideal)) :
    StableHlo.after hostOps5_1 X (Proc.devRef .tc main_v33)
      = Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (X (Proc.devRef .tc main_arg2)))
          (X (Proc.devRef .tc main_v30)) := by
  simp only [hostOps5_1]; after_results

set_option maxHeartbeats 400000 in
/-- The same stretch's reshape: the bias vector as a row. -/
theorem row3 (X : Valuation τ sig (Elt Ideal)) :
    StableHlo.after hostOps5_1 X (Proc.devRef .tc main_v34) = rowOf (X (Proc.devRef .tc main_arg10)) := by
  simp only [hostOps5_1]; after_results; rfl

set_option maxHeartbeats 400000 in
theorem W15_keep_arg2 (c : Dev nD) : W15 m ρ c (Proc.devRef .tc main_arg2) = W14 m ρ c (Proc.devRef .tc main_arg2) := by
  dsimp only [W15]; after_results

set_option maxHeartbeats 400000 in
theorem W15_keep_arg10 (c : Dev nD) : W15 m ρ c (Proc.devRef .tc main_arg10) = W14 m ρ c (Proc.devRef .tc main_arg10) := by
  dsimp only [W15]; after_results

/-- At the launch's entry the aggregate buffer holds the sum over incoming edges of the looked-up rows of the
    previous launch's output. -/
theorem W16_v33 (c : Dev nD) :
    W16 m ρ c (Proc.devRef .tc main_v33)
      = aggE (W14 m ρ c (Proc.devRef .tc main_v29)) (W14 m ρ c (Proc.devRef .tc main_arg1)) (W14 m ρ c (Proc.devRef .tc main_arg2)) := by
  have h : W15 m ρ c (Proc.devRef .tc main_v30)
      = takeE (W14 m ρ c (Proc.devRef .tc main_v29)) (W14 m ρ c (Proc.devRef .tc main_arg1)) := take3 (W14 m ρ c)
  refine (agg3 (W15 m ρ c)).trans ?_
  rw [h, W15_keep_arg2 m ρ c]
  rfl

/-- At the launch's entry the bias buffer holds the bias vector as a row. -/
theorem W16_v34 (c : Dev nD) :
    W16 m ρ c (Proc.devRef .tc main_v34) = rowOf (W14 m ρ c (Proc.devRef .tc main_arg10)) := by
  refine (row3 (W15 m ρ c)).trans ?_
  rw [W15_keep_arg10 m ρ c]

set_option maxHeartbeats 400000 in
theorem W16_keep_v14 (c : Dev nD) : W16 m ρ c (Proc.devRef .tc main_v14) = W14 m ρ c (Proc.devRef .tc main_v14) := by
  dsimp only [W16, W15]; after_results

end Cert.KernelIdeal.Chain

end
-- ==== Proof.KChainP.lean ====
/-
  The host stretches in front of the last launch: the two row lookups of the third layer's output by the pair
  lists, their concatenation side by side, and the two bias vectors as rows. Each stretch is read at an arbitrary
  valuation first; the boundary contents are then the composition of these readings.
-/
import proofs.«400118_j7739531067711_2_alg».proof.Proof.Gen.KernelIdeal.Frame
import proofs.«400118_j7739531067711_2_alg».proof.Proof.KHost
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.HostFn Cert.KernelIdeal.Take

variable (m : (ℓ : Loc nD τ sig) → Buf (Elt Ideal) ℓ) (ρ : Dev nD → PrngReg)

set_option maxHeartbeats 400000 in
/-- The concatenation stretch at the joined buffer. -/
theorem cat (X : Valuation τ sig (Elt Ideal)) :
    StableHlo.after hostOps6_2 X (Proc.devRef .tc main_v38) =
      concatenate S200000x128 1 [⟨S200000x64, X (Proc.devRef .tc main_v36)⟩, ⟨S200000x64, X (Proc.devRef .tc main_v37)⟩] concatenates_S200000x64_S200000x64_S200000x128_d1 := by
  simp only [hostOps6_2]; after_results

set_option maxHeartbeats 400000 in
/-- The first bias vector as a row. -/
theorem row12 (X : Valuation τ sig (Elt Ideal)) :
    StableHlo.after hostOps6_2 X (Proc.devRef .tc main_v39) = rowOf (X (Proc.devRef .tc main_arg12)) := by
  simp only [hostOps6_2]; after_results; rfl

set_option maxHeartbeats 400000 in
/-- The second bias vector as a row. -/
theorem row14 (X : Valuation τ sig (Elt Ideal)) :
    StableHlo.after hostOps6_2 X (Proc.devRef .tc main_v40) = rowOf2 (X (Proc.devRef .tc main_arg14)) := by
  simp only [hostOps6_2]; after_results; rfl

set_option maxHeartbeats 400000 in
/-- The first lookup stretch: the masked lookup of the layer output's rows by the first pair list. -/
theorem takeA (X : Valuation τ sig (Elt Ideal)) :
    StableHlo.after hostOps6 X (Proc.devRef .tc main_v36) = takeP (X (Proc.devRef .tc main_v35)) (X (Proc.devRef .tc main_arg3)) := by
  simp only [hostOps6]; after_results
  simp only [TRef.ofBuf, TRef.toBuf, cast_eq]
  unfold takeP maskP colP wrapP
  rfl

set_option maxHeartbeats 400000 in
/-- The second lookup stretch: the same by the second pair list. -/
theorem takeB (X : Valuation τ sig (Elt Ideal)) :
    StableHlo.after hostOps6_1 X (Proc.devRef .tc main_v37) = takeP (X (Proc.devRef .tc main_v35)) (X (Proc.devRef .tc main_arg4)) := by
  simp only [hostOps6_1]; after_results
  simp only [TRef.ofBuf, TRef.toBuf, cast_eq]
  unfold takeP maskP colP wrapP
  rfl

set_option maxHeartbeats 400000 in
/-- The second lookup stretch does not write the first lookup's result. -/
theorem keepB_v36 (X : Valuation τ sig (Elt Ideal)) :
    StableHlo.after hostOps6_1 X (Proc.devRef .tc main_v36) = X (Proc.devRef .tc main_v36) := by
  simp only [hostOps6_1]; after_results

set_option maxHeartbeats 400000 in
/-- The first lookup stretch does not write the layer output. -/
theorem keepA_v35 (X : Valuation τ sig (Elt Ideal)) :
    StableHlo.after hostOps6 X (Proc.devRef .tc main_v35) = X (Proc.devRef .tc main_v35) := by
  simp only [hostOps6]; after_results

set_option maxHeartbeats 400000 in
/-- The first lookup stretch does not write the second pair list. -/
theorem keepA_arg4 (X : Valuation τ sig (Elt Ideal)) :
    StableHlo.after hostOps6 X (Proc.devRef .tc main_arg4) = X (Proc.devRef .tc main_arg4) := by
  simp only [hostOps6]; after_results

set_option maxHeartbeats 400000 in
/-- After the second lookup stretch the first lookup's result is still there. -/
theorem W19_v36 (c : Dev nD) :
    W19 m ρ c (Proc.devRef .tc main_v36) = takeP (W17 m ρ c (Proc.devRef .tc main_v35)) (W17 m ρ c (Proc.devRef .tc main_arg3)) :=
  (keepB_v36 (W18 m ρ c)).trans (takeA (W17 m ρ c))

set_option maxHeartbeats 400000 in
/-- The second lookup reads the layer output and the second pair list as the sixth launch left them. -/
theorem W19_v37 (c : Dev nD) :
    W19 m ρ c (Proc.devRef .tc main_v37) = takeP (W17 m ρ c (Proc.devRef .tc main_v35)) (W17 m ρ c (Proc.devRef .tc main_arg4)) := by
  have k1 : W18 m ρ c (Proc.devRef .tc main_v35) = W17 m ρ c (Proc.devRef .tc main_v35) := keepA_v35 (W17 m ρ c)
  have k2 : W18 m ρ c (Proc.devRef .tc main_arg4) = W17 m ρ c (Proc.devRef .tc main_arg4) := keepA_arg4 (W17 m ρ c)
  rw [← k1, ← k2]
  exact takeB (W18 m ρ c)

set_option maxHeartbeats 400000 in
/-- At the last launch's entry the pair buffer holds the two looked-up rows of every pair side by side. -/
theorem W20_v38 (c : Dev nD) :
    W20 m ρ c (Proc.devRef .tc main_v38) =
      pairE (W17 m ρ c (Proc.devRef .tc main_v35)) (W17 m ρ c (Proc.devRef .tc main_arg3)) (W17 m ρ c (Proc.devRef .tc main_arg4)) := by
  unfold pairE
  rw [← W19_v36 m ρ c, ← W19_v37 m ρ c]
  exact cat (W19 m ρ c)

set_option maxHeartbeats 400000 in
/-- At the last launch's entry the first bias row is the first bias vector as a row. -/
theorem W20_v39 (c : Dev nD) : W20 m ρ c (Proc.devRef .tc main_v39) = rowOf (W17 m ρ c (Proc.devRef .tc main_arg12)) := by
  have k : W19 m ρ c (Proc.devRef .tc main_arg12) = W17 m ρ c (Proc.devRef .tc main_arg12) := by
    dsimp only [W19, W18]; after_results
  rw [← k]
  exact row12 (W19 m ρ c)

set_option maxHeartbeats 400000 in
/-- At the last launch's entry the second bias row is the second bias vector as a row. -/
theorem W20_v40 (c : Dev nD) : W20 m ρ c (Proc.devRef .tc main_v40) = rowOf2 (W17 m ρ c (Proc.devRef .tc main_arg14)) := by
  have k : W19 m ρ c (Proc.devRef .tc main_arg14) = W17 m ρ c (Proc.devRef .tc main_arg14) := by
    dsimp only [W19, W18]; after_results
  rw [← k]
  exact row14 (W19 m ρ c)

set_option maxHeartbeats 400000 in
/-- The stretches in front of the last launch do not write this argument. -/
theorem W20_keep_arg3 (c : Dev nD) : W20 m ρ c (Proc.devRef .tc main_arg3) = W17 m ρ c (Proc.devRef .tc main_arg3) := by
  dsimp only [W20, W19, W18]; after_results

set_option maxHeartbeats 400000 in
/-- The stretches in front of the last launch do not write this argument. -/
theorem W20_keep_arg4 (c : Dev nD) : W20 m ρ c (Proc.devRef .tc main_arg4) = W17 m ρ c (Proc.devRef .tc main_arg4) := by
  dsimp only [W20, W19, W18]; after_results

set_option maxHeartbeats 400000 in
/-- The stretches in front of the last launch do not write this argument. -/
theorem W20_keep_arg11 (c : Dev nD) : W20 m ρ c (Proc.devRef .tc main_arg11) = W17 m ρ c (Proc.devRef .tc main_arg11) := by
  dsimp only [W20, W19, W18]; after_results

set_option maxHeartbeats 400000 in
/-- The stretches in front of the last launch do not write this argument. -/
theorem W20_keep_arg12 (c : Dev nD) : W20 m ρ c (Proc.devRef .tc main_arg12) = W17 m ρ c (Proc.devRef .tc main_arg12) := by
  dsimp only [W20, W19, W18]; after_results

set_option maxHeartbeats 400000 in
/-- The stretches in front of the last launch do not write this argument. -/
theorem W20_keep_arg13 (c : Dev nD) : W20 m ρ c (Proc.devRef .tc main_arg13) = W17 m ρ c (Proc.devRef .tc main_arg13) := by
  dsimp only [W20, W19, W18]; after_results

set_option maxHeartbeats 400000 in
/-- The stretches in front of the last launch do not write this argument. -/
theorem W20_keep_arg14 (c : Dev nD) : W20 m ρ c (Proc.devRef .tc main_arg14) = W17 m ρ c (Proc.devRef .tc main_arg14) := by
  dsimp only [W20, W19, W18]; after_results

end Cert.KernelIdeal.Chain

end
-- ==== Proof.KValue.lean ====
/-
  The idealized kernel program's result, identified with the reference's. Boundary by boundary through @main, each
  array the kernel program holds is the reference program's stage of the same meaning: after the first launch the
  first layer's projected features, after the host stretch their sum over incoming edges, after the second launch the
  layer's rectified output, and so on through the three layers; then the looked-up pair rows, and after the last
  launch the softmax of the perceptron. Each launch contributes its whole-array function, each host stretch its
  host function, and the reference's dense steps are those same functions of its own stages; the lookups agree
  because every listed node number is in range.
-/
import proofs.«400118_j7739531067711_2_alg».proof.Proof.Gen.KernelIdeal.Frame
import proofs.«400118_j7739531067711_2_alg».proof.Proof.Region0
import proofs.«400118_j7739531067711_2_alg».proof.Proof.Region1
import proofs.«400118_j7739531067711_2_alg».proof.Proof.Region2
import proofs.«400118_j7739531067711_2_alg».proof.Proof.Region3
import proofs.«400118_j7739531067711_2_alg».proof.Proof.Region4
import proofs.«400118_j7739531067711_2_alg».proof.Proof.Region5
import proofs.«400118_j7739531067711_2_alg».proof.Proof.Region6
import proofs.«400118_j7739531067711_2_alg».proof.Proof.KHost
import proofs.«400118_j7739531067711_2_alg».proof.Proof.TakeMask
import proofs.«400118_j7739531067711_2_alg».proof.Proof.RefStages
import proofs.«400118_j7739531067711_2_alg».proof.Proof.Bridge
import proofs.«400118_j7739531067711_2_alg».proof.Proof.KChain0
import proofs.«400118_j7739531067711_2_alg».proof.Proof.KChainL
import proofs.«400118_j7739531067711_2_alg».proof.Proof.KChainL2
import proofs.«400118_j7739531067711_2_alg».proof.Proof.KChainL3
import proofs.«400118_j7739531067711_2_alg».proof.Proof.KChainP
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.KernelIdeal.HostFn Cert.KernelIdeal.Take Cert.Spec Idealize.ShloMosaic.ValueIdx
open Cert.ReferenceIdeal.Read (val_main_v10 val_main_v12 val_main_v16 val_main_v26 val_main_v33 val_main_v37 val_main_v47 val_main_v54 val_main_v58 val_main_v68 val_main_v74 val_main_v89 val_main_v109)

variable (m : (ℓ : Loc nD τ sig) → Buf (Elt Ideal) ℓ) (ρ : Dev nD → PrngReg)

/-- The argument arrays as launched, on core c. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)

/-! ## Through launch 0: the first layer's projected features -/

theorem W6_v15 (c : Dev nD) : W6 m ρ c (Proc.devRef .tc main_v15) = val_main_v16 (F := Ideal) (A0 m c) (A1 m c) (A5 m c) := by
  refine (W6_arr m ρ c 3).trans ((Region0.final (V5 m ρ) c).trans ?_)
  show scaleMatmul (W5 m ρ c (Proc.devRef .tc main_arg0)) (W5 m ρ c (Proc.devRef .tc main_v13)) (W5 m ρ c (Proc.devRef .tc main_arg5)) = _
  rw [W5_arg0, W5_v13, W5_arg5]
  exact Cert.ReferenceIdeal.Stages.conv1_proj (A0 m c) (A1 m c) (A5 m c) (colOf (degNorm (A1 m c))) (fun r => by rw [colOf_apply, Cert.Bridge.deg_out])

theorem W6_v13 (c : Dev nD) : W6 m ρ c (Proc.devRef .tc main_v13) = colOf (degNorm (A1 m c)) :=
  ((W6_arr m ρ c 1).trans (((dat0 (V5 m ρ) c).arrAt_in 1 rfl _).trans (A_eq0 (V5 m ρ) c 1))).trans (W5_v13 m ρ c)
theorem W6_v14 (c : Dev nD) : W6 m ρ c (Proc.devRef .tc main_v14) = colOf (degNorm (A2 m c)) :=
  (W6_of_ne m ρ c main_v14 (by decide)).trans (W5_v14 m ρ c)
theorem W6_arg1 (c : Dev nD) : W6 m ρ c (Proc.devRef .tc main_arg1) = (A1 m c) := (W6_of_ne m ρ c main_arg1 (by decide)).trans (W5_arg1 m ρ c)
theorem W6_arg2 (c : Dev nD) : W6 m ρ c (Proc.devRef .tc main_arg2) = (A2 m c) := (W6_of_ne m ρ c main_arg2 (by decide)).trans (W5_arg2 m ρ c)
theorem W6_arg6 (c : Dev nD) : W6 m ρ c (Proc.devRef .tc main_arg6) = (A6 m c) := (W6_of_ne m ρ c main_arg6 (by decide)).trans (W5_arg6 m ρ c)
theorem W6_arg7 (c : Dev nD) : W6 m ρ c (Proc.devRef .tc main_arg7) = (A7 m c) := (W6_of_ne m ρ c main_arg7 (by decide)).trans (W5_arg7 m ρ c)
theorem W6_arg8 (c : Dev nD) : W6 m ρ c (Proc.devRef .tc main_arg8) = (A8 m c) := (W6_of_ne m ρ c main_arg8 (by decide)).trans (W5_arg8 m ρ c)
theorem W6_arg9 (c : Dev nD) : W6 m ρ c (Proc.devRef .tc main_arg9) = (A9 m c) := (W6_of_ne m ρ c main_arg9 (by decide)).trans (W5_arg9 m ρ c)
theorem W6_arg10 (c : Dev nD) : W6 m ρ c (Proc.devRef .tc main_arg10) = (A10 m c) := (W6_of_ne m ρ c main_arg10 (by decide)).trans (W5_arg10 m ρ c)

/-! ## The first layer's aggregate and its output -/

theorem W8_agg (c : Dev nD) (h1 : NodeRange (S := S1000000) (A1 m c)) :
    W8 m ρ c (Proc.devRef .tc main_v19) = val_main_v26 (F := Ideal) (A0 m c) (A1 m c) (A2 m c) (A5 m c) := by
  rw [W8_v19, W6_v15, W6_arg1, W6_arg2]
  exact Cert.Bridge.agg1 (A0 m c) (A1 m c) (A2 m c) (A5 m c) h1
theorem W8_bias (c : Dev nD) : W8 m ρ c (Proc.devRef .tc main_v20) = rowOf (A6 m c) := by rw [W8_v20, W6_arg6]
theorem W8_v13 (c : Dev nD) : W8 m ρ c (Proc.devRef .tc main_v13) = colOf (degNorm (A1 m c)) := (W8_keep_v13 m ρ c).trans (W6_v13 m ρ c)
theorem W8_v14 (c : Dev nD) : W8 m ρ c (Proc.devRef .tc main_v14) = colOf (degNorm (A2 m c)) := (W8_keep_v14 m ρ c).trans (W6_v14 m ρ c)
theorem W8_arg1 (c : Dev nD) : W8 m ρ c (Proc.devRef .tc main_arg1) = (A1 m c) := (W8_keep_arg1 m ρ c).trans (W6_arg1 m ρ c)
theorem W8_arg2 (c : Dev nD) : W8 m ρ c (Proc.devRef .tc main_arg2) = (A2 m c) := (W8_keep_arg2 m ρ c).trans (W6_arg2 m ρ c)
theorem W8_arg7 (c : Dev nD) : W8 m ρ c (Proc.devRef .tc main_arg7) = (A7 m c) := (W8_keep_arg7 m ρ c).trans (W6_arg7 m ρ c)
theorem W8_arg8 (c : Dev nD) : W8 m ρ c (Proc.devRef .tc main_arg8) = (A8 m c) := (W8_keep_arg8 m ρ c).trans (W6_arg8 m ρ c)
theorem W8_arg9 (c : Dev nD) : W8 m ρ c (Proc.devRef .tc main_arg9) = (A9 m c) := (W8_keep_arg9 m ρ c).trans (W6_arg9 m ρ c)
theorem W8_arg10 (c : Dev nD) : W8 m ρ c (Proc.devRef .tc main_arg10) = (A10 m c) := (W8_keep_arg10 m ρ c).trans (W6_arg10 m ρ c)

theorem W9_v21 (c : Dev nD) (h1 : NodeRange (S := S1000000) (A1 m c)) :
    W9 m ρ c (Proc.devRef .tc main_v21) = val_main_v33 (F := Ideal) (A0 m c) (A1 m c) (A2 m c) (A5 m c) (A6 m c) := by
  refine (W9_arr m ρ c 3).trans ((Region1.final (V8 m ρ) c).trans ?_)
  show scaleBiasRelu (W8 m ρ c (Proc.devRef .tc main_v19)) (W8 m ρ c (Proc.devRef .tc main_v14)) (W8 m ρ c (Proc.devRef .tc main_v20)) = _
  rw [W8_agg m ρ c h1, W8_v14, W8_bias]
  exact Cert.ReferenceIdeal.Stages.conv1_out (A0 m c) (A1 m c) (A2 m c) (A5 m c) (A6 m c) (colOf (degNorm (A2 m c))) (fun r => by rw [colOf_apply, Cert.Bridge.deg_in]) (rowOf (A6 m c)) (fun q => rowOf_apply _ q)

theorem W9_v13 (c : Dev nD) : W9 m ρ c (Proc.devRef .tc main_v13) = colOf (degNorm (A1 m c)) := (W9_of_ne m ρ c main_v13 (by decide)).trans (W8_v13 m ρ c)
theorem W9_v14 (c : Dev nD) : W9 m ρ c (Proc.devRef .tc main_v14) = colOf (degNorm (A2 m c)) :=
  ((W9_arr m ρ c 1).trans (((dat1 (V8 m ρ) c).arrAt_in 1 rfl _).trans (A_eq1 (V8 m ρ) c 1))).trans (W8_v14 m ρ c)
theorem W9_arg1 (c : Dev nD) : W9 m ρ c (Proc.devRef .tc main_arg1) = (A1 m c) := (W9_of_ne m ρ c main_arg1 (by decide)).trans (W8_arg1 m ρ c)
theorem W9_arg2 (c : Dev nD) : W9 m ρ c (Proc.devRef .tc main_arg2) = (A2 m c) := (W9_of_ne m ρ c main_arg2 (by decide)).trans (W8_arg2 m ρ c)
theorem W9_arg7 (c : Dev nD) : W9 m ρ c (Proc.devRef .tc main_arg7) = (A7 m c) := (W9_of_ne m ρ c main_arg7 (by decide)).trans (W8_arg7 m ρ c)
theorem W9_arg8 (c : Dev nD) : W9 m ρ c (Proc.devRef .tc main_arg8) = (A8 m c) := (W9_of_ne m ρ c main_arg8 (by decide)).trans (W8_arg8 m ρ c)
theorem W9_arg9 (c : Dev nD) : W9 m ρ c (Proc.devRef .tc main_arg9) = (A9 m c) := (W9_of_ne m ρ c main_arg9 (by decide)).trans (W8_arg9 m ρ c)
theorem W9_arg10 (c : Dev nD) : W9 m ρ c (Proc.devRef .tc main_arg10) = (A10 m c) := (W9_of_ne m ρ c main_arg10 (by decide)).trans (W8_arg10 m ρ c)

/-! ## The second layer -/

theorem W10_v22 (c : Dev nD) (h1 : NodeRange (S := S1000000) (A1 m c)) :
    W10 m ρ c (Proc.devRef .tc main_v22) = val_main_v37 (F := Ideal) (A0 m c) (A1 m c) (A2 m c) (A5 m c) (A6 m c) (A7 m c) := by
  refine (W10_arr m ρ c 3).trans ((Region2.final (V9 m ρ) c).trans ?_)
  show scaleMatmul (W9 m ρ c (Proc.devRef .tc main_v21)) (W9 m ρ c (Proc.devRef .tc main_v13)) (W9 m ρ c (Proc.devRef .tc main_arg7)) = _
  rw [W9_v21 m ρ c h1, W9_v13, W9_arg7]
  exact Cert.ReferenceIdeal.Stages.conv2_proj (A0 m c) (A1 m c) (A2 m c) (A5 m c) (A6 m c) (A7 m c) (colOf (degNorm (A1 m c))) (fun r => by rw [colOf_apply, Cert.Bridge.deg_out])

theorem W10_v13 (c : Dev nD) : W10 m ρ c (Proc.devRef .tc main_v13) = colOf (degNorm (A1 m c)) :=
  ((W10_arr m ρ c 1).trans (((dat2 (V9 m ρ) c).arrAt_in 1 rfl _).trans (A_eq2 (V9 m ρ) c 1))).trans (W9_v13 m ρ c)
theorem W10_v14 (c : Dev nD) : W10 m ρ c (Proc.devRef .tc main_v14) = colOf (degNorm (A2 m c)) := (W10_of_ne m ρ c main_v14 (by decide)).trans (W9_v14 m ρ c)
theorem W10_arg1 (c : Dev nD) : W10 m ρ c (Proc.devRef .tc main_arg1) = (A1 m c) := (W10_of_ne m ρ c main_arg1 (by decide)).trans (W9_arg1 m ρ c)
theorem W10_arg2 (c : Dev nD) : W10 m ρ c (Proc.devRef .tc main_arg2) = (A2 m c) := (W10_of_ne m ρ c main_arg2 (by decide)).trans (W9_arg2 m ρ c)
theorem W10_arg8 (c : Dev nD) : W10 m ρ c (Proc.devRef .tc main_arg8) = (A8 m c) := (W10_of_ne m ρ c main_arg8 (by decide)).trans (W9_arg8 m ρ c)
theorem W10_arg9 (c : Dev nD) : W10 m ρ c (Proc.devRef .tc main_arg9) = (A9 m c) := (W10_of_ne m ρ c main_arg9 (by decide)).trans (W9_arg9 m ρ c)
theorem W10_arg10 (c : Dev nD) : W10 m ρ c (Proc.devRef .tc main_arg10) = (A10 m c) := (W10_of_ne m ρ c main_arg10 (by decide)).trans (W9_arg10 m ρ c)

theorem W12_agg (c : Dev nD) (h1 : NodeRange (S := S1000000) (A1 m c)) :
    W12 m ρ c (Proc.devRef .tc main_v26) = val_main_v47 (F := Ideal) (A0 m c) (A1 m c) (A2 m c) (A5 m c) (A6 m c) (A7 m c) := by
  rw [W12_v26, W10_v22 m ρ c h1, W10_arg1, W10_arg2]
  exact Cert.Bridge.agg2 (A0 m c) (A1 m c) (A2 m c) (A5 m c) (A6 m c) (A7 m c) h1
theorem W12_bias (c : Dev nD) : W12 m ρ c (Proc.devRef .tc main_v27) = rowOf (A8 m c) := by rw [W12_v27, W10_arg8]
theorem W12_v13 (c : Dev nD) : W12 m ρ c (Proc.devRef .tc main_v13) = colOf (degNorm (A1 m c)) := (W12_keep_v13 m ρ c).trans (W10_v13 m ρ c)
theorem W12_v14 (c : Dev nD) : W12 m ρ c (Proc.devRef .tc main_v14) = colOf (degNorm (A2 m c)) := (W12_keep_v14 m ρ c).trans (W10_v14 m ρ c)
theorem W12_arg1 (c : Dev nD) : W12 m ρ c (Proc.devRef .tc main_arg1) = (A1 m c) := (W12_keep_arg1 m ρ c).trans (W10_arg1 m ρ c)
theorem W12_arg2 (c : Dev nD) : W12 m ρ c (Proc.devRef .tc main_arg2) = (A2 m c) := (W12_keep_arg2 m ρ c).trans (W10_arg2 m ρ c)
theorem W12_arg9 (c : Dev nD) : W12 m ρ c (Proc.devRef .tc main_arg9) = (A9 m c) := (W12_keep_arg9 m ρ c).trans (W10_arg9 m ρ c)
theorem W12_arg10 (c : Dev nD) : W12 m ρ c (Proc.devRef .tc main_arg10) = (A10 m c) := (W12_keep_arg10 m ρ c).trans (W10_arg10 m ρ c)

theorem W13_v28 (c : Dev nD) (h1 : NodeRange (S := S1000000) (A1 m c)) :
    W13 m ρ c (Proc.devRef .tc main_v28) = val_main_v54 (F := Ideal) (A0 m c) (A1 m c) (A2 m c) (A5 m c) (A6 m c) (A7 m c) (A8 m c) := by
  refine (W13_arr m ρ c 3).trans ((Region3.final (V12 m ρ) c).trans ?_)
  show scaleBiasRelu (W12 m ρ c (Proc.devRef .tc main_v26)) (W12 m ρ c (Proc.devRef .tc main_v14)) (W12 m ρ c (Proc.devRef .tc main_v27)) = _
  rw [W12_agg m ρ c h1, W12_v14, W12_bias]
  exact Cert.ReferenceIdeal.Stages.conv2_out (A0 m c) (A1 m c) (A2 m c) (A5 m c) (A6 m c) (A7 m c) (A8 m c) (colOf (degNorm (A2 m c))) (fun r => by rw [colOf_apply, Cert.Bridge.deg_in]) (rowOf (A8 m c)) (fun q => rowOf_apply _ q)

theorem W13_v13 (c : Dev nD) : W13 m ρ c (Proc.devRef .tc main_v13) = colOf (degNorm (A1 m c)) := (W13_of_ne m ρ c main_v13 (by decide)).trans (W12_v13 m ρ c)
theorem W13_v14 (c : Dev nD) : W13 m ρ c (Proc.devRef .tc main_v14) = colOf (degNorm (A2 m c)) :=
  ((W13_arr m ρ c 1).trans (((dat3 (V12 m ρ) c).arrAt_in 1 rfl _).trans (A_eq3 (V12 m ρ) c 1))).trans (W12_v14 m ρ c)
theorem W13_arg1 (c : Dev nD) : W13 m ρ c (Proc.devRef .tc main_arg1) = (A1 m c) := (W13_of_ne m ρ c main_arg1 (by decide)).trans (W12_arg1 m ρ c)
theorem W13_arg2 (c : Dev nD) : W13 m ρ c (Proc.devRef .tc main_arg2) = (A2 m c) := (W13_of_ne m ρ c main_arg2 (by decide)).trans (W12_arg2 m ρ c)
theorem W13_arg9 (c : Dev nD) : W13 m ρ c (Proc.devRef .tc main_arg9) = (A9 m c) := (W13_of_ne m ρ c main_arg9 (by decide)).trans (W12_arg9 m ρ c)
theorem W13_arg10 (c : Dev nD) : W13 m ρ c (Proc.devRef .tc main_arg10) = (A10 m c) := (W13_of_ne m ρ c main_arg10 (by decide)).trans (W12_arg10 m ρ c)

/-! ## The third layer -/

theorem W14_v29 (c : Dev nD) (h1 : NodeRange (S := S1000000) (A1 m c)) :
    W14 m ρ c (Proc.devRef .tc main_v29) = val_main_v58 (F := Ideal) (A0 m c) (A1 m c) (A2 m c) (A5 m c) (A6 m c) (A7 m c) (A8 m c) (A9 m c) := by
  refine (W14_arr m ρ c 3).trans ((Region4.final (V13 m ρ) c).trans ?_)
  show scaleMatmul (W13 m ρ c (Proc.devRef .tc main_v28)) (W13 m ρ c (Proc.devRef .tc main_v13)) (W13 m ρ c (Proc.devRef .tc main_arg9)) = _
  rw [W13_v28 m ρ c h1, W13_v13, W13_arg9]
  exact Cert.ReferenceIdeal.Stages.conv3_proj (A0 m c) (A1 m c) (A2 m c) (A5 m c) (A6 m c) (A7 m c) (A8 m c) (A9 m c) (colOf (degNorm (A1 m c))) (fun r => by rw [colOf_apply, Cert.Bridge.deg_out])

theorem W14_v14 (c : Dev nD) : W14 m ρ c (Proc.devRef .tc main_v14) = colOf (degNorm (A2 m c)) := (W14_of_ne m ρ c main_v14 (by decide)).trans (W13_v14 m ρ c)
theorem W14_arg1 (c : Dev nD) : W14 m ρ c (Proc.devRef .tc main_arg1) = (A1 m c) := (W14_of_ne m ρ c main_arg1 (by decide)).trans (W13_arg1 m ρ c)
theorem W14_arg2 (c : Dev nD) : W14 m ρ c (Proc.devRef .tc main_arg2) = (A2 m c) := (W14_of_ne m ρ c main_arg2 (by decide)).trans (W13_arg2 m ρ c)
theorem W14_arg10 (c : Dev nD) : W14 m ρ c (Proc.devRef .tc main_arg10) = (A10 m c) := (W14_of_ne m ρ c main_arg10 (by decide)).trans (W13_arg10 m ρ c)

theorem W16_agg (c : Dev nD) (h1 : NodeRange (S := S1000000) (A1 m c)) :
    W16 m ρ c (Proc.devRef .tc main_v33) = val_main_v68 (F := Ideal) (A0 m c) (A1 m c) (A2 m c) (A5 m c) (A6 m c) (A7 m c) (A8 m c) (A9 m c) := by
  rw [W16_v33, W14_v29 m ρ c h1, W14_arg1, W14_arg2]
  exact Cert.Bridge.agg3 (A0 m c) (A1 m c) (A2 m c) (A5 m c) (A6 m c) (A7 m c) (A8 m c) (A9 m c) h1
theorem W16_bias (c : Dev nD) : W16 m ρ c (Proc.devRef .tc main_v34) = rowOf (A10 m c) := by rw [W16_v34, W14_arg10]
theorem W16_v14 (c : Dev nD) : W16 m ρ c (Proc.devRef .tc main_v14) = colOf (degNorm (A2 m c)) := (W16_keep_v14 m ρ c).trans (W14_v14 m ρ c)

theorem W17_v35 (c : Dev nD) (h1 : NodeRange (S := S1000000) (A1 m c)) :
    W17 m ρ c (Proc.devRef .tc main_v35) = val_main_v74 (F := Ideal) (A0 m c) (A1 m c) (A2 m c) (A5 m c) (A6 m c) (A7 m c) (A8 m c) (A9 m c) (A10 m c) := by
  refine (W17_arr m ρ c 3).trans ((Region5.final (V16 m ρ) c).trans ?_)
  show scaleBias (W16 m ρ c (Proc.devRef .tc main_v33)) (W16 m ρ c (Proc.devRef .tc main_v14)) (W16 m ρ c (Proc.devRef .tc main_v34)) = _
  rw [W16_agg m ρ c h1, W16_v14, W16_bias]
  exact Cert.ReferenceIdeal.Stages.conv3_out (A0 m c) (A1 m c) (A2 m c) (A5 m c) (A6 m c) (A7 m c) (A8 m c) (A9 m c) (A10 m c) (colOf (degNorm (A2 m c))) (fun r => by rw [colOf_apply, Cert.Bridge.deg_in]) (rowOf (A10 m c)) (fun q => rowOf_apply _ q)

/-! ## The pair rows and the last launch -/

-- the arguments the last stretches read, from the far end: they end as launched, and neither the last launch nor the
-- last stretches write them
theorem W17_arg3 (c : Dev nD) : W17 m ρ c (Proc.devRef .tc main_arg3) = (A3 m c) :=
  ((W20_keep_arg3 m ρ c).symm.trans (W21_of_ne m ρ c main_arg3 (by decide)).symm).trans (W21_main_arg3 m ρ c)
theorem W17_arg4 (c : Dev nD) : W17 m ρ c (Proc.devRef .tc main_arg4) = (A4 m c) :=
  ((W20_keep_arg4 m ρ c).symm.trans (W21_of_ne m ρ c main_arg4 (by decide)).symm).trans (W21_main_arg4 m ρ c)
theorem W17_arg12 (c : Dev nD) : W17 m ρ c (Proc.devRef .tc main_arg12) = (A12 m c) :=
  ((W20_keep_arg12 m ρ c).symm.trans (W21_of_ne m ρ c main_arg12 (by decide)).symm).trans (W21_main_arg12 m ρ c)
theorem W17_arg14 (c : Dev nD) : W17 m ρ c (Proc.devRef .tc main_arg14) = (A14 m c) :=
  ((W20_keep_arg14 m ρ c).symm.trans (W21_of_ne m ρ c main_arg14 (by decide)).symm).trans (W21_main_arg14 m ρ c)
theorem W20_arg11 (c : Dev nD) : W20 m ρ c (Proc.devRef .tc main_arg11) = (A11 m c) :=
  ((W21_arr m ρ c 1).trans (((dat6 (V20 m ρ) c).arrAt_in 1 rfl _).trans (A_eq6 (V20 m ρ) c 1))).symm.trans (W21_main_arg11 m ρ c)
theorem W20_arg13 (c : Dev nD) : W20 m ρ c (Proc.devRef .tc main_arg13) = (A13 m c) :=
  ((W21_arr m ρ c 3).trans (((dat6 (V20 m ρ) c).arrAt_in 3 rfl _).trans (A_eq6 (V20 m ρ) c 3))).symm.trans (W21_main_arg13 m ρ c)

theorem W20_pair (c : Dev nD) (h1 : NodeRange (S := S1000000) (A1 m c)) (h3 : NodeRange (S := S200000) (A3 m c)) (h4 : NodeRange (S := S200000) (A4 m c)) :
    W20 m ρ c (Proc.devRef .tc main_v38) = val_main_v89 (F := Ideal) (A0 m c) (A1 m c) (A2 m c) (A3 m c) (A4 m c) (A5 m c) (A6 m c) (A7 m c) (A8 m c) (A9 m c) (A10 m c) := by
  rw [W20_v38, W17_v35 m ρ c h1, W17_arg3, W17_arg4]
  exact Cert.Bridge.pair (A0 m c) (A1 m c) (A2 m c) (A3 m c) (A4 m c) (A5 m c) (A6 m c) (A7 m c) (A8 m c) (A9 m c) (A10 m c) h3 h4
theorem W20_bias1 (c : Dev nD) : W20 m ρ c (Proc.devRef .tc main_v39) = rowOf (A12 m c) := by rw [W20_v39, W17_arg12]
theorem W20_bias2 (c : Dev nD) : W20 m ρ c (Proc.devRef .tc main_v40) = rowOf2 (A14 m c) := by rw [W20_v40, W17_arg14]

/-- THE RESULT ARRAY the idealized kernel program ends with is the reference's last stage of the same arguments. -/
theorem result_eq (c : Dev nD) (h1 : NodeRange (S := S1000000) (A1 m c)) (h3 : NodeRange (S := S200000) (A3 m c)) (h4 : NodeRange (S := S200000) (A4 m c)) :
    W21 m ρ c (Proc.devRef .tc main_v41) = val_main_v109 (F := Ideal) (A0 m c) (A1 m c) (A2 m c) (A3 m c) (A4 m c) (A5 m c) (A6 m c) (A7 m c) (A8 m c) (A9 m c) (A10 m c) (A11 m c) (A12 m c) (A13 m c) (A14 m c) := by
  refine (W21_arr m ρ c 5).trans ((Region6.final (V20 m ρ) c).trans ?_)
  show mlpSoftmax (W20 m ρ c (Proc.devRef .tc main_v38)) (W20 m ρ c (Proc.devRef .tc main_arg11)) (W20 m ρ c (Proc.devRef .tc main_v39)) (W20 m ρ c (Proc.devRef .tc main_arg13)) (W20 m ρ c (Proc.devRef .tc main_v40)) = _
  rw [W20_pair m ρ c h1 h3 h4, W20_arg11, W20_bias1, W20_arg13, W20_bias2]
  exact Cert.ReferenceIdeal.Stages.head (A0 m c) (A1 m c) (A2 m c) (A3 m c) (A4 m c) (A5 m c) (A6 m c) (A7 m c) (A8 m c) (A9 m c) (A10 m c) (A11 m c) (A12 m c) (A13 m c) (A14 m c) (rowOf (A12 m c)) (fun q => rowOf_apply _ q) (rowOf2 (A14 m c)) (fun q => rowOf2_apply _ q)

end Cert.KernelIdeal.Chain

end
-- ==== Proof.lean ====
/-
  The certificate of a three-layer graph convolution (degree-normalised on both sides, weight first) followed by a
  two-layer perceptron and a softmax over gene pairs, written as seven launches among host operations, against its
  plain reference — under the precondition that every float input is finite and every listed node number (edge
  sources, both genes of every pair) is a node: 0 ≤ index < 100000.

  The three frames: the two kernel programs' are the generated frames; the reference's is its generated run with the
  result dropped. The kernel is its own idealization (the idealizing pass rewrote nothing).
  The value claim: both programs end with the SAME array. The idealized kernel program's run names its result as what
  the fold through @main leaves (`Run.run_result`); that array is the reference's last stage of the same arguments
  (`Chain.result_eq`): every launch is one whole-array function of the arrays it finds (a scaled row times a matrix;
  a scaled row plus a bias, rectified or not; the perceptron with its softmax), the host stretches between them are
  the reference's own operations, and the kernel program's masked row lookups are the reference's plain ones because
  the node numbers are in range (read off the precondition).
-/
import proofs.«400118_j7739531067711_2_alg».proof.Defs
import proofs.«400118_j7739531067711_2_alg».proof.Proof.Gen.Kernel
import proofs.«400118_j7739531067711_2_alg».proof.Proof.Gen.Kernel.Skeleton
import proofs.«400118_j7739531067711_2_alg».proof.Proof.Gen.Kernel.Launch
import proofs.«400118_j7739531067711_2_alg».proof.Proof.Gen.Kernel.Points
import proofs.«400118_j7739531067711_2_alg».proof.Proof.Gen.Kernel.Frame
import proofs.«400118_j7739531067711_2_alg».proof.Proof.Gen.KernelIdeal
import proofs.«400118_j7739531067711_2_alg».proof.Proof.Gen.KernelIdeal.Skeleton
import proofs.«400118_j7739531067711_2_alg».proof.Proof.Gen.KernelIdeal.Launch
import proofs.«400118_j7739531067711_2_alg».proof.Proof.Gen.KernelIdeal.Points
import proofs.«400118_j7739531067711_2_alg».proof.Proof.Gen.KernelIdeal.Frame
import proofs.«400118_j7739531067711_2_alg».proof.Proof.Gen.ReferenceIdeal
import proofs.«400118_j7739531067711_2_alg».proof.Proof.Gen.ReferenceIdeal.Run
import proofs.«400118_j7739531067711_2_alg».proof.Proof.Gen.ReferenceIdeal.Read
import proofs.«400118_j7739531067711_2_alg».proof.Proof.Gen.Pre_finite_inputs
import proofs.«400118_j7739531067711_2_alg».proof.Proof.KRun
import proofs.«400118_j7739531067711_2_alg».proof.Proof.KValue
import proofs.«400118_j7739531067711_2_alg».proof.Proof.TakeMask
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with one array: the kernel program's result is the reference's last stage of the
    arguments, and the reference's run ends there. -/
theorem algebraic : Cert.algebraic_KernelIdeal_ReferenceIdeal := by
  intro m ρ m' ρ' hpre hagree
  refine ⟨fun c => Cert.KernelIdeal.Gen.W21 m ρ c (Proc.devRef .tc Cert.KernelIdeal.main_v41), Cert.KernelIdeal.Run.run_result m ρ, ?_⟩
  refine (θ_run Cert.ReferenceIdeal.defs _ _).mono (fun r h c => ⟨(h c).1.trans ?_, (h c).2⟩)
    (Cert.ReferenceIdeal.Value.run (F := Ideal) m' ρ')
  obtain ⟨h1, h3, h4⟩ := Cert.KernelIdeal.Take.ranges_of_pre _ _ _ _ _ _ _ _ _ _ _ _ _ _ _ (hpre c)
  obtain ⟨e0, e1, e2, e3, e4, e5, e6, e7, e8, e9, e10, e11, e12, e13, e14⟩ := hagree c
  rw [Cert.ReferenceIdeal.Read.val_main_v109_eq, e0, e1, e2, e3, e4, e5, e6, e7, e8, e9, e10, e11, e12, e13, e14]
  exact (Cert.KernelIdeal.Chain.result_eq m ρ c h1 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
